-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S20000x64 : Shape := ⟨2, ![20000, 64]⟩
abbrev S2000000 : Shape := ⟨1, ![2000000]⟩
abbrev S64x64 : Shape := ⟨2, ![64, 64]⟩
abbrev S64 : Shape := ⟨1, ![64]⟩
abbrev S256x64 : Shape := ⟨2, ![256, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S16384 : Shape := ⟨1, ![16384]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S2000000 : S_.BroadcastsInDim S2000000 (![] : Fin 0 → Fin S2000000.rank)
  reducesTo_S2000000_S_d0 : S2000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S32x1 .f32) (main_arg14 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg13
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S256x64 .f32) (main_arg10 : FVec F S64 .f32) (main_arg11 : FVec F S64x32 .f32) (main_arg12 : FVec F S32 .f32) (main_arg13 : FVec F S32x1 .f32) (main_arg14 : FVec F S1 .f32) (main_v33 : IVec S_ 1) : IVec S_ 1 :=
  let main_v34 : FVec F S256x64 .f32 := Host.absf main_arg9
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S64 .f32) (main_arg7 : FVec F S64x64 .f32) (main_arg8 : FVec F S64 .f32) (main_arg9 : FVec F S256x64 .f32) (main_arg10 : FVec F S64 .f32) (main_arg11 : FVec F S64x32 .f32) (main_arg12 : FVec F S32 .f32) (main_arg13 : FVec F S32x1 .f32) (main_arg14 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x64 .f32) (main_arg1 : FVec F S20000x64 .f32) (main_arg2 : IVec S2000000 32) (main_arg3 : IVec S2000000 32) (main_arg4 : FVec F S2000000 .f32) (main_arg5 : FVec F S64x64 .f32) (main_arg6 : FVec F S64 .f32) (main_arg7 : FVec F S64x64 .f32) (main_arg8 : FVec F S64 .f32) (main_arg9 : FVec F S256x64 .f32) (main_arg10 : FVec F S64 .f32) (main_arg11 : FVec F S64x32 .f32) (main_arg12 : FVec F S32 .f32) (main_arg13 : FVec F S32x1 .f32) (main_arg14 : FVec F S1 .f32) (main_arg15 : IVec S16384 32) (main_arg16 : IVec S16384 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S2000000 .f32 := Host.absf main_arg4
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S50000x64 : Shape := ⟨2, ![50000, 64]⟩
abbrev S20000x64 : Shape := ⟨2, ![20000, 64]⟩
abbrev S2000000 : Shape := ⟨1, ![2000000]⟩
abbrev S64x64 : Shape := ⟨2, ![64, 64]⟩
abbrev S64 : Shape := ⟨1, ![64]⟩
abbrev S256x64 : Shape := ⟨2, ![256, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S16384 : Shape := ⟨1, ![16384]⟩
abbrev S70000x64 : Shape := ⟨2, ![70000, 64]⟩
abbrev S_ : Shape := ⟨0, ![]⟩
abbrev S2000000x1 : Shape := ⟨2, ![2000000, 1]⟩
abbrev S2000000x64 : Shape := ⟨2, ![2000000, 64]⟩
abbrev S2000000x128 : Shape := ⟨2, ![2000000, 128]⟩
abbrev S70000x128 : Shape := ⟨2, ![70000, 128]⟩
abbrev S1x64 : Shape := ⟨2, ![1, 64]⟩
abbrev S7000x64 : Shape := ⟨2, ![7000, 64]⟩
abbrev S7000x128 : Shape := ⟨2, ![7000, 128]⟩
abbrev S16384x1 : Shape := ⟨2, ![16384, 1]⟩
abbrev S16384x128 : Shape := ⟨2, ![16384, 128]⟩
abbrev S128x64 : Shape := ⟨2, ![128, 64]⟩
abbrev S1x32 : Shape := ⟨2, ![1, 32]⟩
abbrev S1x1 : Shape := ⟨2, ![1, 1]⟩
abbrev S2048x128 : Shape := ⟨2, ![2048, 128]⟩
abbrev S2048x1 : Shape := ⟨2, ![2048, 1]⟩
abbrev S2048x64 : Shape := ⟨2, ![2048, 64]⟩
abbrev S2048x32 : Shape := ⟨2, ![2048, 32]⟩

abbrev nBuf : Space → Nat
  | .hbm => 72
  | .vmem => 25
  | .smem => 0
  | _ => 0

abbrev bufTy : (tb : Table) → Fin (tcTables nBuf tb) → BufTy
  | .hbm, ⟨0, _⟩ => ⟨S50000x64, .f32⟩
  | .hbm, ⟨1, _⟩ => ⟨S20000x64, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S256x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S16384, .i32⟩
  | .hbm, ⟨16, _⟩ => ⟨S16384, .i32⟩
  | .hbm, ⟨17, _⟩ => ⟨S70000x64, .f32⟩
  | .hbm, ⟨18, _⟩ => ⟨S_, .i32⟩
  | .hbm, ⟨19, _⟩ => ⟨S2000000, .i32⟩
  | .hbm, ⟨20, _⟩ => ⟨S2000000, .i1⟩
  | .hbm, ⟨21, _⟩ => ⟨S_, .i32⟩
  | .hbm, ⟨22, _⟩ => ⟨S2000000, .i32⟩
  | .hbm, ⟨23, _⟩ => ⟨S2000000, .i32⟩
  | .hbm, ⟨24, _⟩ => ⟨S2000000, .i32⟩
  | .hbm, ⟨25, _⟩ => ⟨S2000000x1, .i32⟩
  | .hbm, ⟨26, _⟩ => ⟨S2000000x64, .f32⟩
  | .hbm, ⟨27, _⟩ => ⟨S2000000x1, .f32⟩
  | .hbm, ⟨28, _⟩ => ⟨S2000000x64, .f32⟩
  | .hbm, ⟨29, _⟩ => ⟨S2000000x64, .f32⟩
  | .hbm, ⟨30, _⟩ => ⟨S2000000x1, .f32⟩
  | .hbm, ⟨31, _⟩ => ⟨S2000000x64, .f32⟩
  | .hbm, ⟨32, _⟩ => ⟨S2000000x64, .f32⟩
  | .hbm, ⟨33, _⟩ => ⟨S2000000x64, .f32⟩
  | .hbm, ⟨34, _⟩ => ⟨S2000000x128, .f32⟩
  | .hbm, ⟨35, _⟩ => ⟨S_, .f32⟩
  | .hbm, ⟨36, _⟩ => ⟨S70000x128, .f32⟩
  | .hbm, ⟨37, _⟩ => ⟨S2000000x1, .i32⟩
  | .hbm, ⟨38, _⟩ => ⟨S70000x128, .f32⟩
  | .hbm, ⟨39, _⟩ => ⟨S70000x64, .f32⟩
  | .hbm, ⟨40, _⟩ => ⟨S70000x64, .f32⟩
  | .hbm, ⟨41, _⟩ => ⟨S1x64, .f32⟩
  | .hbm, ⟨42, _⟩ => ⟨S1x64, .f32⟩
  | .hbm, ⟨43, _⟩ => ⟨S70000x128, .f32⟩
  | .hbm, ⟨44, _⟩ => ⟨S_, .i32⟩
  | .hbm, ⟨45, _⟩ => ⟨S16384, .i32⟩
  | .hbm, ⟨46, _⟩ => ⟨S16384, .i1⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S16384, .i32⟩
  | .hbm, ⟨51, _⟩ => ⟨S16384x1, .i32⟩
  | .hbm, ⟨52, _⟩ => ⟨S16384x128, .f32⟩
  | .hbm, ⟨53, _⟩ => ⟨S_, .i32⟩
  | .hbm, ⟨54, _⟩ => ⟨S16384, .i32⟩
  | .hbm, ⟨55, _⟩ => ⟨S16384, .i32⟩
  | .hbm, ⟨56, _⟩ => ⟨S_, .i32⟩
  | .hbm, ⟨57, _⟩ => ⟨S16384, .i32⟩
  | .hbm, ⟨58, _⟩ => ⟨S16384, .i1⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .i32⟩
  | .hbm, ⟨63, _⟩ => ⟨S16384x1, .i32⟩
  | .hbm, ⟨64, _⟩ => ⟨S16384x128, .f32⟩
  | .hbm, ⟨65, _⟩ => ⟨S128x64, .f32⟩
  | .hbm, ⟨66, _⟩ => ⟨S128x64, .f32⟩
  | .hbm, ⟨67, _⟩ => ⟨S1x64, .f32⟩
  | .hbm, ⟨68, _⟩ => ⟨S1x32, .f32⟩
  | .hbm, ⟨69, _⟩ => ⟨S1x1, .f32⟩
  | .hbm, ⟨70, _⟩ => ⟨S16384x1, .f32⟩
  | .hbm, ⟨71, _⟩ => ⟨S16384, .f32⟩
  | .local _ .vmem, ⟨0, _⟩ => ⟨S7000x64, .f32⟩
  | .local _ .vmem, ⟨1, _⟩ => ⟨S7000x64, .f32⟩
  | .local _ .vmem, ⟨2, _⟩ => ⟨S7000x64, .f32⟩
  | .local _ .vmem, ⟨3, _⟩ => ⟨S7000x64, .f32⟩
  | .local _ .vmem, ⟨4, _⟩ => ⟨S7000x64, .f32⟩
  | .local _ .vmem, ⟨5, _⟩ => ⟨S7000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S7000x128, .f32⟩
  | .local _ .vmem, ⟨11, _⟩ => ⟨S7000x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S128x64, .f32⟩
  | .local _ .vmem, ⟨17, _⟩ => ⟨S128x64, .f32⟩
  | .local _ .vmem, ⟨18, _⟩ => ⟨S1x64, .f32⟩
  | .local _ .vmem, ⟨19, _⟩ => ⟨S64x32, .f32⟩
  | .local _ .vmem, ⟨20, _⟩ => ⟨S1x32, .f32⟩
  | .local _ .vmem, ⟨21, _⟩ => ⟨S32x1, .f32⟩
  | .local _ .vmem, ⟨22, _⟩ => ⟨S1x1, .f32⟩
  | .local _ .vmem, ⟨23, _⟩ => ⟨S2048x1, .f32⟩
  | .local _ .vmem, ⟨24, _⟩ => ⟨S2048x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_1 : Ref sig .tc := ⟨.hbm, 44, rfl⟩
abbrev main_v24 : Ref sig .tc := ⟨.hbm, 45, rfl⟩
abbrev main_v25 : Ref sig .tc := ⟨.hbm, 46, rfl⟩
abbrev main_c_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_3 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S7000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  concatenates_S50000x64_S20000x64_S70000x64_d0 : Shape.Concatenates [S50000x64, S20000x64] S70000x64 0
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  concatenates_S2000000x64_S2000000x64_S2000000x128_d1 : Shape.Concatenates [S2000000x64, S2000000x64] S2000000x128 1
  bcast_S_S70000x128 : S_.BroadcastsInDim S70000x128 (![] : Fin 0 → Fin S70000x128.rank)
  slices_S70000x128_S70000x64_0_0 : S70000x128.Slices ![0, 0] S70000x64
  slices_S70000x128_S70000x64_0_64 : S70000x128.Slices ![0, 64] S70000x64
  shapeCasts_S64_S1x64 : S64.ShapeCasts S1x64
  inb_S7000x64_S7000x64_0_0 : ∀ a, (![0, 0] : Fin 2 → Nat) a + S7000x64.size a ≤ S7000x64.size a
  h_S7000x64 : 0 < S7000x64.numel
  shapeCasts_S7000x64_S7000x64 : S7000x64.ShapeCasts S7000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S7000x64 : S1x64.Broadcasts S7000x64
  inb_S7000x128_S7000x64_0_0 : ∀ a, (![0, 0] : Fin 2 → Nat) a + S7000x64.size a ≤ S7000x128.size a
  inb_S7000x128_S7000x64_0_64 : ∀ a, (![0, 64] : Fin 2 → Nat) a + S7000x64.size a ≤ S7000x128.size a
  bcast_S_S16384 : S_.BroadcastsInDim S16384 (![] : Fin 0 → Fin S16384.rank)
  bcast_S16384_S16384x1_0 : S16384.BroadcastsInDim S16384x1 (![0] : Fin 1 → Fin S16384x1.rank)
  slices_S256x64_S128x64_0_0 : S256x64.Slices ![0, 0] S128x64
  slices_S256x64_S128x64_128_0 : S256x64.Slices ![128, 0] S128x64
  shapeCasts_S32_S1x32 : S32.ShapeCasts S1x32
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S2048x64 : S1x64.Broadcasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S16384x1_S16384 : S16384x1.ShapeCasts S16384
  gather_S70000x64_S2000000x1_S2000000x64_1_0_n_n_0_1_164_wf : GatherDims.WF S70000x64 S2000000x1 S2000000x64 [1] [0] [] [0] [] 1 ![1, 64]
  scatter_S70000x128_S2000000x1_S2000000x128_1_0_0_1_wf : ScatterDims.WF S70000x128 S2000000x1 S2000000x128 [1] [0] [0] 1
  dot_S7000x64_S64x64_S7000x64_1_0_0_1_n_n_wf : DotDims.WF S7000x64 S64x64 S7000x64 [1] [0] [0] [1] [] []
  gather_S70000x128_S16384x1_S16384x128_1_0_n_n_0_1_1128_wf : GatherDims.WF S70000x128 S16384x1 S16384x128 [1] [0] [] [0] [] 1 ![1, 128]
  dot_S2048x128_S128x64_S2048x64_1_0_0_1_n_n_wf : DotDims.WF S2048x128 S128x64 S2048x64 [1] [0] [0] [1] [] []
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7000x64.size a ≤ S70000x64.size a
  hwx0_0 : ∀ i : grid0.Coords, EltTy.bits .f32 = 32 ∨ (Rect.block (s := S70000x64) S7000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7000x64.size a ≤ S70000x64.size a
  hwx0_1 : ∀ i : grid0.Coords, EltTy.bits .f32 = 32 ∨ (Rect.block (s := S70000x64) S7000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S7000x64.size a ≤ S70000x64.size a
  hwx0_2 : ∀ i : grid0.Coords, EltTy.bits .f32 = 32 ∨ (Rect.block (s := S70000x64) S7000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S7000x128.size a ≤ S70000x128.size a
  hwx0_7 : ∀ i : grid0.Coords, EltTy.bits .f32 = 32 ∨ (Rect.block (s := S70000x128) S7000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S32x1.size a
  hwx1_7 : ∀ i : grid1.Coords, EltTy.bits .f32 = 32 ∨ (Rect.block (s := S32x1) S32x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x1.size a ≤ S16384x1.size a
  hwx1_9 : ∀ i : grid1.Coords, EltTy.bits .f32 = 32 ∨ (Rect.block (s := S16384x1) S2048x1.size (cc1_transform_9 i) (hinb1_9 i)).WholeWords (EltTy.packing .f32)

variable [Facts₀]

def gather_S70000x64_S2000000x1_S2000000x64_1_0_n_n_0_1_164 : GatherDims S70000x64 S2000000x1 S2000000x64 where
  offsetDims := [1]
  collapsedSliceDims := [0]
  operandBatchingDims := []
  startIndicesBatchingDims := []
  startIndexMap := [0]
  indexVectorDim := 1
  sliceSizes := ![1, 64]
  wf := gather_S70000x64_S2000000x1_S2000000x64_1_0_n_n_0_1_164_wf
def scatter_S70000x128_S2000000x1_S2000000x128_1_0_0_1 : ScatterDims S70000x128 S2000000x1 S2000000x128 where
  updateWindowDims := [1]
  insertedWindowDims := [0]
  scatterDimsToOperandDims := [0]
  indexVectorDim := 1
  wf := scatter_S70000x128_S2000000x1_S2000000x128_1_0_0_1_wf
def dot_S7000x64_S64x64_S7000x64_1_0_0_1_n_n : DotDims S7000x64 S64x64 S7000x64 where
  lhsContracting := [1]
  rhsContracting := [0]
  lhsNonContracting := [0]
  rhsNonContracting := [1]
  lhsBatch := []
  rhsBatch := []
  wf := dot_S7000x64_S64x64_S7000x64_1_0_0_1_n_n_wf
def gather_S70000x128_S16384x1_S16384x128_1_0_n_n_0_1_1128 : GatherDims S70000x128 S16384x1 S16384x128 where
  offsetDims := [1]
  collapsedSliceDims := [0]
  operandBatchingDims := []
  startIndicesBatchingDims := []
  startIndexMap := [0]
  indexVectorDim := 1
  sliceSizes := ![1, 128]
  wf := gather_S70000x128_S16384x1_S16384x128_1_0_n_n_0_1_1128_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_v0) S7000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S7000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S7000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S7000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S32x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v45) S2048x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x64 : Shape := ⟨2, ![50000, 64]⟩
abbrev S20000x64 : Shape := ⟨2, ![20000, 64]⟩
abbrev S2000000 : Shape := ⟨1, ![2000000]⟩
abbrev S64x64 : Shape := ⟨2, ![64, 64]⟩
abbrev S64 : Shape := ⟨1, ![64]⟩
abbrev S256x64 : Shape := ⟨2, ![256, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S16384 : Shape := ⟨1, ![16384]⟩
abbrev S70000x64 : Shape := ⟨2, ![70000, 64]⟩
abbrev S2000000x1 : Shape := ⟨2, ![2000000, 1]⟩
abbrev S_ : Shape := ⟨0, ![]⟩
abbrev S2000000x64 : Shape := ⟨2, ![2000000, 64]⟩
abbrev S1x64 : Shape := ⟨2, ![1, 64]⟩
abbrev S70000x128 : Shape := ⟨2, ![70000, 128]⟩
abbrev S16384x1 : Shape := ⟨2, ![16384, 1]⟩
abbrev S16384x128 : Shape := ⟨2, ![16384, 128]⟩
abbrev S16384x256 : Shape := ⟨2, ![16384, 256]⟩
abbrev S16384x64 : Shape := ⟨2, ![16384, 64]⟩
abbrev S16384x32 : Shape := ⟨2, ![16384, 32]⟩
abbrev S1x32 : Shape := ⟨2, ![1, 32]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S20000x64, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S256x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S16384, .i32⟩
  | .hbm, ⟨16, _⟩ => ⟨S16384, .i32⟩
  | .hbm, ⟨17, _⟩ => ⟨S70000x64, .f32⟩
  | .hbm, ⟨18, _⟩ => ⟨S2000000x1, .f32⟩
  | .hbm, ⟨19, _⟩ => ⟨S_, .i32⟩
  | .hbm, ⟨20, _⟩ => ⟨S2000000, .i32⟩
  | .hbm, ⟨21, _⟩ => ⟨S2000000, .i1⟩
  | .hbm, ⟨22, _⟩ => ⟨S_, .i32⟩
  | .hbm, ⟨23, _⟩ => ⟨S2000000, .i32⟩
  | .hbm, ⟨24, _⟩ => ⟨S2000000, .i32⟩
  | .hbm, ⟨25, _⟩ => ⟨S2000000, .i32⟩
  | .hbm, ⟨26, _⟩ => ⟨S2000000x1, .i32⟩
  | .hbm, ⟨27, _⟩ => ⟨S2000000x64, .f32⟩
  | .hbm, ⟨28, _⟩ => ⟨S2000000x64, .f32⟩
  | .hbm, ⟨29, _⟩ => ⟨S2000000x64, .f32⟩
  | .hbm, ⟨30, _⟩ => ⟨S_, .f32⟩
  | .hbm, ⟨31, _⟩ => ⟨S70000x64, .f32⟩
  | .hbm, ⟨32, _⟩ => ⟨S2000000x1, .i32⟩
  | .hbm, ⟨33, _⟩ => ⟨S70000x64, .f32⟩
  | .hbm, ⟨34, _⟩ => ⟨S70000x64, .f32⟩
  | .hbm, ⟨35, _⟩ => ⟨S2000000x1, .f32⟩
  | .hbm, ⟨36, _⟩ => ⟨S_, .i32⟩
  | .hbm, ⟨37, _⟩ => ⟨S2000000, .i32⟩
  | .hbm, ⟨38, _⟩ => ⟨S2000000, .i1⟩
  | .hbm, ⟨39, _⟩ => ⟨S_, .i32⟩
  | .hbm, ⟨40, _⟩ => ⟨S2000000, .i32⟩
  | .hbm, ⟨41, _⟩ => ⟨S2000000, .i32⟩
  | .hbm, ⟨42, _⟩ => ⟨S2000000, .i32⟩
  | .hbm, ⟨43, _⟩ => ⟨S2000000x1, .i32⟩
  | .hbm, ⟨44, _⟩ => ⟨S2000000x64, .f32⟩
  | .hbm, ⟨45, _⟩ => ⟨S2000000x64, .f32⟩
  | .hbm, ⟨46, _⟩ => ⟨S2000000x64, .f32⟩
  | .hbm, ⟨47, _⟩ => ⟨S_, .f32⟩
  | .hbm, ⟨48, _⟩ => ⟨S70000x64, .f32⟩
  | .hbm, ⟨49, _⟩ => ⟨S2000000x1, .i32⟩
  | .hbm, ⟨50, _⟩ => ⟨S70000x64, .f32⟩
  | .hbm, ⟨51, _⟩ => ⟨S70000x64, .f32⟩
  | .hbm, ⟨52, _⟩ => ⟨S70000x64, .f32⟩
  | .hbm, ⟨53, _⟩ => ⟨S1x64, .f32⟩
  | .hbm, ⟨54, _⟩ => ⟨S70000x64, .f32⟩
  | .hbm, ⟨55, _⟩ => ⟨S70000x64, .f32⟩
  | .hbm, ⟨56, _⟩ => ⟨S70000x64, .f32⟩
  | .hbm, ⟨57, _⟩ => ⟨S1x64, .f32⟩
  | .hbm, ⟨58, _⟩ => ⟨S70000x64, .f32⟩
  | .hbm, ⟨59, _⟩ => ⟨S70000x64, .f32⟩
  | .hbm, ⟨60, _⟩ => ⟨S70000x64, .f32⟩
  | .hbm, ⟨61, _⟩ => ⟨S_, .f32⟩
  | .hbm, ⟨62, _⟩ => ⟨S_, .f32⟩
  | .hbm, ⟨63, _⟩ => ⟨S70000x64, .f32⟩
  | .hbm, ⟨64, _⟩ => ⟨S70000x64, .i1⟩
  | .hbm, ⟨65, _⟩ => ⟨S_, .f32⟩
  | .hbm, ⟨66, _⟩ => ⟨S70000x64, .f32⟩
  | .hbm, ⟨67, _⟩ => ⟨S70000x64, .f32⟩
  | .hbm, ⟨68, _⟩ => ⟨S70000x64, .f32⟩
  | .hbm, ⟨69, _⟩ => ⟨S70000x128, .f32⟩
  | .hbm, ⟨70, _⟩ => ⟨S_, .i32⟩
  | .hbm, ⟨71, _⟩ => ⟨S16384, .i32⟩
  | .hbm, ⟨72, _⟩ => ⟨S16384, .i1⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S16384, .i32⟩
  | .hbm, ⟨77, _⟩ => ⟨S16384x1, .i32⟩
  | .hbm, ⟨78, _⟩ => ⟨S16384x128, .f32⟩
  | .hbm, ⟨79, _⟩ => ⟨S_, .i32⟩
  | .hbm, ⟨80, _⟩ => ⟨S16384, .i32⟩
  | .hbm, ⟨81, _⟩ => ⟨S16384, .i32⟩
  | .hbm, ⟨82, _⟩ => ⟨S_, .i32⟩
  | .hbm, ⟨83, _⟩ => ⟨S16384, .i32⟩
  | .hbm, ⟨84, _⟩ => ⟨S16384, .i1⟩
  | .hbm, ⟨85, _⟩ => ⟨S_, .i32⟩
  | .hbm, ⟨86, _⟩ => ⟨S16384, .i32⟩
  | .hbm, ⟨87, _⟩ => ⟨S16384, .i32⟩
  | .hbm, ⟨88, _⟩ => ⟨S16384, .i32⟩
  | .hbm, ⟨89, _⟩ => ⟨S16384x1, .i32⟩
  | .hbm, ⟨90, _⟩ => ⟨S16384x128, .f32⟩
  | .hbm, ⟨91, _⟩ => ⟨S16384x256, .f32⟩
  | .hbm, ⟨92, _⟩ => ⟨S16384x64, .f32⟩
  | .hbm, ⟨93, _⟩ => ⟨S1x64, .f32⟩
  | .hbm, ⟨94, _⟩ => ⟨S16384x64, .f32⟩
  | .hbm, ⟨95, _⟩ => ⟨S16384x64, .f32⟩
  | .hbm, ⟨96, _⟩ => ⟨S_, .f32⟩
  | .hbm, ⟨97, _⟩ => ⟨S16384x64, .f32⟩
  | .hbm, ⟨98, _⟩ => ⟨S16384x64, .f32⟩
  | .hbm, ⟨99, _⟩ => ⟨S16384x32, .f32⟩
  | .hbm, ⟨100, _⟩ => ⟨S1x32, .f32⟩
  | .hbm, ⟨101, _⟩ => ⟨S16384x32, .f32⟩
  | .hbm, ⟨102, _⟩ => ⟨S16384x32, .f32⟩
  | .hbm, ⟨103, _⟩ => ⟨S_, .f32⟩
  | .hbm, ⟨104, _⟩ => ⟨S16384x32, .f32⟩
  | .hbm, ⟨105, _⟩ => ⟨S16384x32, .f32⟩
  | .hbm, ⟨106, _⟩ => ⟨S16384x1, .f32⟩
  | .hbm, ⟨107, _⟩ => ⟨S1x1, .f32⟩
  | .hbm, ⟨108, _⟩ => ⟨S16384x1, .f32⟩
  | .hbm, ⟨109, _⟩ => ⟨S16384x1, .f32⟩
  | .hbm, ⟨110, _⟩ => ⟨S16384, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_4 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v38 : Ref sig .tc := ⟨.hbm, 68, rfl⟩
abbrev main_v39 : Ref sig .tc := ⟨.hbm, 69, rfl⟩
abbrev main_c_5 : Ref sig .tc := ⟨.hbm, 70, rfl⟩
abbrev main_v40 : Ref sig .tc := ⟨.hbm, 71, rfl⟩
abbrev main_v41 : Ref sig .tc := ⟨.hbm, 72, rfl⟩
abbrev main_c_6 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_7 : Ref sig .tc := ⟨.hbm, 79, rfl⟩
abbrev main_v47 : Ref sig .tc := ⟨.hbm, 80, rfl⟩
abbrev main_v48 : Ref sig .tc := ⟨.hbm, 81, rfl⟩
abbrev main_c_8 : Ref sig .tc := ⟨.hbm, 82, rfl⟩
abbrev main_v49 : Ref sig .tc := ⟨.hbm, 83, rfl⟩
abbrev main_v50 : Ref sig .tc := ⟨.hbm, 84, rfl⟩
abbrev main_c_9 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_call1_cst : Ref sig .tc := ⟨.hbm, 96, rfl⟩
abbrev main_call1_v0 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_call2_cst : Ref sig .tc := ⟨.hbm, 103, rfl⟩
abbrev main_call2_v0 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]

class Facts₀ : Prop where
  concatenates_S50000x64_S20000x64_S70000x64_d0 : Shape.Concatenates [S50000x64, S20000x64] S70000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S70000x64 : S_.BroadcastsInDim S70000x64 (![] : Fin 0 → Fin S70000x64.rank)
  bcast_S64_S1x64_1 : S64.BroadcastsInDim S1x64 (![1] : Fin 1 → Fin S1x64.rank)
  bcast_S1x64_S70000x64_0_1 : S1x64.BroadcastsInDim S70000x64 (![0, 1] : Fin 2 → Fin S70000x64.rank)
  concatenates_S70000x64_S70000x64_S70000x128_d1 : Shape.Concatenates [S70000x64, S70000x64] S70000x128 1
  bcast_S_S16384 : S_.BroadcastsInDim S16384 (![] : Fin 0 → Fin S16384.rank)
  bcast_S16384_S16384x1_0 : S16384.BroadcastsInDim S16384x1 (![0] : Fin 1 → Fin S16384x1.rank)
  concatenates_S16384x128_S16384x128_S16384x256_d1 : Shape.Concatenates [S16384x128, S16384x128] S16384x256 1
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  gather_S70000x64_S2000000x1_S2000000x64_1_0_n_n_0_1_164_wf : GatherDims.WF S70000x64 S2000000x1 S2000000x64 [1] [0] [] [0] [] 1 ![1, 64]
  scatter_S70000x64_S2000000x1_S2000000x64_1_0_0_1_wf : ScatterDims.WF S70000x64 S2000000x1 S2000000x64 [1] [0] [0] 1
  dot_S70000x64_S64x64_S70000x64_1_0_0_1_n_n_wf : DotDims.WF S70000x64 S64x64 S70000x64 [1] [0] [0] [1] [] []
  gather_S70000x128_S16384x1_S16384x128_1_0_n_n_0_1_1128_wf : GatherDims.WF S70000x128 S16384x1 S16384x128 [1] [0] [] [0] [] 1 ![1, 128]
  dot_S16384x256_S256x64_S16384x64_1_0_0_1_n_n_wf : DotDims.WF S16384x256 S256x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []

variable [Facts₀]

def gather_S70000x64_S2000000x1_S2000000x64_1_0_n_n_0_1_164 : GatherDims S70000x64 S2000000x1 S2000000x64 where
  offsetDims := [1]
  collapsedSliceDims := [0]
  operandBatchingDims := []
  startIndicesBatchingDims := []
  startIndexMap := [0]
  indexVectorDim := 1
  sliceSizes := ![1, 64]
  wf := gather_S70000x64_S2000000x1_S2000000x64_1_0_n_n_0_1_164_wf
def scatter_S70000x64_S2000000x1_S2000000x64_1_0_0_1 : ScatterDims S70000x64 S2000000x1 S2000000x64 where
  updateWindowDims := [1]
  insertedWindowDims := [0]
  scatterDimsToOperandDims := [0]
  indexVectorDim := 1
  wf := scatter_S70000x64_S2000000x1_S2000000x64_1_0_0_1_wf
def dot_S70000x64_S64x64_S70000x64_1_0_0_1_n_n : DotDims S70000x64 S64x64 S70000x64 where
  lhsContracting := [1]
  rhsContracting := [0]
  lhsNonContracting := [0]
  rhsNonContracting := [1]
  lhsBatch := []
  rhsBatch := []
  wf := dot_S70000x64_S64x64_S70000x64_1_0_0_1_n_n_wf
def gather_S70000x128_S16384x1_S16384x128_1_0_n_n_0_1_1128 : GatherDims S70000x128 S16384x1 S16384x128 where
  offsetDims := [1]
  collapsedSliceDims := [0]
  operandBatchingDims := []
  startIndicesBatchingDims := []
  startIndexMap := [0]
  indexVectorDim := 1
  sliceSizes := ![1, 128]
  wf := gather_S70000x128_S16384x1_S16384x128_1_0_n_n_0_1_1128_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.Spec.lean ====
/-
  The two pallas regions' results as whole-array functions over the extended reals, index by index.

  * `gcnArr`: row r of the [70000, 128] result holds the 64 features of row r in columns 0..63 and, in column 64 + j,
    the leaky rectifier of  (Σ_k (lx[r,k] + feat[r,k]) · Wg1[k,j] + bg1[j]) + (Σ_k lx2[r,k] · Wg2[k,j] + bg2[j]).
  * `mlpArr`: row r of the [16384, 1] result is the three-layer perceptron of the two gathered rows u[r,:], i[r,:]:
    h1[j] = max(Σ_k u[r,k]·W1a[k,j] + Σ_k i[r,k]·W1b[k,j] + b1[j], 0), h2[j] = max(Σ_k h1[k]·W2[k,j] + b2[j], 0),
    out = Σ_k h2[k]·W3[k,0] + b3.
  The zero and the slope 0.01 stay the float words both programs print; neither is ever evaluated.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev Arr (a b : Nat) : Type := (⟨2, ![a, b]⟩ : Shape).Idx → EReal

/-- The word of +0.0. -/
abbrev zeroE : EReal := Ideal.ofBits .f32 0x00000000#32
/-- The word of the slope f32(0.01). -/
abbrev slopeE : EReal := Ideal.ofBits .f32 0x3C23D70A#32

/-- x if x ≥ 0, else slope · x. -/
def leaky (x : EReal) : EReal := Scalar.select (FloatOps.cmpf (F := Ideal) (φ := .f32) .oge x zeroE) x (slopeE * x)

/-- Column 64 + j of row r of the graph-convolution result. -/
def gcnH (feat lx lx2 : Arr 70000 64) (Wg1 : Arr 64 64) (bg1 : Arr 1 64) (Wg2 : Arr 64 64) (bg2 : Arr 1 64)
    (r : Fin 70000) (j : Fin 64) : EReal :=
  leaky (((∑ k : Fin 64, (lx (ix2 r k) + feat (ix2 r k)) * Wg1 (ix2 k j)) + bg1 (ix2 0 j))
    + ((∑ k : Fin 64, lx2 (ix2 r k) * Wg2 (ix2 k j)) + bg2 (ix2 0 j)))

/-- The graph-convolution result: the features beside the rectified combination. -/
def gcnArr (feat lx lx2 : Arr 70000 64) (Wg1 : Arr 64 64) (bg1 : Arr 1 64) (Wg2 : Arr 64 64) (bg2 : Arr 1 64) :
    Arr 70000 128 := fun i =>
  if h : (i 1).val < 64 then feat (ix2 ⟨(i 0).val, idx2_lt0 i⟩ ⟨(i 1).val, h⟩)
  else gcnH feat lx lx2 Wg1 bg1 Wg2 bg2 ⟨(i 0).val, idx2_lt0 i⟩ ⟨(i 1).val - 64, by have := idx2_lt1 i; omega⟩

/-- The first hidden layer at row r, unit j. -/
def mlpH1 (u i : Arr 16384 128) (W1a W1b : Arr 128 64) (b1 : Arr 1 64) (r : Fin 16384) (j : Fin 64) : EReal :=
  max (((∑ k : Fin 128, u (ix2 r k) * W1a (ix2 k j)) + (∑ k : Fin 128, i (ix2 r k) * W1b (ix2 k j))) + b1 (ix2 0 j)) zeroE

/-- The second hidden layer at row r, unit j. -/
def mlpH2 (u i : Arr 16384 128) (W1a W1b : Arr 128 64) (b1 : Arr 1 64) (W2 : Arr 64 32) (b2 : Arr 1 32)
    (r : Fin 16384) (j : Fin 32) : EReal :=
  max ((∑ k : Fin 64, mlpH1 u i W1a W1b b1 r k * W2 (ix2 k j)) + b2 (ix2 0 j)) zeroE

/-- The perceptron's output at row r. -/
def mlpH (u i : Arr 16384 128) (W1a W1b : Arr 128 64) (b1 : Arr 1 64) (W2 : Arr 64 32) (b2 : Arr 1 32)
    (W3 : Arr 32 1) (b3 : Arr 1 1) (r : Fin 16384) : EReal :=
  (∑ k : Fin 32, mlpH2 u i W1a W1b b1 W2 b2 r k * W3 (ix2 k 0)) + b3 (ix2 0 0)

/-- The perceptron's [16384, 1] result. -/
def mlpArr (u i : Arr 16384 128) (W1a W1b : Arr 128 64) (b1 : Arr 1 64) (W2 : Arr 64 32) (b2 : Arr 1 32)
    (W3 : Arr 32 1) (b3 : Arr 1 1) : Arr 16384 1 := fun y =>
  mlpH u i W1a W1b b1 W2 b2 W3 b3 ⟨(y 0).val, idx2_lt0 y⟩

end Cert.Spec

end
-- ==== Proof.KSpec.lean ====
/-
  The kernel program's host stages at the extended reals, as functions of the seventeen argument arrays:
  the features (the two embedding tables stacked), the gathered source rows, the two message arrays side by side
  scattered by destination row in ONE accumulation of width 128 and cut back into its two halves, then the
  two pallas regions' results (Spec.lean) around the batch gathers.
-/
import proofs.«133197_j52785148068369_1_alg».proof.KernelIdeal
import proofs.«133197_j52785148068369_1_alg».proof.Proof.Gen.KernelIdeal
import proofs.«133197_j52785148068369_1_alg».proof.Proof.Spec

noncomputable section

namespace Cert.KernelIdeal.Hand

open Idealize.ShloMosaic Cert.KernelIdeal Cert.KernelIdeal.Facts₀ Cert.KernelIdeal.Facts

/-- The user and item embedding tables stacked: the [70000, 64] features. -/
def feat (a0 : FVec Ideal S50000x64 .f32) (a1 : FVec Ideal S20000x64 .f32) : FVec Ideal S70000x64 .f32 :=
  concatenate S70000x64 0 [⟨S50000x64, a0⟩, ⟨S20000x64, a1⟩] concatenates_S50000x64_S20000x64_S70000x64_d0

/-- An edge's source row, a negative one wrapped once by 70000, as a column of start indices. -/
def colIdx (a3 : IVec S2000000 32) : IVec S2000000x1 32 :=
  broadcastInDim S2000000x1 ![0] bcast_S2000000_S2000000x1_0
    (select (cmpi .slt a3 (broadcastInDim S2000000 ![] bcast_S_S2000000 (constantI S_ 32 0#32)))
      (addi a3 (broadcastInDim S2000000 ![] bcast_S_S2000000 (constantI S_ 32 70000#32))) a3)

/-- The edges' destination rows as a column of scatter indices. -/
def rowIdx (a2 : IVec S2000000 32) : IVec S2000000x1 32 :=
  broadcastInDim S2000000x1 ![0] bcast_S2000000_S2000000x1_0 a2

/-- Each edge's weight along its 64 features. -/
def valB (a4 : FVec Ideal S2000000 .f32) : FVec Ideal S2000000x64 .f32 :=
  broadcastInDim S2000000x64 ![0, 1] bcast_S2000000x1_S2000000x64_0_1 (broadcastInDim S2000000x1 ![0] bcast_S2000000_S2000000x1_0 a4)

/-- The features of each edge's source row. -/
def xcol (a0 : FVec Ideal S50000x64 .f32) (a1 : FVec Ideal S20000x64 .f32) (a3 : IVec S2000000 32) : FVec Ideal S2000000x64 .f32 :=
  Host.gather gather_S70000x64_S2000000x1_S2000000x64_1_0_n_n_0_1_164 (feat a0 a1) (colIdx a3)

/-- Both message arrays side by side, accumulated by destination row in one scatter of width 128. -/
def comb (a0 : FVec Ideal S50000x64 .f32) (a1 : FVec Ideal S20000x64 .f32) (a2 a3 : IVec S2000000 32) (a4 : FVec Ideal S2000000 .f32) :
    FVec Ideal S70000x128 .f32 :=
  Host.scatterAdd scatter_S70000x128_S2000000x1_S2000000x128_1_0_0_1
    (broadcastInDim S70000x128 ![] bcast_S_S70000x128 (constant S_ .f32 0x00000000#32)) (rowIdx a2)
    (concatenate S2000000x128 1 [⟨S2000000x64, mulf (valB a4) (xcol a0 a1 a3)⟩,
      ⟨S2000000x64, mulf (valB a4) (mulf (xcol a0 a1 a3) (xcol a0 a1 a3))⟩] concatenates_S2000000x64_S2000000x64_S2000000x128_d1)

/-- The left half: the adjacency applied to the features. -/
def lx (a0 : FVec Ideal S50000x64 .f32) (a1 : FVec Ideal S20000x64 .f32) (a2 a3 : IVec S2000000 32) (a4 : FVec Ideal S2000000 .f32) :
    FVec Ideal S70000x64 .f32 :=
  extractStridedSlice S70000x64 ![0, 0] (comb a0 a1 a2 a3 a4) slices_S70000x128_S70000x64_0_0

/-- The right half: the adjacency applied to the squared features. -/
def lx2 (a0 : FVec Ideal S50000x64 .f32) (a1 : FVec Ideal S20000x64 .f32) (a2 a3 : IVec S2000000 32) (a4 : FVec Ideal S2000000 .f32) :
    FVec Ideal S70000x64 .f32 :=
  extractStridedSlice S70000x64 ![0, 64] (comb a0 a1 a2 a3 a4) slices_S70000x128_S70000x64_0_64

/-- The first region's result over the argument arrays. -/
def final (a0 : FVec Ideal S50000x64 .f32) (a1 : FVec Ideal S20000x64 .f32) (a2 a3 : IVec S2000000 32) (a4 : FVec Ideal S2000000 .f32)
    (a5 : FVec Ideal S64x64 .f32) (a6 : FVec Ideal S64 .f32) (a7 : FVec Ideal S64x64 .f32) (a8 : FVec Ideal S64 .f32) :
    FVec Ideal S70000x128 .f32 :=
  Cert.Spec.gcnArr (feat a0 a1) (lx a0 a1 a2 a3 a4) (lx2 a0 a1 a2 a3 a4) a5 (shapeCast S1x64 a6 shapeCasts_S64_S1x64) a7
    (shapeCast S1x64 a8 shapeCasts_S64_S1x64)

/-- The batch's user rows, a negative one wrapped once, as a column of start indices. -/
def uIdx (a15 : IVec S16384 32) : IVec S16384x1 32 :=
  broadcastInDim S16384x1 ![0] bcast_S16384_S16384x1_0
    (select (cmpi .slt a15 (broadcastInDim S16384 ![] bcast_S_S16384 (constantI S_ 32 0#32)))
      (addi a15 (broadcastInDim S16384 ![] bcast_S_S16384 (constantI S_ 32 70000#32))) a15)

/-- The batch's item rows, shifted past the 50000 users and wrapped once when negative. -/
def iIdx (a16 : IVec S16384 32) : IVec S16384x1 32 :=
  broadcastInDim S16384x1 ![0] bcast_S16384_S16384x1_0
    (select (cmpi .slt (addi a16 (broadcastInDim S16384 ![] bcast_S_S16384 (constantI S_ 32 50000#32))) (broadcastInDim S16384 ![] bcast_S_S16384 (constantI S_ 32 0#32)))
      (addi (addi a16 (broadcastInDim S16384 ![] bcast_S_S16384 (constantI S_ 32 50000#32))) (broadcastInDim S16384 ![] bcast_S_S16384 (constantI S_ 32 70000#32)))
      (addi a16 (broadcastInDim S16384 ![] bcast_S_S16384 (constantI S_ 32 50000#32))))

/-- The second region's result over its region-entry arrays, flattened: what @main returns. -/
def outOf (fin : FVec Ideal S70000x128 .f32) (a9 : FVec Ideal S256x64 .f32) (a10 : FVec Ideal S64 .f32) (a11 : FVec Ideal S64x32 .f32)
    (a12 : FVec Ideal S32 .f32) (a13 : FVec Ideal S32x1 .f32) (a14 : FVec Ideal S1 .f32) (a15 a16 : IVec S16384 32) : FVec Ideal S16384 .f32 :=
  shapeCast S16384
    (Cert.Spec.mlpArr
      (Host.gather gather_S70000x128_S16384x1_S16384x128_1_0_n_n_0_1_1128 fin (uIdx a15))
      (Host.gather gather_S70000x128_S16384x1_S16384x128_1_0_n_n_0_1_1128 fin (iIdx a16))
      (extractStridedSlice S128x64 ![0, 0] a9 slices_S256x64_S128x64_0_0)
      (extractStridedSlice S128x64 ![128, 0] a9 slices_S256x64_S128x64_128_0)
      (shapeCast S1x64 a10 shapeCasts_S64_S1x64) a11 (shapeCast S1x32 a12 shapeCasts_S32_S1x32) a13
      (shapeCast S1x1 a14 shapeCasts_S1_S1x1) : FVec Ideal S16384x1 .f32)
    shapeCasts_S16384x1_S16384

end Cert.KernelIdeal.Hand

end
-- ==== Proof.KRegion0.lean ====
/-
  The first pallas region (the graph-convolution kernel): the [70000, 128] array it leaves is `Spec.gcnArr` of
  the arrays the region finds.

  Each of the ten grid points takes rows t·7000 … t·7000 + 6999 of the features and of the two aggregated arrays, and the
  whole of the two [64,64] weight matrices and the two [1,64] bias rows, and leaves a [7000,128] block: the feature rows
  in columns 0..63 and, in column 64 + j, the leaky rectifier of
  (Σ_k (lx + feat)[r,k] · Wg1[k,j] + bg1[j]) + (Σ_k lx2[r,k] · Wg2[k,j] + bg2[j]).
  Over the extended reals the change to a shorter float format is the identity and a product into a zero accumulator is
  the plain row-by-column sum, so that block is rows t·7000 … of `Spec.gcnArr`; the ten blocks tile the array (row r lies
  in block r / 7000), so the array ends holding `Spec.gcnArr` everywhere.
-/
import proofs.«133197_j52785148068369_1_alg».proof.Proof.Gen.KernelIdeal.Frame
import proofs.«133197_j52785148068369_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.SL.Sem Cert.KernelIdeal Cert.KernelIdeal.Facts₀ Cert.KernelIdeal.Facts
open Idealize.ShloMosaic.ValueIdx Cert.KernelIdeal.Gen

namespace Gcn

/-! ## The contraction of the two products, axis by axis -/

/-- The left operand's row is the result's row. -/
theorem lhs_0 (i : S7000x64.Idx) (q : dot_S7000x64_S64x64_S7000x64_1_0_0_1_n_n.contr.Idx) :
    (dot_S7000x64_S64x64_S7000x64_1_0_0_1_n_n.lhsIdx i q 0).val = (i 0).val := by
  unfold DotDims.lhsIdx
  rw [dif_neg (show ¬(0 : Fin S7000x64.rank) ∈ dot_S7000x64_S64x64_S7000x64_1_0_0_1_n_n.lhsBatch by decide),
    dif_pos (show (0 : Fin S7000x64.rank) ∈ dot_S7000x64_S64x64_S7000x64_1_0_0_1_n_n.lhsNonContracting by decide)]
  rfl

/-- The left operand's column is the summation position. -/
theorem lhs_1 (i : S7000x64.Idx) (q : dot_S7000x64_S64x64_S7000x64_1_0_0_1_n_n.contr.Idx) :
    (dot_S7000x64_S64x64_S7000x64_1_0_0_1_n_n.lhsIdx i q 1).val = (q ⟨0, by decide⟩).val :=
  dot_S7000x64_S64x64_S7000x64_1_0_0_1_n_n.lhsIdx_val_of_single rfl i q

/-- The right operand's row is the summation position. -/
theorem rhs_0 (i : S7000x64.Idx) (q : dot_S7000x64_S64x64_S7000x64_1_0_0_1_n_n.contr.Idx) :
    (dot_S7000x64_S64x64_S7000x64_1_0_0_1_n_n.rhsIdx i q 0).val = (q ⟨0, by decide⟩).val :=
  dot_S7000x64_S64x64_S7000x64_1_0_0_1_n_n.rhsIdx_val_of_single rfl i q

/-- The right operand's column is the result's column. -/
theorem rhs_1 (i : S7000x64.Idx) (q : dot_S7000x64_S64x64_S7000x64_1_0_0_1_n_n.contr.Idx) :
    (dot_S7000x64_S64x64_S7000x64_1_0_0_1_n_n.rhsIdx i q 1).val = (i 1).val := by
  unfold DotDims.rhsIdx
  rw [dif_neg (show ¬(1 : Fin S64x64.rank) ∈ dot_S7000x64_S64x64_S7000x64_1_0_0_1_n_n.rhsBatch by decide),
    dif_pos (show (1 : Fin S64x64.rank) ∈ dot_S7000x64_S64x64_S7000x64_1_0_0_1_n_n.rhsNonContracting by decide)]
  rfl

/-- A [7000,64] × [64,64] product into a zero accumulator, at row p and column q, is the row-by-column sum. -/
theorem product_apply (a : FVec Ideal S7000x64 .bf16) (b : FVec Ideal S64x64 .bf16) (p : Fin 7000) (q : Fin 64) :
    matmul dot_S7000x64_S64x64_S7000x64_1_0_0_1_n_n none a b (constant (F := Ideal) S7000x64 .f32 0x00000000#32) (ix2 p q)
      = ∑ k : Fin 64, a (ix2 p k) * b (ix2 k q) := by
  simp only [matmul]
  rw [Ideal.matmul_constant_zero_apply, ← Equiv.sum_comp (ValueIdx.contrEquiv1 dot_S7000x64_S64x64_S7000x64_1_0_0_1_n_n 64 rfl rfl).symm]
  refine Finset.sum_congr rfl fun k _ => ?_
  have hk := ValueIdx.contrEquiv1_symm_val dot_S7000x64_S64x64_S7000x64_1_0_0_1_n_n 64 rfl rfl k
  have el : dot_S7000x64_S64x64_S7000x64_1_0_0_1_n_n.lhsIdx (ix2 p q) ((ValueIdx.contrEquiv1 dot_S7000x64_S64x64_S7000x64_1_0_0_1_n_n 64 rfl rfl).symm k) = ix2 p k := funext fun a => Fin.ext (by
    match a with
    | ⟨0, _⟩ => exact lhs_0 _ _
    | ⟨1, _⟩ => exact (lhs_1 _ _).trans hk)
  have er : dot_S7000x64_S64x64_S7000x64_1_0_0_1_n_n.rhsIdx (ix2 p q) ((ValueIdx.contrEquiv1 dot_S7000x64_S64x64_S7000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The body's arithmetic at row p, column q of a block: the leaky rectifier of the two row-by-column sums with their biases. -/
theorem pay2_apply (x0 x1 x2 : Vec Ideal S7000x64 .f32) (x3 x5 : Vec Ideal S64x64 .f32) (x4 x6 : Vec Ideal S1x64 .f32)
    (p : Fin 7000) (q : Fin 64) :
    k0_pay2 (F := Ideal) x0 x1 x2 x3 x5 x4 x6 (ix2 p q)
      = Cert.Spec.leaky (((∑ k : Fin 64, (x1 (ix2 p k) + x0 (ix2 p k)) * x3 (ix2 k q)) + x4 (ix2 0 q))
          + ((∑ k : Fin 64, x2 (ix2 p k) * x5 (ix2 k q)) + x6 (ix2 0 q))) := by
  unfold k0_pay2 k0_pay1 Cert.Spec.leaky
  simp only [shapeCast_self]
  rw [select_apply, cmpf_apply, mulf_apply, broadcast_apply, broadcast_apply, addf_apply, addf_apply, addf_apply,
    product_apply, product_apply, broadcastTo_1b_ab_apply, broadcastTo_1b_ab_apply]
  simp only [truncf_apply, addf_apply]
  rfl

/-- Offsets (0, 0), however spelt. -/
theorem hz : (![0, 0] : Fin 2 → Nat) = fun _ => 0 := funext fun a => by fin_cases a <;> rfl

/-! ## The result array by coordinates -/

/-- In the first 64 columns the result holds the features. -/
theorem gcnArr_left (feat lx lx2 : Cert.Spec.Arr 70000 64) (Wg1 : Cert.Spec.Arr 64 64) (bg1 : Cert.Spec.Arr 1 64)
    (Wg2 : Cert.Spec.Arr 64 64) (bg2 : Cert.Spec.Arr 1 64) (i : S70000x128.Idx) (r : Fin 70000) (j : Fin 64)
    (h0 : (i 0).val = r.val) (h1 : (i 1).val = j.val) :
    Cert.Spec.gcnArr feat lx lx2 Wg1 bg1 Wg2 bg2 i = feat (ix2 r j) := by
  have hlt : (i 1).val < 64 := by have := j.isLt; omega
  have er : (⟨(i 0).val, idx2_lt0 i⟩ : Fin 70000) = r := Fin.ext h0
  have ej : (⟨(i 1).val, hlt⟩ : Fin 64) = j := Fin.ext h1
  unfold Cert.Spec.gcnArr
  rw [dif_pos hlt, er, ej]

/-- In column 64 + j it holds the rectified combination at j. -/
theorem gcnArr_right (feat lx lx2 : Cert.Spec.Arr 70000 64) (Wg1 : Cert.Spec.Arr 64 64) (bg1 : Cert.Spec.Arr 1 64)
    (Wg2 : Cert.Spec.Arr 64 64) (bg2 : Cert.Spec.Arr 1 64) (i : S70000x128.Idx) (r : Fin 70000) (j : Fin 64)
    (h0 : (i 0).val = r.val) (h1 : (i 1).val = 64 + j.val) :
    Cert.Spec.gcnArr feat lx lx2 Wg1 bg1 Wg2 bg2 i = Cert.Spec.gcnH feat lx lx2 Wg1 bg1 Wg2 bg2 r j := by
  have hge : ¬ (i 1).val < 64 := by omega
  have er : (⟨(i 0).val, idx2_lt0 i⟩ : Fin 70000) = r := Fin.ext h0
  have ej : (⟨(i 1).val - 64, by have := idx2_lt1 i; omega⟩ : Fin 64) = j := Fin.ext (by show (i 1).val - 64 = j.val; omega)
  unfold Cert.Spec.gcnArr
  rw [dif_neg hge, er, ej]

/-- The feature block passes through unchanged. -/
theorem pay1_eq (x0 : Vec Ideal S7000x64 .f32) : k0_pay1 (F := Ideal) x0 = x0 := by
  unfold k0_pay1
  exact shapeCast_self _ _

/-- What the body leaves in its [7000,128] block, when its three row blocks are rows b·7000 … b·7000 + 6999 of the three
    [70000,64] arrays and its four small blocks are the whole small arrays: the result array's rows b·7000 … b·7000 + 6999. -/
theorem out_apply (feat lx lx2 : Cert.Spec.Arr 70000 64) (Wg1 : Cert.Spec.Arr 64 64) (bg1 : Cert.Spec.Arr 1 64)
    (Wg2 : Cert.Spec.Arr 64 64) (bg2 : Cert.Spec.Arr 1 64)
    (x0 x1 x2 : Vec Ideal S7000x64 .f32) (x3 : Vec Ideal S64x64 .f32) (x4 : Vec Ideal S1x64 .f32)
    (x5 : Vec Ideal S64x64 .f32) (x6 : Vec Ideal S1x64 .f32) (b : Nat) (hb : b < 10)
    (e0 : ∀ (p : Fin 7000) (q : Fin 64), x0 (ix2 p q) = feat (ix2 ⟨b * 7000 + p.val, by omega⟩ q))
    (e1 : ∀ (p : Fin 7000) (q : Fin 64), x1 (ix2 p q) = lx (ix2 ⟨b * 7000 + p.val, by omega⟩ q))
    (e2 : ∀ (p : Fin 7000) (q : Fin 64), x2 (ix2 p q) = lx2 (ix2 ⟨b * 7000 + p.val, by omega⟩ q))
    (e3 : x3 = Wg1) (e4 : x4 = bg1) (e5 : x5 = Wg2) (e6 : x6 = bg2)
    (y : S7000x128.Idx) (i : S70000x128.Idx) (hi0 : (i 0).val = b * 7000 + (y 0).val) (hi1 : (i 1).val = (y 1).val) :
    out0_7 (F := Ideal) x0 x1 x2 x3 x4 x5 x6 y = Cert.Spec.gcnArr feat lx lx2 Wg1 bg1 Wg2 bg2 i := by
  subst e3 e4 e5 e6
  unfold out0_7
  simp only [View.ld_unit_zero (S := S7000x64) hz, View.ld_unit_zero (S := S64x64) hz, View.ld_unit_zero (S := S1x64) hz]
  refine (View.canon_apply_of_pieces (fun y' : S7000x128.Idx => Cert.Spec.gcnArr feat lx lx2 x3 x4 x5 x6
    (ix2 (⟨b * 7000 + (y' 0).val, by have := idx2_lt0 y'; omega⟩ : Fin 70000) (⟨(y' 1).val, idx2_lt1 y'⟩ : Fin 128)))
    _ ?_ y (cover0_7 _ _ y)).trans ?_
  · intro pc hpc x
    simp only [List.mem_cons, List.mem_singleton, List.not_mem_nil, or_false] at hpc
    rcases hpc with rfl | rfl
    · obtain ⟨p, q, rfl⟩ : ∃ (p : Fin 7000) (q : Fin 64), x = ix2 p q := ⟨x 0, x 1, eq_ix2 x⟩
      show k0_pay2 (F := Ideal) x0 x1 x2 x3 x5 x4 x6 (ix2 p q) = _
      rw [pay2_apply]
      symm
      refine (gcnArr_right feat lx lx2 x3 x4 x5 x6 _ ⟨b * 7000 + p.val, by omega⟩ q ?_ ?_).trans ?_
      · show b * 7000 + (0 + 1 * p.val) = b * 7000 + p.val; omega
      · show 64 + 1 * q.val = 64 + q.val; omega
      · unfold Cert.Spec.gcnH
        simp only [e0, e1, e2]
    · obtain ⟨p, q, rfl⟩ : ∃ (p : Fin 7000) (q : Fin 64), x = ix2 p q := ⟨x 0, x 1, eq_ix2 x⟩
      show k0_pay1 (F := Ideal) x0 (ix2 p q) = _
      rw [pay1_eq, e0]
      symm
      refine gcnArr_left feat lx lx2 x3 x4 x5 x6 _ ⟨b * 7000 + p.val, by omega⟩ q ?_ ?_
      · show b * 7000 + (0 + 1 * p.val) = b * 7000 + p.val; omega
      · show 0 + 1 * q.val = q.val; omega
  · exact congrArg (Cert.Spec.gcnArr feat lx lx2 x3 x4 x5 x6) (funext fun a => Fin.ext (by
      match a with
      | ⟨0, _⟩ => exact hi0.symm
      | ⟨1, _⟩ => exact hi1.symm))

/-! ## The blocks the ten grid points read and write -/

section Blocks

variable (V : (c : Dev nD) → (b : Ref sig .tc) → Buf (Elt Ideal) ((c : Thread nD τ).loc b))

/-- The index maps over the grid: point t takes row block t of the three [70000,64] inputs and of the output, and block
    (0,0) — the whole array — of the two weight matrices and the two bias rows. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- There are ten grid points. -/
theorem point_lt (t : Fin cfg0.N) : t.val < 10 := by
  have hN : cfg0.N = 10 := N_0
  have := t.isLt
  omega

/-- The feature block at point t is rows t·7000 … t·7000 + 6999 of the feature array. -/
theorem iblk_rows0 (c : Dev nD) (t : Fin cfg0.N) (p : Fin 7000) (q : Fin 64) :
    (iblk0 V c 0 t : Vec Ideal S7000x64 .f32) (ix2 p q)
      = (V c main_v0 : Cert.Spec.Arr 70000 64) (ix2 ⟨t.val * 7000 + p.val, by have := point_lt t; omega⟩ q) := by
  obtain ⟨h0, h1, -⟩ := idx_facts t
  unfold iblk0
  rw [View.read_apply]
  show V c main_v0 _ = V c main_v0 _
  congr 1
  funext a
  apply Fin.ext
  match a with
  | ⟨0, _⟩ => show win0_0.index t 0 * 7000 + 1 * p.val = t.val * 7000 + p.val; rw [h0]; omega
  | ⟨1, _⟩ => show win0_0.index t 1 * 64 + 1 * q.val = q.val; rw [h1]; omega

/-- The block of the first aggregated array at point t is its rows t·7000 … t·7000 + 6999. -/
theorem iblk_rows1 (c : Dev nD) (t : Fin cfg0.N) (p : Fin 7000) (q : Fin 64) :
    (iblk0 V c 1 t : Vec Ideal S7000x64 .f32) (ix2 p q)
      = (V c main_v19 : Cert.Spec.Arr 70000 64) (ix2 ⟨t.val * 7000 + p.val, by have := point_lt t; omega⟩ q) := by
  obtain ⟨-, -, h0, h1, -⟩ := idx_facts t
  unfold iblk0
  rw [View.read_apply]
  show V c main_v19 _ = V c main_v19 _
  congr 1
  funext a
  apply Fin.ext
  match a with
  | ⟨0, _⟩ => show win0_1.index t 0 * 7000 + 1 * p.val = t.val * 7000 + p.val; rw [h0]; omega
  | ⟨1, _⟩ => show win0_1.index t 1 * 64 + 1 * q.val = q.val; rw [h1]; omega

/-- The block of the second aggregated array at point t is its rows t·7000 … t·7000 + 6999. -/
theorem iblk_rows2 (c : Dev nD) (t : Fin cfg0.N) (p : Fin 7000) (q : Fin 64) :
    (iblk0 V c 2 t : Vec Ideal S7000x64 .f32) (ix2 p q)
      = (V c main_v20 : Cert.Spec.Arr 70000 64) (ix2 ⟨t.val * 7000 + p.val, by have := point_lt t; omega⟩ q) := by
  obtain ⟨-, -, -, -, h0, h1, -⟩ := idx_facts t
  unfold iblk0
  rw [View.read_apply]
  show V c main_v20 _ = V c main_v20 _
  congr 1
  funext a
  apply Fin.ext
  match a with
  | ⟨0, _⟩ => show win0_2.index t 0 * 7000 + 1 * p.val = t.val * 7000 + p.val; rw [h0]; omega
  | ⟨1, _⟩ => show win0_2.index t 1 * 64 + 1 * q.val = q.val; rw [h1]; omega

/-- Every point reads the whole first weight matrix. -/
theorem iblk_whole3 (c : Dev nD) (t : Fin cfg0.N) :
    (iblk0 V c 3 t : Vec Ideal S64x64 .f32) = (V c main_arg5 : Cert.Spec.Arr 64 64) := by
  obtain ⟨-, -, -, -, -, -, h0, h1, -⟩ := idx_facts t
  funext j
  unfold iblk0
  rw [View.read_apply]
  show V c main_arg5 _ = V c main_arg5 _
  congr 1
  funext a
  apply Fin.ext
  match a with
  | ⟨0, _⟩ => show win0_3.index t 0 * 64 + 1 * (j 0).val = (j 0).val; rw [h0]; omega
  | ⟨1, _⟩ => show win0_3.index t 1 * 64 + 1 * (j 1).val = (j 1).val; rw [h1]; omega

/-- Every point reads the whole first bias row. -/
theorem iblk_whole4 (c : Dev nD) (t : Fin cfg0.N) :
    (iblk0 V c 4 t : Vec Ideal S1x64 .f32) = (V c main_v21 : Cert.Spec.Arr 1 64) := by
  obtain ⟨-, -, -, -, -, -, -, -, h0, h1, -⟩ := idx_facts t
  funext j
  unfold iblk0
  rw [View.read_apply]
  show V c main_v21 _ = V c main_v21 _
  congr 1
  funext a
  apply Fin.ext
  match a with
  | ⟨0, _⟩ => show win0_4.index t 0 * 1 + 1 * (j 0).val = (j 0).val; rw [h0]; omega
  | ⟨1, _⟩ => show win0_4.index t 1 * 64 + 1 * (j 1).val = (j 1).val; rw [h1]; omega

/-- Every point reads the whole second weight matrix. -/
theorem iblk_whole5 (c : Dev nD) (t : Fin cfg0.N) :
    (iblk0 V c 5 t : Vec Ideal S64x64 .f32) = (V c main_arg7 : Cert.Spec.Arr 64 64) := by
  obtain ⟨-, -, -, -, -, -, -, -, -, -, h0, h1, -⟩ := idx_facts t
  funext j
  unfold iblk0
  rw [View.read_apply]
  show V c main_arg7 _ = V c main_arg7 _
  congr 1
  funext a
  apply Fin.ext
  match a with
  | ⟨0, _⟩ => show win0_5.index t 0 * 64 + 1 * (j 0).val = (j 0).val; rw [h0]; omega
  | ⟨1, _⟩ => show win0_5.index t 1 * 64 + 1 * (j 1).val = (j 1).val; rw [h1]; omega

/-- Every point reads the whole second bias row. -/
theorem iblk_whole6 (c : Dev nD) (t : Fin cfg0.N) :
    (iblk0 V c 6 t : Vec Ideal S1x64 .f32) = (V c main_v22 : Cert.Spec.Arr 1 64) := by
  obtain ⟨-, -, -, -, -, -, -, -, -, -, -, -, h0, h1, -⟩ := idx_facts t
  funext j
  unfold iblk0
  rw [View.read_apply]
  show V c main_v22 _ = V c main_v22 _
  congr 1
  funext a
  apply Fin.ext
  match a with
  | ⟨0, _⟩ => show win0_6.index t 0 * 1 + 1 * (j 0).val = (j 0).val; rw [h0]; omega
  | ⟨1, _⟩ => show win0_6.index t 1 * 64 + 1 * (j 1).val = (j 1).val; rw [h1]; omega

/-- What point t writes back is rows t·7000 … t·7000 + 6999 of the graph-convolution result of the arrays the region entered with. -/
theorem flushed_eq (c : Dev nD) (t : Fin cfg0.N) :
    (dat0 (F := Ideal) V c).flushed 7 t = ((cfg0.win 7).blk t).view.read (Elt Ideal)
      (Cert.Spec.gcnArr (V c main_v0) (V c main_v19) (V c main_v20) (V c main_arg5) (V c main_v21) (V c main_arg7) (V c main_v22)) := by
  show (cfg0.win 7).cut (grid0.coords t) ((dat0 V c).after 7 t) = _
  rw [after0_7]
  obtain ⟨-, -, -, -, -, -, -, -, -, -, -, -, -, -, h0, h1⟩ := idx_facts t
  funext y
  rw [View.read_apply]
  exact out_apply (V c main_v0) (V c main_v19) (V c main_v20) (V c main_arg5) (V c main_v21) (V c main_arg7) (V c main_v22)
    (iblk0 V c 0 t) (iblk0 V c 1 t) (iblk0 V c 2 t) (iblk0 V c 3 t) (iblk0 V c 4 t) (iblk0 V c 5 t) (iblk0 V c 6 t)
    t.val (point_lt t) (iblk_rows0 V c t) (iblk_rows1 V c t) (iblk_rows2 V c t)
    (iblk_whole3 V c t) (iblk_whole4 V c t) (iblk_whole5 V c t) (iblk_whole6 V c t) y _
    (by show win0_7.index t 0 * 7000 + 1 * (y 0).val = t.val * 7000 + (y 0).val; rw [h0]; omega)
    (by show win0_7.index t 1 * 128 + 1 * (y 1).val = (y 1).val; rw [h1]; omega)

end Blocks

/-! ## The ten blocks tile the result -/

/-- An index of the result array lies in point t's block iff each coordinate lies in the block's range on its axis. -/
theorem mem_blk (t : Fin cfg0.N) (i : S70000x128.Idx) :
    i ∈ ((cfg0.win 7).blk t).view.set ↔ ∀ a : Fin 2, win0_7.index t a * S7000x128.size a ≤ (i a).val
      ∧ (i a).val < win0_7.index t a * S7000x128.size a + S7000x128.size a := by
  show i ∈ ((View.whole main_v23).slice (win0_7.rect t)).set ↔ _
  rw [View.set_slice_whole, Rect.mem_set_unit]
  exact Iff.rfl

/-- Row r of the result lies in the block of point r / 7000, which is written back. -/
theorem cover (i : S70000x128.Idx) :
    ∃ t : Fin cfg0.N, (cfg0.win 7).flush t = true ∧ i ∈ ((cfg0.win 7).blk t).view.set := by
  have hi0 : (i 0).val < 70000 := idx2_lt0 i
  have hi1 : (i 1).val < 128 := idx2_lt1 i
  have hN : cfg0.N = 10 := N_0
  obtain ⟨t, ht⟩ : ∃ t : Fin cfg0.N, t.val = (i 0).val / 7000 := ⟨⟨(i 0).val / 7000, by rw [hN]; omega⟩, rfl⟩
  obtain ⟨-, -, -, -, -, -, -, -, -, -, -, -, -, -, h0, h1⟩ := idx_facts t
  refine ⟨t, flush0_7 t, ?_⟩
  rw [mem_blk]
  intro a
  match a with
  | ⟨0, _⟩ =>
    show win0_7.index t 0 * 7000 ≤ (i 0).val ∧ (i 0).val < win0_7.index t 0 * 7000 + 7000
    rw [h0, ht]; omega
  | ⟨1, _⟩ =>
    show win0_7.index t 1 * 128 ≤ (i 1).val ∧ (i 1).val < win0_7.index t 1 * 128 + 128
    rw [h1]; omega

end Gcn

/-- The region's output array after its ten grid points is the graph-convolution result of the arrays it entered with. -/
theorem arr0 (V : (c : Dev nD) → (b : Ref sig .tc) → Buf (Elt Ideal) ((c : Thread nD τ).loc b)) (c : Dev nD) :
    (dat0 (F := Ideal) V c).arrAt 7 cfg0.N
      = Cert.Spec.gcnArr (V c main_v0) (V c main_v19) (V c main_v20) (V c main_arg5) (V c main_v21) (V c main_arg7) (V c main_v22) := by
  exact (dat0 (F := Ideal) V c).arrAt_eq_of_cover 7 _ (fun t _ => Gcn.flushed_eq V c t) Gcn.cover

end Cert.KernelIdeal.Hand

end
-- ==== Proof.KRegion1.lean ====
/-
  The second pallas region (the perceptron kernel): the [16384, 1] array it leaves is `Spec.mlpArr` of the
  arrays the region finds.
-/
import proofs.«133197_j52785148068369_1_alg».proof.Proof.Gen.KernelIdeal.Frame
import proofs.«133197_j52785148068369_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.SL.Sem Cert.KernelIdeal Cert.KernelIdeal.Facts₀ Cert.KernelIdeal.Facts
open Idealize.ShloMosaic.ValueIdx Cert.KernelIdeal.Gen

/-! ## The three products of the perceptron, read at an index -/

theorem lhs_in_0 (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide),
    dif_pos (show (0 : Fin S2048x128.rank) ∈ dot_S2048x128_S128x64_S2048x64_1_0_0_1_n_n.lhsNonContracting by decide)]
  rfl
theorem lhs_in_1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
theorem rhs_in_0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
theorem rhs_in_1 (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide),
    dif_pos (show (1 : Fin S128x64.rank) ∈ dot_S2048x128_S128x64_S2048x64_1_0_0_1_n_n.rhsNonContracting by decide)]
  rfl

/-- A [2048,128] by [128,64] product into the zero accumulator: entry (p, q) is the sum over the 128 shared coordinates. -/
theorem mm_in_apply (a : FVec Ideal S2048x128 .bf16) (b : FVec Ideal S128x64 .bf16) (p : Fin 2048) (q : Fin 64) :
    matmul dot_S2048x128_S128x64_S2048x64_1_0_0_1_n_n none a b (constant (F := Ideal) S2048x64 .f32 0x00000000#32) (ix2 p q)
      = ∑ k : Fin 128, a (ix2 p k) * b (ix2 k q) := by
  simp only [matmul]
  rw [Ideal.matmul_constant_zero_apply,
    ← Equiv.sum_comp (ValueIdx.contrEquiv1 dot_S2048x128_S128x64_S2048x64_1_0_0_1_n_n 128 rfl rfl).symm]
  refine Finset.sum_congr rfl fun k _ => ?_
  have hk := ValueIdx.contrEquiv1_symm_val dot_S2048x128_S128x64_S2048x64_1_0_0_1_n_n 128 rfl rfl k
  have el : dot_S2048x128_S128x64_S2048x64_1_0_0_1_n_n.lhsIdx (ix2 p q)
      ((ValueIdx.contrEquiv1 dot_S2048x128_S128x64_S2048x64_1_0_0_1_n_n 128 rfl rfl).symm k) = ix2 p k :=
    funext fun a => Fin.ext (by
      match a with
      | ⟨0, _⟩ => exact lhs_in_0 _ _
      | ⟨1, _⟩ => exact (lhs_in_1 _ _).trans hk)
  have er : dot_S2048x128_S128x64_S2048x64_1_0_0_1_n_n.rhsIdx (ix2 p q)
      ((ValueIdx.contrEquiv1 dot_S2048x128_S128x64_S2048x64_1_0_0_1_n_n 128 rfl rfl).symm k) = ix2 k q :=
    funext fun a => Fin.ext (by
      match a with
      | ⟨0, _⟩ => exact (rhs_in_0 _ _).trans hk
      | ⟨1, _⟩ => exact rhs_in_1 _ _)
  rw [el, er]

theorem lhs_mid_0 (i : S2048x32.Idx) (q : dot_S2048x64_S64x32_S2048x32_1_0_0_1_n_n.contr.Idx) :
    (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide),
    dif_pos (show (0 : Fin S2048x64.rank) ∈ dot_S2048x64_S64x32_S2048x32_1_0_0_1_n_n.lhsNonContracting by decide)]
  rfl
theorem lhs_mid_1 (i : S2048x32.Idx) (q : dot_S2048x64_S64x32_S2048x32_1_0_0_1_n_n.contr.Idx) :
    (dot_S2048x64_S64x32_S2048x32_1_0_0_1_n_n.lhsIdx i q 1).val = (q ⟨0, by decide⟩).val :=
  dot_S2048x64_S64x32_S2048x32_1_0_0_1_n_n.lhsIdx_val_of_single rfl i q
theorem rhs_mid_0 (i : S2048x32.Idx) (q : dot_S2048x64_S64x32_S2048x32_1_0_0_1_n_n.contr.Idx) :
    (dot_S2048x64_S64x32_S2048x32_1_0_0_1_n_n.rhsIdx i q 0).val = (q ⟨0, by decide⟩).val :=
  dot_S2048x64_S64x32_S2048x32_1_0_0_1_n_n.rhsIdx_val_of_single rfl i q
theorem rhs_mid_1 (i : S2048x32.Idx) (q : dot_S2048x64_S64x32_S2048x32_1_0_0_1_n_n.contr.Idx) :
    (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide),
    dif_pos (show (1 : Fin S64x32.rank) ∈ dot_S2048x64_S64x32_S2048x32_1_0_0_1_n_n.rhsNonContracting by decide)]
  rfl

/-- A [2048,64] by [64,32] product into the zero accumulator: entry (p, q) is the sum over the 64 shared coordinates. -/
theorem mm_mid_apply (a : FVec Ideal S2048x64 .bf16) (b : FVec Ideal S64x32 .bf16) (p : Fin 2048) (q : Fin 32) :
    matmul dot_S2048x64_S64x32_S2048x32_1_0_0_1_n_n none a b (constant (F := Ideal) S2048x32 .f32 0x00000000#32) (ix2 p q)
      = ∑ k : Fin 64, a (ix2 p k) * b (ix2 k q) := by
  simp only [matmul]
  rw [Ideal.matmul_constant_zero_apply,
    ← Equiv.sum_comp (ValueIdx.contrEquiv1 dot_S2048x64_S64x32_S2048x32_1_0_0_1_n_n 64 rfl rfl).symm]
  refine Finset.sum_congr rfl fun k _ => ?_
  have hk := ValueIdx.contrEquiv1_symm_val dot_S2048x64_S64x32_S2048x32_1_0_0_1_n_n 64 rfl rfl k
  have el : dot_S2048x64_S64x32_S2048x32_1_0_0_1_n_n.lhsIdx (ix2 p q)
      ((ValueIdx.contrEquiv1 dot_S2048x64_S64x32_S2048x32_1_0_0_1_n_n 64 rfl rfl).symm k) = ix2 p k :=
    funext fun a => Fin.ext (by
      match a with
      | ⟨0, _⟩ => exact lhs_mid_0 _ _
      | ⟨1, _⟩ => exact (lhs_mid_1 _ _).trans hk)
  have er : dot_S2048x64_S64x32_S2048x32_1_0_0_1_n_n.rhsIdx (ix2 p q)
      ((ValueIdx.contrEquiv1 dot_S2048x64_S64x32_S2048x32_1_0_0_1_n_n 64 rfl rfl).symm k) = ix2 k q :=
    funext fun a => Fin.ext (by
      match a with
      | ⟨0, _⟩ => exact (rhs_mid_0 _ _).trans hk
      | ⟨1, _⟩ => exact rhs_mid_1 _ _)
  rw [el, er]

theorem lhs_out_0 (i : S2048x1.Idx) (q : dot_S2048x32_S32x1_S2048x1_1_0_0_1_n_n.contr.Idx) :
    (dot_S2048x32_S32x1_S2048x1_1_0_0_1_n_n.lhsIdx i q 0).val = (i 0).val := by
  unfold DotDims.lhsIdx
  rw [dif_neg (show ¬(0 : Fin S2048x32.rank) ∈ dot_S2048x32_S32x1_S2048x1_1_0_0_1_n_n.lhsBatch by decide),
    dif_pos (show (0 : Fin S2048x32.rank) ∈ dot_S2048x32_S32x1_S2048x1_1_0_0_1_n_n.lhsNonContracting by decide)]
  rfl
theorem lhs_out_1 (i : S2048x1.Idx) (q : dot_S2048x32_S32x1_S2048x1_1_0_0_1_n_n.contr.Idx) :
    (dot_S2048x32_S32x1_S2048x1_1_0_0_1_n_n.lhsIdx i q 1).val = (q ⟨0, by decide⟩).val :=
  dot_S2048x32_S32x1_S2048x1_1_0_0_1_n_n.lhsIdx_val_of_single rfl i q
theorem rhs_out_0 (i : S2048x1.Idx) (q : dot_S2048x32_S32x1_S2048x1_1_0_0_1_n_n.contr.Idx) :
    (dot_S2048x32_S32x1_S2048x1_1_0_0_1_n_n.rhsIdx i q 0).val = (q ⟨0, by decide⟩).val :=
  dot_S2048x32_S32x1_S2048x1_1_0_0_1_n_n.rhsIdx_val_of_single rfl i q
theorem rhs_out_1 (i : S2048x1.Idx) (q : dot_S2048x32_S32x1_S2048x1_1_0_0_1_n_n.contr.Idx) :
    (dot_S2048x32_S32x1_S2048x1_1_0_0_1_n_n.rhsIdx i q 1).val = (i 1).val := by
  unfold DotDims.rhsIdx
  rw [dif_neg (show ¬(1 : Fin S32x1.rank) ∈ dot_S2048x32_S32x1_S2048x1_1_0_0_1_n_n.rhsBatch by decide),
    dif_pos (show (1 : Fin S32x1.rank) ∈ dot_S2048x32_S32x1_S2048x1_1_0_0_1_n_n.rhsNonContracting by decide)]
  rfl

/-- A [2048,32] by [32,1] product into the zero accumulator: entry (p, 0) is the sum over the 32 shared coordinates. -/
theorem mm_out_apply (a : FVec Ideal S2048x32 .bf16) (b : FVec Ideal S32x1 .bf16) (p : Fin 2048) (q : Fin 1) :
    matmul dot_S2048x32_S32x1_S2048x1_1_0_0_1_n_n none a b (constant (F := Ideal) S2048x1 .f32 0x00000000#32) (ix2 p q)
      = ∑ k : Fin 32, a (ix2 p k) * b (ix2 k q) := by
  simp only [matmul]
  rw [Ideal.matmul_constant_zero_apply,
    ← Equiv.sum_comp (ValueIdx.contrEquiv1 dot_S2048x32_S32x1_S2048x1_1_0_0_1_n_n 32 rfl rfl).symm]
  refine Finset.sum_congr rfl fun k _ => ?_
  have hk := ValueIdx.contrEquiv1_symm_val dot_S2048x32_S32x1_S2048x1_1_0_0_1_n_n 32 rfl rfl k
  have el : dot_S2048x32_S32x1_S2048x1_1_0_0_1_n_n.lhsIdx (ix2 p q)
      ((ValueIdx.contrEquiv1 dot_S2048x32_S32x1_S2048x1_1_0_0_1_n_n 32 rfl rfl).symm k) = ix2 p k :=
    funext fun a => Fin.ext (by
      match a with
      | ⟨0, _⟩ => exact lhs_out_0 _ _
      | ⟨1, _⟩ => exact (lhs_out_1 _ _).trans hk)
  have er : dot_S2048x32_S32x1_S2048x1_1_0_0_1_n_n.rhsIdx (ix2 p q)
      ((ValueIdx.contrEquiv1 dot_S2048x32_S32x1_S2048x1_1_0_0_1_n_n 32 rfl rfl).symm k) = ix2 k q :=
    funext fun a => Fin.ext (by
      match a with
      | ⟨0, _⟩ => exact (rhs_out_0 _ _).trans hk
      | ⟨1, _⟩ => exact rhs_out_1 _ _)
  rw [el, er]

/-! ## The perceptron of one pair of rows -/

/-- The first hidden layer of the rows `a`, `b`: unit j. -/
def rowH1 (a b : Fin 128 → EReal) (W1a W1b : Cert.Spec.Arr 128 64) (b1 : Cert.Spec.Arr 1 64) (j : Fin 64) : EReal :=
  max (((∑ k : Fin 128, a k * W1a (ix2 k j)) + (∑ k : Fin 128, b k * W1b (ix2 k j))) + b1 (ix2 0 j)) Cert.Spec.zeroE

/-- The second hidden layer: unit j. -/
def rowH2 (a b : Fin 128 → EReal) (W1a W1b : Cert.Spec.Arr 128 64) (b1 : Cert.Spec.Arr 1 64) (W2 : Cert.Spec.Arr 64 32)
    (b2 : Cert.Spec.Arr 1 32) (j : Fin 32) : EReal :=
  max ((∑ k : Fin 64, rowH1 a b W1a W1b b1 k * W2 (ix2 k j)) + b2 (ix2 0 j)) Cert.Spec.zeroE

/-- The output of the rows `a`, `b`. -/
def rowH (a b : Fin 128 → EReal) (W1a W1b : Cert.Spec.Arr 128 64) (b1 : Cert.Spec.Arr 1 64) (W2 : Cert.Spec.Arr 64 32)
    (b2 : Cert.Spec.Arr 1 32) (W3 : Cert.Spec.Arr 32 1) (b3 : Cert.Spec.Arr 1 1) : EReal :=
  (∑ k : Fin 32, rowH2 a b W1a W1b b1 W2 b2 k * W3 (ix2 k 0)) + b3 (ix2 0 0)

/-- Row r of the specification is the perceptron of row r of the two gathered arrays. -/
theorem mlpH_eq_rowH (u i : Cert.Spec.Arr 16384 128) (W1a W1b : Cert.Spec.Arr 128 64) (b1 : Cert.Spec.Arr 1 64)
    (W2 : Cert.Spec.Arr 64 32) (b2 : Cert.Spec.Arr 1 32) (W3 : Cert.Spec.Arr 32 1) (b3 : Cert.Spec.Arr 1 1) (r : Fin 16384) :
    Cert.Spec.mlpH u i W1a W1b b1 W2 b2 W3 b3 r
      = rowH (fun k => u (ix2 r k)) (fun k => i (ix2 r k)) W1a W1b b1 W2 b2 W3 b3 := rfl

/-! ## The kernel's layers over a block of 2048 rows -/

/-- The first hidden layer of a block, as the kernel computes it: two products, the bias row added to every row,
    the rectifier. -/
def blockH1 (x0 x1 : Vec Ideal S2048x128 .f32) (x2 x3 : Vec Ideal S128x64 .f32) (x4 : Vec Ideal S1x64 .f32) :
    FVec Ideal S2048x64 .f32 :=
  maximumf (addf (addf
      (matmul dot_S2048x128_S128x64_S2048x64_1_0_0_1_n_n none
        (truncf .bf16 (shapeCast S2048x128 x0 Gen.shapeCasts_S2048x128_S2048x128) Gen.bitsLt_bf16_f32)
        (truncf .bf16 (shapeCast S128x64 x2 Gen.shapeCasts_S128x64_S128x64) Gen.bitsLt_bf16_f32)
        (constant S2048x64 .f32 0x00000000#32))
      (matmul dot_S2048x128_S128x64_S2048x64_1_0_0_1_n_n none
        (truncf .bf16 (shapeCast S2048x128 x1 Gen.shapeCasts_S2048x128_S2048x128) Gen.bitsLt_bf16_f32)
        (truncf .bf16 (shapeCast S128x64 x3 Gen.shapeCasts_S128x64_S128x64) Gen.bitsLt_bf16_f32)
        (constant S2048x64 .f32 0x00000000#32)))
      (broadcastTo S2048x64 (shapeCast S1x64 x4 Gen.shapeCasts_S1x64_S1x64) Gen.broadcasts_S1x64_S2048x64))
    (broadcast S2048x64 (Scalar.ofBits .f32 0x00000000#32))

/-- The second hidden layer of a block from the first. -/
def blockH2 (h1 : FVec Ideal S2048x64 .f32) (x5 : Vec Ideal S64x32 .f32) (x6 : Vec Ideal S1x32 .f32) :
    FVec Ideal S2048x32 .f32 :=
  maximumf (addf
      (matmul dot_S2048x64_S64x32_S2048x32_1_0_0_1_n_n none
        (truncf .bf16 h1 Gen.bitsLt_bf16_f32) (truncf .bf16 x5 Gen.bitsLt_bf16_f32) (constant S2048x32 .f32 0x00000000#32))
      (broadcastTo S2048x32 (shapeCast S1x32 x6 Gen.shapeCasts_S1x32_S1x32) Gen.broadcasts_S1x32_S2048x32))
    (broadcast S2048x32 (Scalar.ofBits .f32 0x00000000#32))

/-- The last product of a block from the second hidden layer. -/
def blockOut (h2 : FVec Ideal S2048x32 .f32) (x7 : Vec Ideal S32x1 .f32) : FVec Ideal S2048x1 .f32 :=
  matmul dot_S2048x32_S32x1_S2048x1_1_0_0_1_n_n none
    (truncf .bf16 h2 Gen.bitsLt_bf16_f32) (truncf .bf16 x7 Gen.bitsLt_bf16_f32) (constant S2048x1 .f32 0x00000000#32)

/-- The kernel's payload is those three layers in turn. -/
theorem pay2_eq (x0 x1 : Vec Ideal S2048x128 .f32) (x2 x3 : Vec Ideal S128x64 .f32) (x4 : Vec Ideal S1x64 .f32)
    (x5 : Vec Ideal S64x32 .f32) (x6 : Vec Ideal S1x32 .f32) (x7 : Vec Ideal S32x1 .f32) :
    k1_pay2 x0 x1 x2 x3 x4 x5 x6 x7 = blockOut (blockH2 (blockH1 x0 x1 x2 x3 x4) x5 x6) x7 := rfl

/-- The first layer at row p, unit q. -/
theorem blockH1_apply (x0 x1 : Vec Ideal S2048x128 .f32) (x2 x3 : Vec Ideal S128x64 .f32) (x4 : Vec Ideal S1x64 .f32)
    (p : Fin 2048) (q : Fin 64) :
    blockH1 x0 x1 x2 x3 x4 (ix2 p q) = rowH1 (fun k => x0 (ix2 p k)) (fun k => x1 (ix2 p k)) x2 x3 x4 q := by
  unfold blockH1 rowH1
  rw [maximumf_apply, addf_apply, addf_apply, mm_in_apply, mm_in_apply, shapeCast_self, shapeCast_self, shapeCast_self,
    shapeCast_self, shapeCast_self, broadcastTo_1b_ab_apply]
  rfl

/-- The second layer at row p, unit q, from the first layer's row p. -/
theorem blockH2_apply (h1 : FVec Ideal S2048x64 .f32) (x5 : Vec Ideal S64x32 .f32) (x6 : Vec Ideal S1x32 .f32)
    (p : Fin 2048) (q : Fin 32) :
    blockH2 h1 x5 x6 (ix2 p q)
      = max ((∑ k : Fin 64, h1 (ix2 p k) * x5 (ix2 k q)) + x6 (ix2 0 q)) Cert.Spec.zeroE := by
  unfold blockH2
  rw [maximumf_apply, addf_apply, mm_mid_apply, shapeCast_self, broadcastTo_1b_ab_apply]
  rfl

/-- The last product at row p, from the second layer's row p. -/
theorem blockOut_apply (h2 : FVec Ideal S2048x32 .f32) (x7 : Vec Ideal S32x1 .f32) (p : Fin 2048) :
    blockOut h2 x7 (ix2 p 0) = ∑ k : Fin 32, h2 (ix2 p k) * x7 (ix2 k 0) := by
  unfold blockOut
  rw [mm_out_apply]
  rfl

/-- The value the kernel stores at row p of a block is the perceptron of row p of the two input blocks. -/
theorem payload_apply (x0 x1 : Vec Ideal S2048x128 .f32) (x2 x3 : Vec Ideal S128x64 .f32) (x4 : Vec Ideal S1x64 .f32)
    (x5 : Vec Ideal S64x32 .f32) (x6 : Vec Ideal S1x32 .f32) (x7 : Vec Ideal S32x1 .f32) (x8 : Vec Ideal S1x1 .f32)
    (p : Fin 2048) :
    k1_pay1 (k1_pay2 x0 x1 x2 x3 x4 x5 x6 x7) x8 (ix2 p 0)
      = rowH (fun k => x0 (ix2 p k)) (fun k => x1 (ix2 p k)) x2 x3 x4 x5 x6 x7 x8 := by
  rw [pay2_eq]
  unfold k1_pay1 rowH rowH2
  show blockOut (blockH2 (blockH1 x0 x1 x2 x3 x4) x5 x6) x7 (ix2 p 0)
      + broadcastTo S2048x1 (shapeCast S1x1 x8 Gen.shapeCasts_S1x1_S1x1) Gen.broadcasts_S1x1_S2048x1 (ix2 p 0) = _
  rw [blockOut_apply, shapeCast_self, broadcastTo_1b_ab_apply]
  refine congrArg (· + x8 (ix2 0 0)) (Finset.sum_congr rfl fun k _ => congrArg (· * x7 (ix2 k 0)) ?_)
  rw [blockH2_apply]
  refine congrArg (fun s => max (s + x6 (ix2 0 k)) Cert.Spec.zeroE)
    (Finset.sum_congr rfl fun l _ => congrArg (· * x5 (ix2 l k)) ?_)
  exact blockH1_apply x0 x1 x2 x3 x4 p l

/-! ## What the body leaves in the output window's buffer -/

theorem zero_offsets : (![0, 0] : Fin 2 → Nat) = fun _ => 0 := funext fun a => by fin_cases a <;> rfl

/-- The buffer after the body, at local row p: the perceptron of row p of the two input blocks. -/
theorem out_apply (x0 x1 : Vec Ideal S2048x128 .f32) (x2 x3 : Vec Ideal S128x64 .f32) (x4 : Vec Ideal S1x64 .f32)
    (x5 : Vec Ideal S64x32 .f32) (x6 : Vec Ideal S1x32 .f32) (x7 : Vec Ideal S32x1 .f32) (x8 : Vec Ideal S1x1 .f32)
    (p : Fin 2048) :
    out1_9 x0 x1 x2 x3 x4 x5 x6 x7 x8 (ix2 p 0)
      = rowH (fun k => x0 (ix2 p k)) (fun k => x1 (ix2 p k)) x2 x3 x4 x5 x6 x7 x8 := by
  unfold out1_9
  rw [View.canon_unit_zero zero_offsets]
  simp only [View.ld_unit_zero (S := S2048x128) zero_offsets, View.ld_unit_zero (S := S128x64) zero_offsets,
    View.ld_unit_zero (S := S1x64) zero_offsets, View.ld_unit_zero (S := S64x32) zero_offsets,
    View.ld_unit_zero (S := S1x32) zero_offsets, View.ld_unit_zero (S := S32x1) zero_offsets,
    View.ld_unit_zero (S := S1x1) zero_offsets]
  exact payload_apply x0 x1 x2 x3 x4 x5 x6 x7 x8 p

/-- The same at any index of the block, when local row (y 0) of the input blocks is row r of the two gathered arrays. -/
theorem out_row (x0 x1 : Vec Ideal S2048x128 .f32) (x2 x3 : Vec Ideal S128x64 .f32) (x4 : Vec Ideal S1x64 .f32)
    (x5 : Vec Ideal S64x32 .f32) (x6 : Vec Ideal S1x32 .f32) (x7 : Vec Ideal S32x1 .f32) (x8 : Vec Ideal S1x1 .f32)
    (u i : Cert.Spec.Arr 16384 128) (r : Fin 16384) (y : S2048x1.Idx)
    (hu : ∀ k : Fin 128, x0 (ix2 ⟨(y 0).val, idx2_lt0 y⟩ k) = u (ix2 r k))
    (hi : ∀ k : Fin 128, x1 (ix2 ⟨(y 0).val, idx2_lt0 y⟩ k) = i (ix2 r k)) :
    out1_9 x0 x1 x2 x3 x4 x5 x6 x7 x8 y = Cert.Spec.mlpH u i x2 x3 x4 x5 x6 x7 x8 r := by
  obtain ⟨p, q, rfl⟩ : ∃ (p : Fin 2048) (q : Fin 1), y = ix2 p q := ⟨y 0, y 1, eq_ix2 y⟩
  obtain rfl : q = 0 := Subsingleton.elim _ _
  rw [out_apply, mlpH_eq_rowH]
  have eu : (fun k => x0 (ix2 p k)) = fun k => u (ix2 r k) := funext hu
  have ei : (fun k => x1 (ix2 p k)) = fun k => i (ix2 r k) := funext hi
  rw [eu, ei]

/-! ## The windows' blocks as parts of the arrays -/

section Arrays

variable (V : (c : Dev nD) → (b : Ref sig .tc) → Buf (Elt Ideal) ((c : Thread nD τ).loc b))

/-- The index maps over the eight points: the two row windows and the output window are at block (t, 0), every
    weight and bias window at block (0, 0). -/
theorem index_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_9.index t (0 : Fin 2) = t.val
    ∧ win1_9.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0 :=
  (by decide +kernel : ∀ t : Fin grid1.N, _)

theorem rows0_apply (c : Dev nD) (t : Fin cfg1.N) (x : S2048x128.Idx) (k : S16384x128.Idx)
    (hk0 : (k 0).val = 2048 * t.val + (x 0).val) (hk1 : (k 1).val = (x 1).val) :
    (iblk1 V c 0 t : Vec Ideal S2048x128 .f32) x = (V c main_v30 : S16384x128.Idx → EReal) k := by
  obtain ⟨e0a, e0b, e1a, e1b, e9a, e9b, e2a, e2b, e3a, e3b, e4a, e4b, e5a, e5b, e6a, e6b, e7a, e7b, e8a, e8b⟩ := index_facts t
  unfold iblk1
  rw [View.read_apply]
  show V c main_v30 _ = V c main_v30 _
  congr 1
  funext ax
  apply Fin.ext
  match ax with
  | ⟨0, _⟩ => show win1_0.index t (0 : Fin 2) * 2048 + 1 * (x 0).val = (k 0).val; rw [e0a, hk0]; omega
  | ⟨1, _⟩ => show win1_0.index t (1 : Fin 2) * 128 + 1 * (x 1).val = (k 1).val; rw [e0b, hk1]; omega

theorem rows1_apply (c : Dev nD) (t : Fin cfg1.N) (x : S2048x128.Idx) (k : S16384x128.Idx)
    (hk0 : (k 0).val = 2048 * t.val + (x 0).val) (hk1 : (k 1).val = (x 1).val) :
    (iblk1 V c 1 t : Vec Ideal S2048x128 .f32) x = (V c main_v39 : S16384x128.Idx → EReal) k := by
  obtain ⟨e0a, e0b, e1a, e1b, e9a, e9b, e2a, e2b, e3a, e3b, e4a, e4b, e5a, e5b, e6a, e6b, e7a, e7b, e8a, e8b⟩ := index_facts t
  unfold iblk1
  rw [View.read_apply]
  show V c main_v39 _ = V c main_v39 _
  congr 1
  funext ax
  apply Fin.ext
  match ax with
  | ⟨0, _⟩ => show win1_1.index t (0 : Fin 2) * 2048 + 1 * (x 0).val = (k 0).val; rw [e1a, hk0]; omega
  | ⟨1, _⟩ => show win1_1.index t (1 : Fin 2) * 128 + 1 * (x 1).val = (k 1).val; rw [e1b, hk1]; omega

theorem whole2 (c : Dev nD) (t : Fin cfg1.N) : (iblk1 V c 2 t : Vec Ideal S128x64 .f32) = V c main_v40 := by
  obtain ⟨e0a, e0b, e1a, e1b, e9a, e9b, e2a, e2b, e3a, e3b, e4a, e4b, e5a, e5b, e6a, e6b, e7a, e7b, e8a, e8b⟩ := index_facts t
  funext j
  unfold iblk1
  rw [View.read_apply]
  show V c main_v40 _ = V c main_v40 j
  congr 1
  funext ax
  apply Fin.ext
  match ax with
  | ⟨0, _⟩ => show win1_2.index t (0 : Fin 2) * 128 + 1 * (j 0).val = (j 0).val; rw [e2a]; omega
  | ⟨1, _⟩ => show win1_2.index t (1 : Fin 2) * 64 + 1 * (j 1).val = (j 1).val; rw [e2b]; omega

theorem whole3 (c : Dev nD) (t : Fin cfg1.N) : (iblk1 V c 3 t : Vec Ideal S128x64 .f32) = V c main_v41 := by
  obtain ⟨e0a, e0b, e1a, e1b, e9a, e9b, e2a, e2b, e3a, e3b, e4a, e4b, e5a, e5b, e6a, e6b, e7a, e7b, e8a, e8b⟩ := index_facts t
  funext j
  unfold iblk1
  rw [View.read_apply]
  show V c main_v41 _ = V c main_v41 j
  congr 1
  funext ax
  apply Fin.ext
  match ax with
  | ⟨0, _⟩ => show win1_3.index t (0 : Fin 2) * 128 + 1 * (j 0).val = (j 0).val; rw [e3a]; omega
  | ⟨1, _⟩ => show win1_3.index t (1 : Fin 2) * 64 + 1 * (j 1).val = (j 1).val; rw [e3b]; omega

theorem whole4 (c : Dev nD) (t : Fin cfg1.N) : (iblk1 V c 4 t : Vec Ideal S1x64 .f32) = V c main_v42 := by
  obtain ⟨e0a, e0b, e1a, e1b, e9a, e9b, e2a, e2b, e3a, e3b, e4a, e4b, e5a, e5b, e6a, e6b, e7a, e7b, e8a, e8b⟩ := index_facts t
  funext j
  unfold iblk1
  rw [View.read_apply]
  show V c main_v42 _ = V c main_v42 j
  congr 1
  funext ax
  apply Fin.ext
  match ax with
  | ⟨0, _⟩ => show win1_4.index t (0 : Fin 2) * 1 + 1 * (j 0).val = (j 0).val; rw [e4a]; omega
  | ⟨1, _⟩ => show win1_4.index t (1 : Fin 2) * 64 + 1 * (j 1).val = (j 1).val; rw [e4b]; omega

theorem whole5 (c : Dev nD) (t : Fin cfg1.N) : (iblk1 V c 5 t : Vec Ideal S64x32 .f32) = V c main_arg11 := by
  obtain ⟨e0a, e0b, e1a, e1b, e9a, e9b, e2a, e2b, e3a, e3b, e4a, e4b, e5a, e5b, e6a, e6b, e7a, e7b, e8a, e8b⟩ := index_facts t
  funext j
  unfold iblk1
  rw [View.read_apply]
  show V c main_arg11 _ = V c main_arg11 j
  congr 1
  funext ax
  apply Fin.ext
  match ax with
  | ⟨0, _⟩ => show win1_5.index t (0 : Fin 2) * 64 + 1 * (j 0).val = (j 0).val; rw [e5a]; omega
  | ⟨1, _⟩ => show win1_5.index t (1 : Fin 2) * 32 + 1 * (j 1).val = (j 1).val; rw [e5b]; omega

theorem whole6 (c : Dev nD) (t : Fin cfg1.N) : (iblk1 V c 6 t : Vec Ideal S1x32 .f32) = V c main_v43 := by
  obtain ⟨e0a, e0b, e1a, e1b, e9a, e9b, e2a, e2b, e3a, e3b, e4a, e4b, e5a, e5b, e6a, e6b, e7a, e7b, e8a, e8b⟩ := index_facts t
  funext j
  unfold iblk1
  rw [View.read_apply]
  show V c main_v43 _ = V c main_v43 j
  congr 1
  funext ax
  apply Fin.ext
  match ax with
  | ⟨0, _⟩ => show win1_6.index t (0 : Fin 2) * 1 + 1 * (j 0).val = (j 0).val; rw [e6a]; omega
  | ⟨1, _⟩ => show win1_6.index t (1 : Fin 2) * 32 + 1 * (j 1).val = (j 1).val; rw [e6b]; omega

theorem whole7 (c : Dev nD) (t : Fin cfg1.N) : (iblk1 V c 7 t : Vec Ideal S32x1 .f32) = V c main_arg13 := by
  obtain ⟨e0a, e0b, e1a, e1b, e9a, e9b, e2a, e2b, e3a, e3b, e4a, e4b, e5a, e5b, e6a, e6b, e7a, e7b, e8a, e8b⟩ := index_facts t
  funext j
  unfold iblk1
  rw [View.read_apply]
  show V c main_arg13 _ = V c main_arg13 j
  congr 1
  funext ax
  apply Fin.ext
  match ax with
  | ⟨0, _⟩ => show win1_7.index t (0 : Fin 2) * 32 + 1 * (j 0).val = (j 0).val; rw [e7a]; omega
  | ⟨1, _⟩ => show win1_7.index t (1 : Fin 2) * 1 + 1 * (j 1).val = (j 1).val; rw [e7b]; omega

theorem whole8 (c : Dev nD) (t : Fin cfg1.N) : (iblk1 V c 8 t : Vec Ideal S1x1 .f32) = V c main_v44 := by
  obtain ⟨e0a, e0b, e1a, e1b, e9a, e9b, e2a, e2b, e3a, e3b, e4a, e4b, e5a, e5b, e6a, e6b, e7a, e7b, e8a, e8b⟩ := index_facts t
  funext j
  unfold iblk1
  rw [View.read_apply]
  show V c main_v44 _ = V c main_v44 j
  congr 1
  funext ax
  apply Fin.ext
  match ax with
  | ⟨0, _⟩ => show win1_8.index t (0 : Fin 2) * 1 + 1 * (j 0).val = (j 0).val; rw [e8a]; omega
  | ⟨1, _⟩ => show win1_8.index t (1 : Fin 2) * 1 + 1 * (j 1).val = (j 1).val; rw [e8b]; omega

/-! ## From blocks to the array -/

/-- What point t writes back is block t of the perceptron's result. -/
theorem flushed_eq (c : Dev nD) (t : Fin cfg1.N) :
    (dat1 (F := Ideal) V c).flushed 9 t
      = ((cfg1.win 9).blk t).view.read (Elt Ideal) (Cert.Spec.mlpArr (V c main_v30) (V c main_v39) (V c main_v40) (V c main_v41) (V c main_v42) (V c main_arg11) (V c main_v43) (V c main_arg13) (V c main_v44)) := by
  show (cfg1.win 9).cut (grid1.coords t) ((dat1 V c).after 9 t) = _
  rw [after1_9, whole2 V c t, whole3 V c t, whole4 V c t, whole5 V c t, whole6 V c t, whole7 V c t, whole8 V c t]
  obtain ⟨e0a, e0b, e1a, e1b, e9a, e9b, e2a, e2b, e3a, e3b, e4a, e4b, e5a, e5b, e6a, e6b, e7a, e7b, e8a, e8b⟩ := index_facts t
  funext y
  rw [View.read_apply]
  have hY : ((((cfg1.win 9).blk t).view.emb y) 0).val = 2048 * t.val + (y 0).val := by
    show win1_9.index t (0 : Fin 2) * 2048 + 1 * (y 0).val = _
    rw [e9a]; omega
  exact out_row (iblk1 V c 0 t) (iblk1 V c 1 t) (V c main_v40) (V c main_v41) (V c main_v42) (V c main_arg11)
    (V c main_v43) (V c main_arg13) (V c main_v44) (V c main_v30) (V c main_v39)
    ⟨((((cfg1.win 9).blk t).view.emb y) 0).val, idx2_lt0 _⟩ y
    (fun k => rows0_apply V c t _ _ hY rfl) (fun k => rows1_apply V c t _ _ hY rfl)

/-- An index of the array is in point t's block iff each coordinate is in the block's range on its axis. -/
theorem mem_blk (t : Fin cfg1.N) (i : S16384x1.Idx) :
    i ∈ ((cfg1.win 9).blk t).view.set ↔ ∀ a : Fin 2, win1_9.index t a * S2048x1.size a ≤ (i a).val
      ∧ (i a).val < win1_9.index t a * S2048x1.size a + S2048x1.size a := by
  show i ∈ ((View.whole main_v45).slice (win1_9.rect t)).set ↔ _
  rw [View.set_slice_whole, Rect.mem_set_unit]
  exact Iff.rfl

/-- Row r lies in the block of point r / 2048. -/
theorem cover (i : S16384x1.Idx) :
    ∃ t : Fin cfg1.N, (cfg1.win 9).flush t = true ∧ i ∈ ((cfg1.win 9).blk t).view.set := by
  have h0 : (i 0).val < 16384 := idx2_lt0 i
  have h1 : (i 1).val < 1 := idx2_lt1 i
  have hN : grid1.N = 8 := N_1
  have ht : (i 0).val / 2048 < cfg1.N := by show (i 0).val / 2048 < grid1.N; rw [hN]; omega
  refine ⟨⟨(i 0).val / 2048, ht⟩, flush1_9 _, ?_⟩
  rw [mem_blk]
  obtain ⟨-, -, -, -, e9a, e9b, -⟩ := index_facts ⟨(i 0).val / 2048, ht⟩
  intro a
  match a with
  | ⟨0, _⟩ =>
    show win1_9.index ⟨(i 0).val / 2048, ht⟩ (0 : Fin 2) * 2048 ≤ (i 0).val
      ∧ (i 0).val < win1_9.index ⟨(i 0).val / 2048, ht⟩ (0 : Fin 2) * 2048 + 2048
    rw [e9a]; show (i 0).val / 2048 * 2048 ≤ (i 0).val ∧ (i 0).val < (i 0).val / 2048 * 2048 + 2048; omega
  | ⟨1, _⟩ =>
    show win1_9.index ⟨(i 0).val / 2048, ht⟩ (1 : Fin 2) * 1 ≤ (i 1).val
      ∧ (i 1).val < win1_9.index ⟨(i 0).val / 2048, ht⟩ (1 : Fin 2) * 1 + 1
    rw [e9b]; omega

end Arrays

/-- The region's output array after its eight grid points is the perceptron's result of the arrays it entered with. -/
theorem arr1 (V : (c : Dev nD) → (b : Ref sig .tc) → Buf (Elt Ideal) ((c : Thread nD τ).loc b)) (c : Dev nD) :
    (dat1 (F := Ideal) V c).arrAt 9 cfg1.N
      = Cert.Spec.mlpArr (V c main_v30) (V c main_v39) (V c main_v40) (V c main_v41) (V c main_v42) (V c main_arg11)
          (V c main_v43) (V c main_arg13) (V c main_v44) := by
  exact (dat1 (F := Ideal) V c).arrAt_eq_of_cover 9 _ (fun t _ => flushed_eq V c t) cover

end Cert.KernelIdeal.Hand

end
-- ==== Proof.KHost.lean ====
/-
  The kernel program's result over the argument arrays: @main's last buffer contents (the fold through its three
  host stretches and two regions) at the result buffer is the perceptron region's array flattened; that region
  entered with the batch rows gathered from the convolution region's array, which in turn entered with the
  features, the two halves of the wide accumulation and the reshaped biases. Each host stretch is read back
  operation by operation; each region's array is its whole-array function (KRegion0, KRegion1).
-/
import proofs.«133197_j52785148068369_1_alg».proof.Proof.Gen.KernelIdeal.Frame
import proofs.«133197_j52785148068369_1_alg».proof.Proof.KSpec
import proofs.«133197_j52785148068369_1_alg».proof.Proof.KRegion0
import proofs.«133197_j52785148068369_1_alg».proof.Proof.KRegion1
import Idealize.ShloMosaic.Lib.StableHlo.Run

set_option maxRecDepth 16384

noncomputable section

namespace Cert.KernelIdeal.Hand

open Idealize.ShloMosaic Idealize.ShloMosaic.TcCoe Idealize.SL.Sem Cert.KernelIdeal Cert.KernelIdeal.Facts₀ Cert.KernelIdeal.Facts
open Cert.KernelIdeal.Gen Idealize.ShloMosaic.StableHlo

variable (X : Valuation τ sig (Elt Ideal))

/-! ## The first host stretch read back -/

theorem ops0_v0 : after (hostOps0 (F := Ideal)) X (Proc.devRef .tc main_v0) = feat (X (Proc.devRef .tc main_arg0)) (X (Proc.devRef .tc main_arg1)) := by
  after_results; rfl
set_option maxHeartbeats 4000000 in
theorem ops0_v19 : after (hostOps0 (F := Ideal)) X (Proc.devRef .tc main_v19)
    = lx (X (Proc.devRef .tc main_arg0)) (X (Proc.devRef .tc main_arg1)) (X (Proc.devRef .tc main_arg2)) (X (Proc.devRef .tc main_arg3)) (X (Proc.devRef .tc main_arg4)) := by
  unfold lx comb xcol valB rowIdx colIdx feat
  after_results_simp
  repeat (first
    | rw [nullary_result] | rw [unary_result] | rw [binary_result] | rw [ternary_result] | rw [quaternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide))
set_option maxHeartbeats 4000000 in
theorem ops0_v20 : after (hostOps0 (F := Ideal)) X (Proc.devRef .tc main_v20)
    = lx2 (X (Proc.devRef .tc main_arg0)) (X (Proc.devRef .tc main_arg1)) (X (Proc.devRef .tc main_arg2)) (X (Proc.devRef .tc main_arg3)) (X (Proc.devRef .tc main_arg4)) := by
  unfold lx2 comb xcol valB rowIdx colIdx feat
  after_results_simp
  repeat (first
    | rw [nullary_result] | rw [unary_result] | rw [binary_result] | rw [ternary_result] | rw [quaternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide))
theorem ops0_v21 : after (hostOps0 (F := Ideal)) X (Proc.devRef .tc main_v21) = shapeCast S1x64 (X (Proc.devRef .tc main_arg6)) Facts₀.shapeCasts_S64_S1x64 := by
  after_results; rfl
theorem ops0_v22 : after (hostOps0 (F := Ideal)) X (Proc.devRef .tc main_v22) = shapeCast S1x64 (X (Proc.devRef .tc main_arg8)) Facts₀.shapeCasts_S64_S1x64 := by
  after_results; rfl
theorem ops0_arg5 : after (hostOps0 (F := Ideal)) X (Proc.devRef .tc main_arg5) = X (Proc.devRef .tc main_arg5) := by
  after_results
theorem ops0_arg7 : after (hostOps0 (F := Ideal)) X (Proc.devRef .tc main_arg7) = X (Proc.devRef .tc main_arg7) := by
  after_results
theorem ops0_arg9 : after (hostOps0 (F := Ideal)) X (Proc.devRef .tc main_arg9) = X (Proc.devRef .tc main_arg9) := by
  after_results
theorem ops0_arg10 : after (hostOps0 (F := Ideal)) X (Proc.devRef .tc main_arg10) = X (Proc.devRef .tc main_arg10) := by
  after_results
theorem ops0_arg11 : after (hostOps0 (F := Ideal)) X (Proc.devRef .tc main_arg11) = X (Proc.devRef .tc main_arg11) := by
  after_results
theorem ops0_arg12 : after (hostOps0 (F := Ideal)) X (Proc.devRef .tc main_arg12) = X (Proc.devRef .tc main_arg12) := by
  after_results
theorem ops0_arg13 : after (hostOps0 (F := Ideal)) X (Proc.devRef .tc main_arg13) = X (Proc.devRef .tc main_arg13) := by
  after_results
theorem ops0_arg14 : after (hostOps0 (F := Ideal)) X (Proc.devRef .tc main_arg14) = X (Proc.devRef .tc main_arg14) := by
  after_results
theorem ops0_arg15 : after (hostOps0 (F := Ideal)) X (Proc.devRef .tc main_arg15) = X (Proc.devRef .tc main_arg15) := by
  after_results
theorem ops0_arg16 : after (hostOps0 (F := Ideal)) X (Proc.devRef .tc main_arg16) = X (Proc.devRef .tc main_arg16) := by
  after_results

/-! ## The second host stretch read back -/

theorem ops1_v30 : after (hostOps1 (F := Ideal)) X (Proc.devRef .tc main_v30)
    = Host.gather gather_S70000x128_S16384x1_S16384x128_1_0_n_n_0_1_1128 (X (Proc.devRef .tc main_v23)) (uIdx (X (Proc.devRef .tc main_arg15))) := by
  unfold uIdx
  after_results_simp
theorem ops1_v39 : after (hostOps1 (F := Ideal)) X (Proc.devRef .tc main_v39)
    = Host.gather gather_S70000x128_S16384x1_S16384x128_1_0_n_n_0_1_1128 (X (Proc.devRef .tc main_v23)) (iIdx (X (Proc.devRef .tc main_arg16))) := by
  unfold iIdx
  after_results_simp
theorem ops1_v40 : after (hostOps1 (F := Ideal)) X (Proc.devRef .tc main_v40)
    = extractStridedSlice S128x64 ![0, 0] (X (Proc.devRef .tc main_arg9)) Facts₀.slices_S256x64_S128x64_0_0 := by
  after_results
theorem ops1_v41 : after (hostOps1 (F := Ideal)) X (Proc.devRef .tc main_v41)
    = extractStridedSlice S128x64 ![128, 0] (X (Proc.devRef .tc main_arg9)) Facts₀.slices_S256x64_S128x64_128_0 := by
  after_results
theorem ops1_v42 : after (hostOps1 (F := Ideal)) X (Proc.devRef .tc main_v42) = shapeCast S1x64 (X (Proc.devRef .tc main_arg10)) Facts₀.shapeCasts_S64_S1x64 := by
  after_results; rfl
theorem ops1_v43 : after (hostOps1 (F := Ideal)) X (Proc.devRef .tc main_v43) = shapeCast S1x32 (X (Proc.devRef .tc main_arg12)) Facts₀.shapeCasts_S32_S1x32 := by
  after_results; rfl
theorem ops1_v44 : after (hostOps1 (F := Ideal)) X (Proc.devRef .tc main_v44) = shapeCast S1x1 (X (Proc.devRef .tc main_arg14)) Facts₀.shapeCasts_S1_S1x1 := by
  after_results; rfl
theorem ops1_arg11 : after (hostOps1 (F := Ideal)) X (Proc.devRef .tc main_arg11) = X (Proc.devRef .tc main_arg11) := by
  after_results
theorem ops1_arg13 : after (hostOps1 (F := Ideal)) X (Proc.devRef .tc main_arg13) = X (Proc.devRef .tc main_arg13) := by
  after_results

/-! ## The third host stretch read back -/

theorem ops2_v46 : after (hostOps2 (F := Ideal)) X (Proc.devRef .tc main_v46)
    = shapeCast S16384 (X (Proc.devRef .tc main_v45)) Facts₀.shapeCasts_S16384x1_S16384 := by
  after_results; rfl

/-! ## The fold through @main -/

variable (m : (ℓ : Loc nD τ sig) → Buf (Elt Ideal) ℓ) (ρ : Dev nD → PrngReg) (c : Dev nD)

/-- Argument 9 is still the launch contents when the first region is left. -/
theorem W2_arg9 : W2 m ρ c (Proc.devRef .tc main_arg9) = (m ((c : Thread nD τ).loc main_arg9)) :=
  (W2_of_ne m ρ c main_arg9 (by decide)).trans ((ops0_arg9 (W0 m ρ c)).trans rfl)
/-- Argument 10 is still the launch contents when the first region is left. -/
theorem W2_arg10 : W2 m ρ c (Proc.devRef .tc main_arg10) = (m ((c : Thread nD τ).loc main_arg10)) :=
  (W2_of_ne m ρ c main_arg10 (by decide)).trans ((ops0_arg10 (W0 m ρ c)).trans rfl)
/-- Argument 11 is still the launch contents when the first region is left. -/
theorem W2_arg11 : W2 m ρ c (Proc.devRef .tc main_arg11) = (m ((c : Thread nD τ).loc main_arg11)) :=
  (W2_of_ne m ρ c main_arg11 (by decide)).trans ((ops0_arg11 (W0 m ρ c)).trans rfl)
/-- Argument 12 is still the launch contents when the first region is left. -/
theorem W2_arg12 : W2 m ρ c (Proc.devRef .tc main_arg12) = (m ((c : Thread nD τ).loc main_arg12)) :=
  (W2_of_ne m ρ c main_arg12 (by decide)).trans ((ops0_arg12 (W0 m ρ c)).trans rfl)
/-- Argument 13 is still the launch contents when the first region is left. -/
theorem W2_arg13 : W2 m ρ c (Proc.devRef .tc main_arg13) = (m ((c : Thread nD τ).loc main_arg13)) :=
  (W2_of_ne m ρ c main_arg13 (by decide)).trans ((ops0_arg13 (W0 m ρ c)).trans rfl)
/-- Argument 14 is still the launch contents when the first region is left. -/
theorem W2_arg14 : W2 m ρ c (Proc.devRef .tc main_arg14) = (m ((c : Thread nD τ).loc main_arg14)) :=
  (W2_of_ne m ρ c main_arg14 (by decide)).trans ((ops0_arg14 (W0 m ρ c)).trans rfl)
/-- Argument 15 is still the launch contents when the first region is left. -/
theorem W2_arg15 : W2 m ρ c (Proc.devRef .tc main_arg15) = (m ((c : Thread nD τ).loc main_arg15)) :=
  (W2_of_ne m ρ c main_arg15 (by decide)).trans ((ops0_arg15 (W0 m ρ c)).trans rfl)
/-- Argument 16 is still the launch contents when the first region is left. -/
theorem W2_arg16 : W2 m ρ c (Proc.devRef .tc main_arg16) = (m ((c : Thread nD τ).loc main_arg16)) :=
  (W2_of_ne m ρ c main_arg16 (by decide)).trans ((ops0_arg16 (W0 m ρ c)).trans rfl)

/-- The convolution region's array over the argument arrays. -/
theorem final_eq : W2 m ρ c (Proc.devRef .tc main_v23)
    = final (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W2_arr m ρ c 7).trans ?_
  rw [arr0 (V1 m ρ) c]
  have e0 : V1 m ρ c main_v0 = feat (m ((c : Thread nD τ).loc main_arg0)) (m ((c : Thread nD τ).loc main_arg1)) := ops0_v0 (W0 m ρ c)
  have e19 : V1 m ρ c main_v19 = lx (m ((c : Thread nD τ).loc main_arg0)) (m ((c : Thread nD τ).loc main_arg1)) (m ((c : Thread nD τ).loc main_arg2)) (m ((c : Thread nD τ).loc main_arg3)) (m ((c : Thread nD τ).loc main_arg4)) := ops0_v19 (W0 m ρ c)
  have e20 : V1 m ρ c main_v20 = lx2 (m ((c : Thread nD τ).loc main_arg0)) (m ((c : Thread nD τ).loc main_arg1)) (m ((c : Thread nD τ).loc main_arg2)) (m ((c : Thread nD τ).loc main_arg3)) (m ((c : Thread nD τ).loc main_arg4)) := ops0_v20 (W0 m ρ c)
  have e21 : V1 m ρ c main_v21 = shapeCast S1x64 (m ((c : Thread nD τ).loc main_arg6)) Facts₀.shapeCasts_S64_S1x64 := ops0_v21 (W0 m ρ c)
  have e22 : V1 m ρ c main_v22 = shapeCast S1x64 (m ((c : Thread nD τ).loc main_arg8)) Facts₀.shapeCasts_S64_S1x64 := ops0_v22 (W0 m ρ c)
  have e5 : V1 m ρ c main_arg5 = (m ((c : Thread nD τ).loc main_arg5)) := ops0_arg5 (W0 m ρ c)
  have e7 : V1 m ρ c main_arg7 = (m ((c : Thread nD τ).loc main_arg7)) := ops0_arg7 (W0 m ρ c)
  rw [e0, e19, e20, e21, e22, e5, e7]
  rfl

/-- What @main returns, over the argument arrays. -/
theorem result_eq : W5 m ρ c (Proc.devRef .tc main_v46)
    = outOf (final (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
        (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (ops2_v46 (W4 m ρ c)).trans ?_
  rw [show W4 m ρ c (Proc.devRef .tc main_v45) = (dat1 (V3 m ρ) c).arrAt 9 cfg1.N from W4_arr m ρ c 9, arr1 (V3 m ρ) c]
  have e30 : V3 m ρ c main_v30 = Host.gather gather_S70000x128_S16384x1_S16384x128_1_0_n_n_0_1_1128 (W2 m ρ c (Proc.devRef .tc main_v23)) (uIdx (W2 m ρ c (Proc.devRef .tc main_arg15))) := ops1_v30 (W2 m ρ c)
  have e39 : V3 m ρ c main_v39 = Host.gather gather_S70000x128_S16384x1_S16384x128_1_0_n_n_0_1_1128 (W2 m ρ c (Proc.devRef .tc main_v23)) (iIdx (W2 m ρ c (Proc.devRef .tc main_arg16))) := ops1_v39 (W2 m ρ c)
  have e40 : V3 m ρ c main_v40 = extractStridedSlice S128x64 ![0, 0] (W2 m ρ c (Proc.devRef .tc main_arg9)) Facts₀.slices_S256x64_S128x64_0_0 := ops1_v40 (W2 m ρ c)
  have e41 : V3 m ρ c main_v41 = extractStridedSlice S128x64 ![128, 0] (W2 m ρ c (Proc.devRef .tc main_arg9)) Facts₀.slices_S256x64_S128x64_128_0 := ops1_v41 (W2 m ρ c)
  have e42 : V3 m ρ c main_v42 = shapeCast S1x64 (W2 m ρ c (Proc.devRef .tc main_arg10)) Facts₀.shapeCasts_S64_S1x64 := ops1_v42 (W2 m ρ c)
  have e43 : V3 m ρ c main_v43 = shapeCast S1x32 (W2 m ρ c (Proc.devRef .tc main_arg12)) Facts₀.shapeCasts_S32_S1x32 := ops1_v43 (W2 m ρ c)
  have e44 : V3 m ρ c main_v44 = shapeCast S1x1 (W2 m ρ c (Proc.devRef .tc main_arg14)) Facts₀.shapeCasts_S1_S1x1 := ops1_v44 (W2 m ρ c)
  have e11 : V3 m ρ c main_arg11 = W2 m ρ c (Proc.devRef .tc main_arg11) := ops1_arg11 (W2 m ρ c)
  have e13 : V3 m ρ c main_arg13 = W2 m ρ c (Proc.devRef .tc main_arg13) := ops1_arg13 (W2 m ρ c)
  rw [e30, e39, e40, e41, e42, e43, e44, e11, e13, final_eq, W2_arg9, W2_arg10, W2_arg11, W2_arg12, W2_arg13, W2_arg14, W2_arg15, W2_arg16]
  rfl

end Cert.KernelIdeal.Hand

end
-- ==== Proof.RSpec.lean ====
/-
  The reference program's stages at the extended reals, as functions of the seventeen argument arrays: the
  features, the adjacency applied to an array (gather the source rows, weigh, accumulate by destination row),
  the graph-convolution layer, the two batch gathers and the three-layer perceptron on the host.
-/
import proofs.«133197_j52785148068369_1_alg».proof.ReferenceIdeal
import proofs.«133197_j52785148068369_1_alg».proof.Proof.Gen.ReferenceIdeal
import Idealize.ShloMosaic.PureOps.Ideal

noncomputable section

namespace Cert.ReferenceIdeal.Hand

open Idealize.ShloMosaic Cert.ReferenceIdeal Cert.ReferenceIdeal.Facts₀ Cert.ReferenceIdeal.Facts

/-- The user and item embedding tables stacked: the [70000, 64] features. -/
def feat (a0 : FVec Ideal S50000x64 .f32) (a1 : FVec Ideal S20000x64 .f32) : FVec Ideal S70000x64 .f32 :=
  concatenate S70000x64 0 [⟨S50000x64, a0⟩, ⟨S20000x64, a1⟩] concatenates_S50000x64_S20000x64_S70000x64_d0

/-- An edge's source row, a negative one wrapped once by 70000, as a column of start indices. -/
def colIdx (a3 : IVec S2000000 32) : IVec S2000000x1 32 :=
  broadcastInDim S2000000x1 ![0] bcast_S2000000_S2000000x1_0
    (select (cmpi .slt a3 (broadcastInDim S2000000 ![] bcast_S_S2000000 (constantI S_ 32 0#32)))
      (addi a3 (broadcastInDim S2000000 ![] bcast_S_S2000000 (constantI S_ 32 70000#32))) a3)

/-- The edges' destination rows as a column of scatter indices. -/
def rowIdx (a2 : IVec S2000000 32) : IVec S2000000x1 32 :=
  broadcastInDim S2000000x1 ![0] bcast_S2000000_S2000000x1_0 a2

/-- Each edge's weight along its 64 features. -/
def valB (a4 : FVec Ideal S2000000 .f32) : FVec Ideal S2000000x64 .f32 :=
  broadcastInDim S2000000x64 ![0, 1] bcast_S2000000x1_S2000000x64_0_1 (broadcastInDim S2000000x1 ![0] bcast_S2000000_S2000000x1_0 a4)

/-- The sparse adjacency applied to `x`: row n is the sum over the edges into n of weight · x[source row]. -/
def spmm (x : FVec Ideal S70000x64 .f32) (a2 a3 : IVec S2000000 32) (a4 : FVec Ideal S2000000 .f32) : FVec Ideal S70000x64 .f32 :=
  Host.scatterAdd scatter_S70000x64_S2000000x1_S2000000x64_1_0_0_1
    (broadcastInDim S70000x64 ![] bcast_S_S70000x64 (constant S_ .f32 0x00000000#32)) (rowIdx a2)
    (mulf (valB a4) (Host.gather gather_S70000x64_S2000000x1_S2000000x64_1_0_n_n_0_1_164 x (colIdx a3)))

/-- The leaky rectifier on a [70000, 64] array. -/
def leakyArr (x : FVec Ideal S70000x64 .f32) : FVec Ideal S70000x64 .f32 :=
  select (cmpf .oge x (broadcastInDim S70000x64 ![] bcast_S_S70000x64 (constant S_ .f32 0x00000000#32))) x
    (mulf (broadcastInDim S70000x64 ![] bcast_S_S70000x64 (id (constant S_ .f32 0x3C23D70A#32))) x)

/-- The graph-convolution layer: the features beside the rectified combination. -/
def gcn (ft lx lx2 : FVec Ideal S70000x64 .f32) (a5 : FVec Ideal S64x64 .f32) (a6 : FVec Ideal S64 .f32) (a7 : FVec Ideal S64x64 .f32)
    (a8 : FVec Ideal S64 .f32) : FVec Ideal S70000x128 .f32 :=
  concatenate S70000x128 1 [⟨S70000x64, ft⟩, ⟨S70000x64, leakyArr
    (addf (addf (Host.dotGeneral dot_S70000x64_S64x64_S70000x64_1_0_0_1_n_n none (addf lx ft) a5)
        (broadcastInDim S70000x64 ![0, 1] bcast_S1x64_S70000x64_0_1 (broadcastInDim S1x64 ![1] bcast_S64_S1x64_1 a6)))
      (addf (Host.dotGeneral dot_S70000x64_S64x64_S70000x64_1_0_0_1_n_n none lx2 a7)
        (broadcastInDim S70000x64 ![0, 1] bcast_S1x64_S70000x64_0_1 (broadcastInDim S1x64 ![1] bcast_S64_S1x64_1 a8))))⟩]
    concatenates_S70000x64_S70000x64_S70000x128_d1

/-- The batch's user rows, a negative one wrapped once, as a column of start indices. -/
def uIdx (a15 : IVec S16384 32) : IVec S16384x1 32 :=
  broadcastInDim S16384x1 ![0] bcast_S16384_S16384x1_0
    (select (cmpi .slt a15 (broadcastInDim S16384 ![] bcast_S_S16384 (constantI S_ 32 0#32)))
      (addi a15 (broadcastInDim S16384 ![] bcast_S_S16384 (constantI S_ 32 70000#32))) a15)

/-- The batch's item rows, shifted past the 50000 users and wrapped once when negative. -/
def iIdx (a16 : IVec S16384 32) : IVec S16384x1 32 :=
  broadcastInDim S16384x1 ![0] bcast_S16384_S16384x1_0
    (select (cmpi .slt (addi a16 (broadcastInDim S16384 ![] bcast_S_S16384 (constantI S_ 32 50000#32))) (broadcastInDim S16384 ![] bcast_S_S16384 (constantI S_ 32 0#32)))
      (addi (addi a16 (broadcastInDim S16384 ![] bcast_S_S16384 (constantI S_ 32 50000#32))) (broadcastInDim S16384 ![] bcast_S_S16384 (constantI S_ 32 70000#32)))
      (addi a16 (broadcastInDim S16384 ![] bcast_S_S16384 (constantI S_ 32 50000#32))))

/-- The three-layer perceptron on the two gathered [16384, 128] arrays, before the final flattening. -/
def mlp (u i : FVec Ideal S16384x128 .f32) (a9 : FVec Ideal S256x64 .f32) (a10 : FVec Ideal S64 .f32) (a11 : FVec Ideal S64x32 .f32)
    (a12 : FVec Ideal S32 .f32) (a13 : FVec Ideal S32x1 .f32) (a14 : FVec Ideal S1 .f32) : FVec Ideal S16384x1 .f32 :=
  addf (Host.dotGeneral dot_S16384x32_S32x1_S16384x1_1_0_0_1_n_n none
      (maximumf (addf (Host.dotGeneral dot_S16384x64_S64x32_S16384x32_1_0_0_1_n_n none
          (maximumf (addf (Host.dotGeneral dot_S16384x256_S256x64_S16384x64_1_0_0_1_n_n none
              (concatenate S16384x256 1 [⟨S16384x128, u⟩, ⟨S16384x128, i⟩] concatenates_S16384x128_S16384x128_S16384x256_d1) a9)
            (broadcastInDim S16384x64 ![0, 1] bcast_S1x64_S16384x64_0_1 (broadcastInDim S1x64 ![1] bcast_S64_S1x64_1 a10)))
            (broadcastInDim S16384x64 ![] bcast_S_S16384x64 (constant S_ .f32 0x00000000#32))) a11)
        (broadcastInDim S16384x32 ![0, 1] bcast_S1x32_S16384x32_0_1 (broadcastInDim S1x32 ![1] bcast_S32_S1x32_1 a12)))
        (broadcastInDim S16384x32 ![] bcast_S_S16384x32 (constant S_ .f32 0x00000000#32))) a13)
    (broadcastInDim S16384x1 ![0, 1] bcast_S1x1_S16384x1_0_1 (broadcastInDim S1x1 ![1] bcast_S1_S1x1_1 a14))

/-- What the reference returns from the convolution layer's result. -/
def outOf (fin : FVec Ideal S70000x128 .f32) (a9 : FVec Ideal S256x64 .f32) (a10 : FVec Ideal S64 .f32) (a11 : FVec Ideal S64x32 .f32)
    (a12 : FVec Ideal S32 .f32) (a13 : FVec Ideal S32x1 .f32) (a14 : FVec Ideal S1 .f32) (a15 a16 : IVec S16384 32) : FVec Ideal S16384 .f32 :=
  shapeCast S16384
    (mlp (Host.gather gather_S70000x128_S16384x1_S16384x128_1_0_n_n_0_1_1128 fin (uIdx a15))
      (Host.gather gather_S70000x128_S16384x1_S16384x128_1_0_n_n_0_1_1128 fin (iIdx a16)) a9 a10 a11 a12 a13 a14)
    shapeCasts_S16384x1_S16384

/-- The reference's result over the argument arrays. -/
def out (a0 : FVec Ideal S50000x64 .f32) (a1 : FVec Ideal S20000x64 .f32) (a2 a3 : IVec S2000000 32) (a4 : FVec Ideal S2000000 .f32)
    (a5 : FVec Ideal S64x64 .f32) (a6 : FVec Ideal S64 .f32) (a7 : FVec Ideal S64x64 .f32) (a8 : FVec Ideal S64 .f32)
    (a9 : FVec Ideal S256x64 .f32) (a10 : FVec Ideal S64 .f32) (a11 : FVec Ideal S64x32 .f32) (a12 : FVec Ideal S32 .f32)
    (a13 : FVec Ideal S32x1 .f32) (a14 : FVec Ideal S1 .f32) (a15 a16 : IVec S16384 32) : FVec Ideal S16384 .f32 :=
  outOf (gcn (feat a0 a1) (spmm (feat a0 a1) a2 a3 a4) (spmm (mulf (feat a0 a1) (feat a0 a1)) a2 a3 a4) a5 a6 a7 a8)
    a9 a10 a11 a12 a13 a14 a15 a16

end Cert.ReferenceIdeal.Hand

end
-- ==== Proof.RefRun.lean ====
/-
  The reference program's run, read back: @main is a straight line of host operations (the three outlined
  functions — the leaky rectifier with its select, and the two rectifiers — inlined at their calls), so every
  weakly fair execution terminates with each buffer at the operations' fold over the launch contents; the result
  buffer's fold is `Hand.out` of the argument arrays, and no operation writes an argument.

  The ninety-four operations are listed in five consecutive stretches, cut where the mathematics is: a stretch's
  fold at the buffer it is there to compute is one of `RSpec`'s stage functions of the contents before it, and a
  buffer that no operation of a stretch writes keeps its contents across it. The result is then the composition.
-/
import proofs.«133197_j52785148068369_1_alg».proof.Proof.RSpec
import Idealize.ShloMosaic.Lib.StableHlo.Run

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

/-! ## The operations -/

section Ops

variable {F : FTy → Type} [FloatOps F]

/-- The features (the two embedding tables stacked) and the adjacency applied to them: each edge's source row wrapped
    once when negative, gathered, weighed by the edge's value, and accumulated at the edge's destination row. -/
abbrev opsA : List (HloOp τ sig (Elt F)) :=
  [ binary main_arg0 main_arg1 main_v0 (fun a b => concatenate S70000x64 0 [⟨S50000x64, a⟩, ⟨S20000x64, b⟩] concatenates_S50000x64_S20000x64_S70000x64_d0),
    unary main_arg4 main_v1 (broadcastInDim S2000000x1 ![0] bcast_S2000000_S2000000x1_0),
    nullary main_c (constantI S_ 32 0#32),
    unary main_c main_v2 (broadcastInDim S2000000 ![] bcast_S_S2000000),
    binary main_arg3 main_v2 main_v3 (cmpi .slt),
    nullary main_c_0 (constantI S_ 32 70000#32),
    unary main_c_0 main_v4 (broadcastInDim S2000000 ![] bcast_S_S2000000),
    binary main_arg3 main_v4 main_v5 addi,
    ternary main_v3 main_v5 main_arg3 main_v6 select,
    unary main_v6 main_v7 (broadcastInDim S2000000x1 ![0] bcast_S2000000_S2000000x1_0),
    binary main_v0 main_v7 main_v8 (fun x i => Host.gather gather_S70000x64_S2000000x1_S2000000x64_1_0_n_n_0_1_164 x i),
    unary main_v1 main_v9 (broadcastInDim S2000000x64 ![0, 1] bcast_S2000000x1_S2000000x64_0_1),
    binary main_v9 main_v8 main_v10 mulf,
    nullary main_cst (constant S_ .f32 0x00000000#32),
    unary main_cst main_v11 (broadcastInDim S70000x64 ![] bcast_S_S70000x64),
    unary main_arg2 main_v12 (broadcastInDim S2000000x1 ![0] bcast_S2000000_S2000000x1_0),
    ternary main_v11 main_v12 main_v10 main_v13 (fun x i u => Host.scatterAdd scatter_S70000x64_S2000000x1_S2000000x64_1_0_0_1 x i u) ]

/-- The features squared elementwise, and the adjacency applied to the squares. -/
abbrev opsB : List (HloOp τ sig (Elt F)) :=
  [ binary main_v0 main_v0 main_v14 mulf,
    unary main_arg4 main_v15 (broadcastInDim S2000000x1 ![0] bcast_S2000000_S2000000x1_0),
    nullary main_c_1 (constantI S_ 32 0#32),
    unary main_c_1 main_v16 (broadcastInDim S2000000 ![] bcast_S_S2000000),
    binary main_arg3 main_v16 main_v17 (cmpi .slt),
    nullary main_c_2 (constantI S_ 32 70000#32),
    unary main_c_2 main_v18 (broadcastInDim S2000000 ![] bcast_S_S2000000),
    binary main_arg3 main_v18 main_v19 addi,
    ternary main_v17 main_v19 main_arg3 main_v20 select,
    unary main_v20 main_v21 (broadcastInDim S2000000x1 ![0] bcast_S2000000_S2000000x1_0),
    binary main_v14 main_v21 main_v22 (fun x i => Host.gather gather_S70000x64_S2000000x1_S2000000x64_1_0_n_n_0_1_164 x i),
    unary main_v15 main_v23 (broadcastInDim S2000000x64 ![0, 1] bcast_S2000000x1_S2000000x64_0_1),
    binary main_v23 main_v22 main_v24 mulf,
    nullary main_cst_3 (constant S_ .f32 0x00000000#32),
    unary main_cst_3 main_v25 (broadcastInDim S70000x64 ![] bcast_S_S70000x64),
    unary main_arg2 main_v26 (broadcastInDim S2000000x1 ![0] bcast_S2000000_S2000000x1_0),
    ternary main_v25 main_v26 main_v24 main_v27 (fun x i u => Host.scatterAdd scatter_S70000x64_S2000000x1_S2000000x64_1_0_0_1 x i u) ]

/-- The graph-convolution layer: the two products with their biases added, the leaky rectifier (the outlined function's six
    operations and its select inlined), and the features set beside the rectified combination. -/
abbrev opsC : List (HloOp τ sig (Elt F)) :=
  [ binary main_v13 main_v0 main_v28 addf,
    binary main_v28 main_arg5 main_v29 (fun l r => Host.dotGeneral dot_S70000x64_S64x64_S70000x64_1_0_0_1_n_n none l r),
    unary main_arg6 main_v30 (broadcastInDim S1x64 ![1] bcast_S64_S1x64_1),
    unary main_v30 main_v31 (broadcastInDim S70000x64 ![0, 1] bcast_S1x64_S70000x64_0_1),
    binary main_v29 main_v31 main_v32 addf,
    binary main_v27 main_arg7 main_v33 (fun l r => Host.dotGeneral dot_S70000x64_S64x64_S70000x64_1_0_0_1_n_n none l r),
    unary main_arg8 main_v34 (broadcastInDim S1x64 ![1] bcast_S64_S1x64_1),
    unary main_v34 main_v35 (broadcastInDim S70000x64 ![0, 1] bcast_S1x64_S70000x64_0_1),
    binary main_v33 main_v35 main_v36 addf,
    binary main_v32 main_v36 main_v37 addf,
    nullary main_cst_4 (constant S_ .f32 0x3C23D70A#32),
    TRef.nullary main_call0.cst (constant S_ .f32 0x00000000#32),
    TRef.unary main_call0.cst main_call0.v0 (broadcastInDim S70000x64 ![] bcast_S_S70000x64),
    TRef.binary (.of main_v37) main_call0.v0 main_call0.v1 (cmpf .oge),
    TRef.unary (.of main_cst_4) main_call0.v2 id,
    TRef.unary main_call0.v2 main_call0.v3 (broadcastInDim S70000x64 ![] bcast_S_S70000x64),
    TRef.binary main_call0.v3 (.of main_v37) main_call0.v4 mulf,
    TRef.ternary main_call0.v1 (.of main_v37) main_call0.v4 main_call0.call0.v0 select,
    binary main_v0 main_v38 main_v39 (fun a b => concatenate S70000x128 1 [⟨S70000x64, a⟩, ⟨S70000x64, b⟩] concatenates_S70000x64_S70000x64_S70000x128_d1) ]

/-- The batch's user rows wrapped and gathered from the layer's result; the item rows shifted past the users. -/
abbrev opsD : List (HloOp τ sig (Elt F)) :=
  [ nullary main_c_5 (constantI S_ 32 0#32),
    unary main_c_5 main_v40 (broadcastInDim S16384 ![] bcast_S_S16384),
    binary main_arg15 main_v40 main_v41 (cmpi .slt),
    nullary main_c_6 (constantI S_ 32 70000#32),
    unary main_c_6 main_v42 (broadcastInDim S16384 ![] bcast_S_S16384),
    binary main_arg15 main_v42 main_v43 addi,
    ternary main_v41 main_v43 main_arg15 main_v44 select,
    unary main_v44 main_v45 (broadcastInDim S16384x1 ![0] bcast_S16384_S16384x1_0),
    binary main_v39 main_v45 main_v46 (fun x i => Host.gather gather_S70000x128_S16384x1_S16384x128_1_0_n_n_0_1_1128 x i),
    nullary main_c_7 (constantI S_ 32 50000#32),
    unary main_c_7 main_v47 (broadcastInDim S16384 ![] bcast_S_S16384),
    binary main_arg16 main_v47 main_v48 addi,
    nullary main_c_8 (constantI S_ 32 0#32) ]

/-- The item rows wrapped and gathered, the two gathered arrays set side by side, the three-layer perceptron (each rectifier's
    three operations inlined) and the flattening of its [16384, 1] result. -/
abbrev opsE : List (HloOp τ sig (Elt F)) :=
  [ unary main_c_8 main_v49 (broadcastInDim S16384 ![] bcast_S_S16384),
    binary main_v48 main_v49 main_v50 (cmpi .slt),
    nullary main_c_9 (constantI S_ 32 70000#32),
    unary main_c_9 main_v51 (broadcastInDim S16384 ![] bcast_S_S16384),
    binary main_v48 main_v51 main_v52 addi,
    ternary main_v50 main_v52 main_v48 main_v53 select,
    unary main_v53 main_v54 (broadcastInDim S16384x1 ![0] bcast_S16384_S16384x1_0),
    binary main_v39 main_v54 main_v55 (fun x i => Host.gather gather_S70000x128_S16384x1_S16384x128_1_0_n_n_0_1_1128 x i),
    binary main_v46 main_v55 main_v56 (fun a b => concatenate S16384x256 1 [⟨S16384x128, a⟩, ⟨S16384x128, b⟩] concatenates_S16384x128_S16384x128_S16384x256_d1),
    binary main_v56 main_arg9 main_v57 (fun l r => Host.dotGeneral dot_S16384x256_S256x64_S16384x64_1_0_0_1_n_n none l r),
    unary main_arg10 main_v58 (broadcastInDim S1x64 ![1] bcast_S64_S1x64_1),
    unary main_v58 main_v59 (broadcastInDim S16384x64 ![0, 1] bcast_S1x64_S16384x64_0_1),
    binary main_v57 main_v59 main_v60 addf,
    TRef.nullary main_call1.cst (constant S_ .f32 0x00000000#32),
    TRef.unary main_call1.cst main_call1.v0 (broadcastInDim S16384x64 ![] bcast_S_S16384x64),
    TRef.binary (.of main_v60) main_call1.v0 main_call1.v1 maximumf,
    binary main_v61 main_arg11 main_v62 (fun l r => Host.dotGeneral dot_S16384x64_S64x32_S16384x32_1_0_0_1_n_n none l r),
    unary main_arg12 main_v63 (broadcastInDim S1x32 ![1] bcast_S32_S1x32_1),
    unary main_v63 main_v64 (broadcastInDim S16384x32 ![0, 1] bcast_S1x32_S16384x32_0_1),
    binary main_v62 main_v64 main_v65 addf,
    TRef.nullary main_call2.cst (constant S_ .f32 0x00000000#32),
    TRef.unary main_call2.cst main_call2.v0 (broadcastInDim S16384x32 ![] bcast_S_S16384x32),
    TRef.binary (.of main_v65) main_call2.v0 main_call2.v1 maximumf,
    binary main_v66 main_arg13 main_v67 (fun l r => Host.dotGeneral dot_S16384x32_S32x1_S16384x1_1_0_0_1_n_n none l r),
    unary main_arg14 main_v68 (broadcastInDim S1x1 ![1] bcast_S1_S1x1_1),
    unary main_v68 main_v69 (broadcastInDim S16384x1 ![0, 1] bcast_S1x1_S16384x1_0_1),
    binary main_v67 main_v69 main_v70 addf,
    reshape main_v70 main_v71 rfl shapeCasts_S16384x1_S16384 ]

/-- @main's first window: statements 1 … 60. -/
abbrev ops0 : List (HloOp τ sig (Elt F)) := opsA ++ opsB ++ opsC ++ opsD

/-- @main's operations, in order. -/
abbrev ops : List (HloOp τ sig (Elt F)) := ops0 ++ opsE

/-! ## @main is that straight line -/

set_option maxHeartbeats 2000000 in
set_option maxRecDepth 4096 in
/-- The first window is its sixty-six operations: the leaky rectifier's definition and its select's unfolded at the
    call, sequencing reassociated; the window ends on an operation, the line on a return, so the return is added first. -/
theorem part0_eq (c : Dev nD) : main_part0 (F := F) c = seq ops0 := by
  rw [← bind_pure (main_part0 (F := F) c)]
  simp only [main_part0, fn_leaky_relu.body, fn_where.body, opsA, opsB, opsC, opsD, List.cons_append, List.nil_append, seq,
    bind_assoc, pure_bind]
  rfl

set_option maxHeartbeats 2000000 in
set_option maxRecDepth 4096 in
/-- The second window is its twenty-eight operations, the two rectifiers unfolded at their calls. -/
theorem part1_eq (c : Dev nD) : main_part1 (F := F) c = seq opsE := by
  simp only [main_part1, fn_relu.body, fn_relu_0.body, seq, bind_assoc, pure_bind]
  rfl

/-- @main runs its two windows in order: the two lines run as one. -/
theorem main_eq (c : Dev nD) : main (F := F) c = seq ops := by
  show main (F := F) c = seq (ops0 ++ opsE)
  rw [seq_append, ← part0_eq c, ← part1_eq c]
  rfl

/-! ## What `run_seq` asks of the operations -/

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem opsA_sub : (opsA : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub ..⟩
theorem opsB_sub : (opsB : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub ..⟩
theorem opsC_sub : (opsC : List (HloOp τ sig (Elt F))).Forall fun op => op.bufs ⊆ tcRefs τ sig :=
  ⟨binary_bufs_sub .., binary_bufs_sub .., unary_bufs_sub .., unary_bufs_sub .., binary_bufs_sub .., binary_bufs_sub ..,
    unary_bufs_sub .., unary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub ..⟩
theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub ..⟩
theorem opsE_sub : (opsE : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., reshape_bufs_sub ..⟩

/-- Every operation touches TensorCore references only. -/
theorem ops_sub : (ops : List (HloOp τ sig (Elt F))).Forall fun op => op.bufs ⊆ tcRefs τ sig :=
  forall_append (forall_append (forall_append (forall_append opsA_sub opsB_sub) opsC_sub) opsD_sub) opsE_sub

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem opsD_fresh : (opsD : List (HloOp τ sig (Elt F))).Forall fun op => op.fresh = ∅ :=
  ⟨rfl, rfl, rfl, rfl, rfl, rfl, rfl, rfl, rfl, rfl, rfl, rfl, rfl⟩
theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl⟩

/-- Every operation determines what it writes. -/
theorem ops_fresh : (ops : List (HloOp τ sig (Elt F))).Forall fun op => op.fresh = ∅ :=
  forall_append (forall_append (forall_append (forall_append opsA_fresh opsB_fresh) opsC_fresh) opsD_fresh) opsE_fresh

/-- From any memory with zero counters every weakly fair execution of @main terminates, each TensorCore buffer at
    the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-! ## What a stretch leaves alone

Each operation writes one buffer; a reference that is none of a stretch's written ones holds after the stretch what it
held before. -/

/-- Running one line after another folds the second over the first's result. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A single written buffer lies in a list of references that names it. -/
theorem writes_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The references stretch A writes, in order. -/
abbrev WA : List (Ref sig .tc) :=
  [main_v0, main_v1, main_c, main_v2, main_v3, main_c_0, main_v4, main_v5, main_v6, main_v7,
   main_v8, main_v9, main_v10, main_cst, main_v11, main_v12, main_v13]
/-- Each operation of stretch A writes one of those. -/
theorem opsA_writes : (opsA : List (HloOp τ sig (Elt F))).Forall fun op => op.writes ⊆ (WA.map (Proc.devRef (τ := τ) .tc)).toFinset :=
  ⟨writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide)⟩
/-- A reference stretch A does not write keeps its contents across it. -/
theorem frameA (V : Valuation τ sig (Elt F)) {r : Ref sig .tc} (h : r ∉ WA) :
    after opsA V (no_index (Proc.devRef .tc r)) = V (Proc.devRef .tc r) :=
  after_of_writes_sub opsA V opsA_writes h

/-- The references stretch B writes, in order. -/
abbrev WB : List (Ref sig .tc) :=
  [main_v14, main_v15, main_c_1, main_v16, main_v17, main_c_2, main_v18, main_v19, main_v20, main_v21,
   main_v22, main_v23, main_v24, main_cst_3, main_v25, main_v26, main_v27]
/-- Each operation of stretch B writes one of those. -/
theorem opsB_writes : (opsB : List (HloOp τ sig (Elt F))).Forall fun op => op.writes ⊆ (WB.map (Proc.devRef (τ := τ) .tc)).toFinset :=
  ⟨writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide)⟩
/-- A reference stretch B does not write keeps its contents across it. -/
theorem frameB (V : Valuation τ sig (Elt F)) {r : Ref sig .tc} (h : r ∉ WB) :
    after opsB V (no_index (Proc.devRef .tc r)) = V (Proc.devRef .tc r) :=
  after_of_writes_sub opsB V opsB_writes h

/-- The references stretch C writes, in order. -/
abbrev WC : List (Ref sig .tc) :=
  [main_v28, main_v29, main_v30, main_v31, main_v32, main_v33, main_v34, main_v35, main_v36, main_v37,
   main_cst_4, main_call0_cst, main_call0_v0, main_call0_v1, main_call0_v2, main_call0_v3, main_call0_v4, main_v38, main_v39]
/-- Each operation of stretch C writes one of those. -/
theorem opsC_writes : (opsC : List (HloOp τ sig (Elt F))).Forall fun op => op.writes ⊆ (WC.map (Proc.devRef (τ := τ) .tc)).toFinset :=
  ⟨writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide)⟩
/-- A reference stretch C does not write keeps its contents across it. -/
theorem frameC (V : Valuation τ sig (Elt F)) {r : Ref sig .tc} (h : r ∉ WC) :
    after opsC V (no_index (Proc.devRef .tc r)) = V (Proc.devRef .tc r) :=
  after_of_writes_sub opsC V opsC_writes h

/-- The references stretch D writes, in order. -/
abbrev WD : List (Ref sig .tc) :=
  [main_c_5, main_v40, main_v41, main_c_6, main_v42, main_v43, main_v44, main_v45, main_v46, main_c_7,
   main_v47, main_v48, main_c_8]
/-- Each operation of stretch D writes one of those. -/
theorem opsD_writes : (opsD : List (HloOp τ sig (Elt F))).Forall fun op => op.writes ⊆ (WD.map (Proc.devRef (τ := τ) .tc)).toFinset :=
  ⟨writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide)⟩
/-- A reference stretch D does not write keeps its contents across it. -/
theorem frameD (V : Valuation τ sig (Elt F)) {r : Ref sig .tc} (h : r ∉ WD) :
    after opsD V (no_index (Proc.devRef .tc r)) = V (Proc.devRef .tc r) :=
  after_of_writes_sub opsD V opsD_writes h

/-- The references stretch E writes, in order. -/
abbrev WE : List (Ref sig .tc) :=
  [main_v49, main_v50, main_c_9, main_v51, main_v52, main_v53, main_v54, main_v55, main_v56, main_v57,
   main_v58, main_v59, main_v60, main_call1_cst, main_call1_v0, main_v61, main_v62, main_v63, main_v64, main_v65,
   main_call2_cst, main_call2_v0, main_v66, main_v67, main_v68, main_v69, main_v70, main_v71]
/-- Each operation of stretch E writes one of those. -/
theorem opsE_writes : (opsE : List (HloOp τ sig (Elt F))).Forall fun op => op.writes ⊆ (WE.map (Proc.devRef (τ := τ) .tc)).toFinset :=
  ⟨writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide)⟩
/-- A reference stretch E does not write keeps its contents across it. -/
theorem frameE (V : Valuation τ sig (Elt F)) {r : Ref sig .tc} (h : r ∉ WE) :
    after opsE V (no_index (Proc.devRef .tc r)) = V (Proc.devRef .tc r) :=
  after_of_writes_sub opsE V opsE_writes h

/-- The references @main writes: every buffer but the seventeen arguments'. -/
abbrev Wall : List (Ref sig .tc) := WA ++ (WB ++ (WC ++ (WD ++ WE)))

/-- A reference @main does not write holds at the end what it held at launch. -/
theorem frame_all (V : Valuation τ sig (Elt F)) {r : Ref sig .tc} (h : r ∉ Wall) :
    after ops V (Proc.devRef .tc r) = V (Proc.devRef .tc r) := by
  have hA : r ∉ WA := fun hm => h (List.mem_append.mpr (Or.inl hm))
  have hB : r ∉ WB := fun hm => h (List.mem_append.mpr (Or.inr (List.mem_append.mpr (Or.inl hm))))
  have hC : r ∉ WC := fun hm => h (List.mem_append.mpr (Or.inr (List.mem_append.mpr (Or.inr (List.mem_append.mpr (Or.inl hm))))))
  have hD : r ∉ WD := fun hm => h (List.mem_append.mpr (Or.inr (List.mem_append.mpr (Or.inr (List.mem_append.mpr (Or.inr
    (List.mem_append.mpr (Or.inl hm))))))))
  have hE : r ∉ WE := fun hm => h (List.mem_append.mpr (Or.inr (List.mem_append.mpr (Or.inr (List.mem_append.mpr (Or.inr
    (List.mem_append.mpr (Or.inr hm))))))))
  show after (opsA ++ opsB ++ opsC ++ opsD ++ opsE) V (Proc.devRef .tc r) = V (Proc.devRef .tc r)
  rw [after_append, after_append, after_append, after_append]
  exact (frameE _ hE).trans ((frameD _ hD).trans ((frameC _ hC).trans ((frameB _ hB).trans (frameA _ hA))))

end Ops

/-! ## What each stretch computes

At the extended reals. A stretch's fold at one buffer is a chain of `HloOp.result`s: unrolled, each decides whether the
buffer read is the one it writes, and what is left is the stage function's own body. The array operations are kept
folded meanwhile: the equation never looks inside one. -/

section Stages

variable (V : Valuation τ sig (Elt Ideal))

attribute [local irreducible] Host.gather Host.scatterAdd concatenate broadcastInDim shapeCast select cmpf cmpi addi addf mulf maximumf constant constantI in
set_option maxRecDepth 16384 in
set_option maxHeartbeats 4000000 in
/-- After the first stretch the features' buffer holds the stacked tables. -/
theorem A_v0 : after opsA V (main_v0 : DevRef τ sig) = feat (V (main_arg0 : DevRef τ sig)) (V (main_arg1 : DevRef τ sig)) := by
  simp only [after_cons, after_nil]
  rfl

attribute [local irreducible] Host.gather Host.scatterAdd concatenate broadcastInDim shapeCast select cmpf cmpi addi addf mulf maximumf constant constantI in
set_option maxRecDepth 16384 in
set_option maxHeartbeats 4000000 in
/-- After the first stretch the first scatter's buffer holds the adjacency applied to the features. -/
theorem A_v13 :
    after opsA V (main_v13 : DevRef τ sig)
      = spmm (feat (V (main_arg0 : DevRef τ sig)) (V (main_arg1 : DevRef τ sig))) (V (main_arg2 : DevRef τ sig)) (V (main_arg3 : DevRef τ sig)) (V (main_arg4 : DevRef τ sig)) := by
  simp only [after_cons, after_nil]
  rfl

attribute [local irreducible] Host.gather Host.scatterAdd concatenate broadcastInDim shapeCast select cmpf cmpi addi addf mulf maximumf constant constantI in
set_option maxRecDepth 16384 in
set_option maxHeartbeats 4000000 in
/-- After the second stretch the second scatter's buffer holds the adjacency applied to the squared features. -/
theorem B_v27 :
    after opsB V (main_v27 : DevRef τ sig)
      = spmm (mulf (V (main_v0 : DevRef τ sig)) (V (main_v0 : DevRef τ sig))) (V (main_arg2 : DevRef τ sig)) (V (main_arg3 : DevRef τ sig)) (V (main_arg4 : DevRef τ sig)) := by
  simp only [after_cons, after_nil]
  rfl

attribute [local irreducible] Host.gather Host.scatterAdd concatenate broadcastInDim shapeCast select cmpf cmpi addi addf mulf maximumf constant constantI in
set_option maxRecDepth 16384 in
set_option maxHeartbeats 4000000 in
/-- After the third stretch the concatenation's buffer holds the graph-convolution layer of the three arrays. -/
theorem C_v39 :
    after opsC V (main_v39 : DevRef τ sig)
      = gcn (V (main_v0 : DevRef τ sig)) (V (main_v13 : DevRef τ sig)) (V (main_v27 : DevRef τ sig)) (V (main_arg5 : DevRef τ sig)) (V (main_arg6 : DevRef τ sig)) (V (main_arg7 : DevRef τ sig)) (V (main_arg8 : DevRef τ sig)) := by
  simp only [after_cons, after_nil]
  rfl

attribute [local irreducible] Host.gather Host.scatterAdd concatenate broadcastInDim shapeCast select cmpf cmpi addi addf mulf maximumf constant constantI in
set_option maxRecDepth 16384 in
set_option maxHeartbeats 4000000 in
/-- After the fourth stretch the first gather's buffer holds the layer's rows at the batch's users. -/
theorem D_v46 :
    after opsD V (main_v46 : DevRef τ sig)
      = Host.gather gather_S70000x128_S16384x1_S16384x128_1_0_n_n_0_1_1128 (V (main_v39 : DevRef τ sig)) (uIdx (V (main_arg15 : DevRef τ sig))) := by
  simp only [after_cons, after_nil]
  rfl

attribute [local irreducible] Host.gather Host.scatterAdd concatenate broadcastInDim shapeCast select cmpf cmpi addi addf mulf maximumf constant constantI in
set_option maxRecDepth 16384 in
set_option maxHeartbeats 4000000 in
/-- After the fourth stretch the item rows are shifted past the 50000 users. -/
theorem D_v48 :
    after opsD V (main_v48 : DevRef τ sig)
      = addi (V (main_arg16 : DevRef τ sig)) (broadcastInDim S16384 ![] bcast_S_S16384 (constantI S_ 32 50000#32)) := by
  simp only [after_cons, after_nil]
  rfl

attribute [local irreducible] Host.gather Host.scatterAdd concatenate broadcastInDim shapeCast select cmpf cmpi addi addf mulf maximumf constant constantI in
set_option maxRecDepth 16384 in
set_option maxHeartbeats 4000000 in
/-- The fourth stretch ends on the zero the wrapped item rows are compared with. -/
theorem D_c8 : after opsD V (main_c_8 : DevRef τ sig) = constantI S_ 32 0#32 := by
  simp only [after_cons, after_nil]
  rfl

attribute [local irreducible] Host.gather Host.scatterAdd concatenate broadcastInDim shapeCast select cmpf cmpi addi addf mulf maximumf constant constantI in
set_option maxRecDepth 16384 in
set_option maxHeartbeats 4000000 in
/-- After the last stretch the result buffer holds the flattened perceptron of the users' rows and of the layer's rows
    at the wrapped item rows. -/
theorem E_v71 :
    after opsE V (main_v71 : DevRef τ sig)
      = shapeCast S16384
          (mlp (V (main_v46 : DevRef τ sig))
            (Host.gather gather_S70000x128_S16384x1_S16384x128_1_0_n_n_0_1_1128 (V (main_v39 : DevRef τ sig))
              (broadcastInDim S16384x1 ![0] bcast_S16384_S16384x1_0
                (select (cmpi .slt (V (main_v48 : DevRef τ sig)) (broadcastInDim S16384 ![] bcast_S_S16384 (V (main_c_8 : DevRef τ sig))))
                  (addi (V (main_v48 : DevRef τ sig)) (broadcastInDim S16384 ![] bcast_S_S16384 (constantI S_ 32 70000#32))) (V (main_v48 : DevRef τ sig)))))
            (V (main_arg9 : DevRef τ sig)) (V (main_arg10 : DevRef τ sig)) (V (main_arg11 : DevRef τ sig)) (V (main_arg12 : DevRef τ sig)) (V (main_arg13 : DevRef τ sig)) (V (main_arg14 : DevRef τ sig)))
          shapeCasts_S16384x1_S16384 := by
  simp only [after_cons, after_nil]
  rfl

/-! ## The result -/

/-- The whole fold at the result buffer is `out` of the argument arrays: the stretches' results composed, every
    buffer read between two stretches carried across the ones that do not write it. -/
theorem out_eq :
    after ops V (main_v71 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  show after (opsA ++ opsB ++ opsC ++ opsD ++ opsE) V (main_v71 : DevRef τ sig) = _
  rw [after_append, after_append, after_append, after_append, E_v71, D_v46, D_v48, D_c8]
  simp (disch := decide) only [frameD]
  rw [C_v39]
  simp (disch := decide) only [frameC, frameB]
  rw [B_v27, A_v0, A_v13]
  simp (disch := decide) only [frameA]
  rfl

end Stages

/-- From any memory with zero counters every weakly fair execution of the reference terminates, its result
    buffer at `out` of the argument arrays and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v71) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v71).trans (out_eq _),
      (h c main_arg0).trans (frame_all _ (by decide)),
      (h c main_arg1).trans (frame_all _ (by decide)),
      (h c main_arg2).trans (frame_all _ (by decide)),
      (h c main_arg3).trans (frame_all _ (by decide)),
      (h c main_arg4).trans (frame_all _ (by decide)),
      (h c main_arg5).trans (frame_all _ (by decide)),
      (h c main_arg6).trans (frame_all _ (by decide)),
      (h c main_arg7).trans (frame_all _ (by decide)),
      (h c main_arg8).trans (frame_all _ (by decide)),
      (h c main_arg9).trans (frame_all _ (by decide)),
      (h c main_arg10).trans (frame_all _ (by decide)),
      (h c main_arg11).trans (frame_all _ (by decide)),
      (h c main_arg12).trans (frame_all _ (by decide)),
      (h c main_arg13).trans (frame_all _ (by decide)),
      (h c main_arg14).trans (frame_all _ (by decide)),
      (h c main_arg15).trans (frame_all _ (by decide)),
      (h c main_arg16).trans (frame_all _ (by decide))⟩)
    (run_main m ρ)

end Cert.ReferenceIdeal.Hand

end
-- ==== Proof.BridgeSpmm.lean ====
/-
  One scatter-accumulation of the two message arrays laid side by side, cut back into its halves, is the two
  separate accumulations: an update (e, c) lands on (row e, c) whatever the width, so column c of the wide
  accumulation only ever receives column c of the half it lies in. And gathering rows commutes with squaring.
-/
import proofs.«133197_j52785148068369_1_alg».proof.Proof.KSpec
import proofs.«133197_j52785148068369_1_alg».proof.Proof.RSpec
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx

/-! ## Scattering rows, for any sizes

The dimension numbers both programs use: an update array [E, C] whose row e goes, whole, to the operand row that the
index word idx[e, 0] names (read signed; a word outside [0, N) drops the row). The sizes N, C, E are arbitrary. -/

/-- The row-scatter dimension numbers: window axis 1 of the updates, operand axis 0 inserted and named by the one
    component of the index vector, which lies on axis 1 of the indices. -/
abbrev rowScatter (N C E : Nat)
    (h : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := h

section RowScatter

variable {N C E w : Nat} (h : ScatterDims.WF ⟨2, ![N, C]⟩ ⟨2, ![E, 1]⟩ ⟨2, ![E, C]⟩ [1] [0] [0] 1)

/-- Update (e, c) reads its start index at (e, 0) of the indices. -/
theorem rowScatter_siIdx (e : Fin E) (c : Fin C) (k : Fin (rowScatter N C E h).scatterDimsToOperandDims.length) :
    (rowScatter N C E h).siIdx (ix2 e c) k = ix2 e 0 := by
  funext b; refine Fin.ext ?_
  match b with
  | ⟨0, _⟩ => rfl
  | ⟨1, _⟩ =>
    have : k.val < 1 := k.isLt
    show k.val = 0
    omega

/-- On the row axis the window starts at the index word, read signed. -/
theorem rowScatter_start0 (idx : IVec ⟨2, ![E, 1]⟩ w) (e : Fin E) (c : Fin C) :
    (rowScatter N C E h).start (ix2 e c) idx 0 = (idx (ix2 e 0)).toInt := by
  unfold ScatterDims.start
  rw [dif_pos (show (0 : Fin 2) ∈ (rowScatter N C E h).scatterDimsToOperandDims from List.mem_singleton.mpr rfl)]
  rw [rowScatter_siIdx]

/-- On the column axis the window starts at 0: the index vector does not name it. -/
theorem rowScatter_start1 (idx : IVec ⟨2, ![E, 1]⟩ w) (j : (⟨2, ![E, C]⟩ : Shape).Idx) :
    (rowScatter N C E h).start j idx 1 = 0 := by
  unfold ScatterDims.start
  rw [dif_neg (show (1 : Fin 2) ∉ [(0 : Fin 2)] by decide)]

/-- The row axis is inserted: its window coordinate is 0. -/
theorem rowScatter_window0 (j : (⟨2, ![E, C]⟩ : Shape).Idx) :
    (rowScatter N C E h).window j 0 = 0 := by
  have hk : (0 : Fin 2) ∉ (rowScatter N C E h).sKept := by
    show (0 : Fin 2) ∉ (List.finRange 2).filter (· ∉ [(0 : Fin 2)])
    decide
  unfold ScatterDims.window
  rw [dif_neg hk]

/-- The column axis carries the update's column. -/
theorem rowScatter_window1 (e : Fin E) (c : Fin C) :
    (rowScatter N C E h).window (ix2 e c) 1 = c.val := by
  have hk : (1 : Fin 2) ∈ (rowScatter N C E h).sKept := by
    show (1 : Fin 2) ∈ (List.finRange 2).filter (· ∉ [(0 : Fin 2)])
    decide
  unfold ScatterDims.window
  rw [dif_pos hk]
  rfl

/-- Start plus window on the row axis: the index word. -/
theorem rowScatter_land0 (idx : IVec ⟨2, ![E, 1]⟩ w) (e : Fin E) (c : Fin C) :
    (rowScatter N C E h).start (ix2 e c) idx 0 + ((rowScatter N C E h).window (ix2 e c) 0 : ℕ)
      = (idx (ix2 e 0)).toInt := by
  rw [rowScatter_start0, rowScatter_window0]; simp

/-- Start plus window on the column axis: the update's column. -/
theorem rowScatter_land1 (idx : IVec ⟨2, ![E, 1]⟩ w) (e : Fin E) (c : Fin C) :
    (rowScatter N C E h).start (ix2 e c) idx 1 + ((rowScatter N C E h).window (ix2 e c) 1 : ℕ) = (c.val : ℤ) := by
  rw [rowScatter_start1, rowScatter_window1]; simp

/-- Update (e, c) lands on (r, c') exactly when edge e's index word reads r and the columns agree. -/
theorem rowScatter_resultIdx_iff (idx : IVec ⟨2, ![E, 1]⟩ w) (e : Fin E) (c : Fin C) (r : Fin N) (c' : Fin C) :
    (rowScatter N C E h).resultIdx? (ix2 e c) idx = some (ix2 r c')
      ↔ (idx (ix2 e 0)).toInt = (r.val : ℤ) ∧ c = c' := by
  have h0 := rowScatter_land0 h idx e c
  have h1 := rowScatter_land1 h idx e c
  unfold ScatterDims.resultIdx?
  by_cases hb : ∀ a, 0 ≤ (rowScatter N C E h).start (ix2 e c) idx a + ((rowScatter N C E h).window (ix2 e c) a : ℕ)
      ∧ (rowScatter N C E h).start (ix2 e c) idx a + ((rowScatter N C E h).window (ix2 e c) a : ℕ)
        < ((⟨2, ![N, C]⟩ : Shape).size a : ℕ)
  · rw [dif_pos hb]
    have b0 := hb 0
    rw [h0] at b0
    constructor
    · intro hs
      have hf := Option.some.inj hs
      have e0 : ((rowScatter N C E h).start (ix2 e c) idx 0
          + ((rowScatter N C E h).window (ix2 e c) 0 : ℕ)).toNat = r.val := congrArg (fun f => (f 0).val) hf
      have e1 : ((rowScatter N C E h).start (ix2 e c) idx 1
          + ((rowScatter N C E h).window (ix2 e c) 1 : ℕ)).toNat = c'.val := congrArg (fun f => (f 1).val) hf
      rw [h0] at e0
      rw [h1] at e1
      refine ⟨?_, Fin.ext ?_⟩
      · have := b0.1; omega
      · simpa using e1
    · rintro ⟨hT, rfl⟩
      congr 1
      funext a
      refine Fin.ext ?_
      match a with
      | ⟨0, _⟩ =>
        show ((rowScatter N C E h).start (ix2 e c) idx 0
          + ((rowScatter N C E h).window (ix2 e c) 0 : ℕ)).toNat = r.val
        rw [h0, hT]; simp
      | ⟨1, _⟩ =>
        show ((rowScatter N C E h).start (ix2 e c) idx 1
          + ((rowScatter N C E h).window (ix2 e c) 1 : ℕ)).toNat = c.val
        rw [h1]; simp
  · rw [dif_neg hb]
    constructor
    · intro hs; cases hs
    · rintro ⟨hT, rfl⟩
      exfalso
      apply hb
      have k0 : 0 ≤ (rowScatter N C E h).start (ix2 e c) idx 0 + ((rowScatter N C E h).window (ix2 e c) 0 : ℕ)
          ∧ (rowScatter N C E h).start (ix2 e c) idx 0 + ((rowScatter N C E h).window (ix2 e c) 0 : ℕ) < (N : ℤ) := by
        rw [h0, hT]; have := r.isLt; omega
      have k1 : 0 ≤ (rowScatter N C E h).start (ix2 e c) idx 1 + ((rowScatter N C E h).window (ix2 e c) 1 : ℕ)
          ∧ (rowScatter N C E h).start (ix2 e c) idx 1 + ((rowScatter N C E h).window (ix2 e c) 1 : ℕ) < (C : ℤ) := by
        rw [h1]; have := c.isLt; omega
      intro a
      match a with
      | ⟨0, _⟩ => exact k0
      | ⟨1, _⟩ => exact k1

/-- The accumulation read at (r, c): the initial value plus, over the edges whose index word reads r, column c of
    the edge's update row. -/
theorem rowScatterAdd_apply (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatter N C E h) x idx upd (ix2 r c)
      = x (ix2 r c) + ∑ e : Fin E, if (idx (ix2 e 0)).toInt = (r.val : ℤ) then upd (ix2 e c) else 0 := by
  unfold Ideal.hostScatterAdd
  congr 1
  rw [Finset.sum_filter, sum_idx2]
  refine Finset.sum_congr rfl (fun e _ => ?_)
  simp only [rowScatter_resultIdx_iff]
  by_cases hT : (idx (ix2 e 0)).toInt = (r.val : ℤ)
  · simp [hT]
  · simp [hT]

end RowScatter

/-! ## Two update arrays side by side

Accumulating the rows of [m₁ | m₂] (width W = C + C) and cutting the result at column C is accumulating m₁ and m₂
apart, the initial values being one constant. -/

section Wide

variable {N C W E w : Nat}

/-- Columns 0..C-1 of the wide accumulation are the accumulation of the left update array. -/
theorem wide_left (hW : W = C + C)
    (hK : ScatterDims.WF ⟨2, ![N, W]⟩ ⟨2, ![E, 1]⟩ ⟨2, ![E, W]⟩ [1] [0] [0] 1)
    (hR : ScatterDims.WF ⟨2, ![N, C]⟩ ⟨2, ![E, 1]⟩ ⟨2, ![E, C]⟩ [1] [0] [0] 1)
    (v : EReal) (zW : (⟨2, ![N, W]⟩ : Shape).Idx → EReal) (zC : (⟨2, ![N, C]⟩ : Shape).Idx → EReal)
    (hzW : ∀ i, zW i = v) (hzC : ∀ i, zC i = v)
    (ri : IVec ⟨2, ![E, 1]⟩ w) (m₁ m₂ : (⟨2, ![E, C]⟩ : Shape).Idx → EReal)
    (hc : Shape.Concatenates [⟨2, ![E, C]⟩, ⟨2, ![E, C]⟩] ⟨2, ![E, W]⟩ 1)
    (hs : (⟨2, ![N, W]⟩ : Shape).Slices ![0, 0] ⟨2, ![N, C]⟩) :
    extractStridedSlice ⟨2, ![N, C]⟩ ![0, 0]
        (Ideal.hostScatterAdd (rowScatter N W E hK) zW ri
          (concatenate ⟨2, ![E, W]⟩ 1 [⟨⟨2, ![E, C]⟩, m₁⟩, ⟨⟨2, ![E, C]⟩, m₂⟩] hc)) hs
      = Ideal.hostScatterAdd (rowScatter N C E hR) zC ri m₁ := by
  funext j
  obtain ⟨r, c, rfl⟩ : ∃ (r : Fin N) (c : Fin C), j = ix2 r c := ⟨j 0, j 1, eq_ix2 j⟩
  have hk : c.val < W := by have := c.isLt; omega
  rw [slice2_axis1_apply 0 _ hs r c ⟨c.val, hk⟩ (Nat.zero_add _).symm]
  rw [rowScatterAdd_apply, rowScatterAdd_apply, hzW, hzC]
  congr 1
  refine Finset.sum_congr rfl (fun e _ => ?_)
  rw [concatenate_pair_apply_left 1 m₁ m₂ hc (ix2 e ⟨c.val, hk⟩) rfl (ix2 e c)
    (fun b => by match b with | ⟨0, _⟩ => rfl | ⟨1, _⟩ => rfl)]

/-- Columns C..2C-1 of the wide accumulation are the accumulation of the right update array. -/
theorem wide_right (hW : W = C + C)
    (hK : ScatterDims.WF ⟨2, ![N, W]⟩ ⟨2, ![E, 1]⟩ ⟨2, ![E, W]⟩ [1] [0] [0] 1)
    (hR : ScatterDims.WF ⟨2, ![N, C]⟩ ⟨2, ![E, 1]⟩ ⟨2, ![E, C]⟩ [1] [0] [0] 1)
    (v : EReal) (zW : (⟨2, ![N, W]⟩ : Shape).Idx → EReal) (zC : (⟨2, ![N, C]⟩ : Shape).Idx → EReal)
    (hzW : ∀ i, zW i = v) (hzC : ∀ i, zC i = v)
    (ri : IVec ⟨2, ![E, 1]⟩ w) (m₁ m₂ : (⟨2, ![E, C]⟩ : Shape).Idx → EReal)
    (hc : Shape.Concatenates [⟨2, ![E, C]⟩, ⟨2, ![E, C]⟩] ⟨2, ![E, W]⟩ 1)
    (hs : (⟨2, ![N, W]⟩ : Shape).Slices ![0, C] ⟨2, ![N, C]⟩) :
    extractStridedSlice ⟨2, ![N, C]⟩ ![0, C]
        (Ideal.hostScatterAdd (rowScatter N W E hK) zW ri
          (concatenate ⟨2, ![E, W]⟩ 1 [⟨⟨2, ![E, C]⟩, m₁⟩, ⟨⟨2, ![E, C]⟩, m₂⟩] hc)) hs
      = Ideal.hostScatterAdd (rowScatter N C E hR) zC ri m₂ := by
  funext j
  obtain ⟨r, c, rfl⟩ : ∃ (r : Fin N) (c : Fin C), j = ix2 r c := ⟨j 0, j 1, eq_ix2 j⟩
  have hk : C + c.val < W := by have := c.isLt; omega
  rw [slice2_axis1_apply C _ hs r c ⟨C + c.val, hk⟩ rfl]
  rw [rowScatterAdd_apply, rowScatterAdd_apply, hzW, hzC]
  congr 1
  refine Finset.sum_congr rfl (fun e _ => ?_)
  rw [concatenate_pair_apply_right 1 m₁ m₂ hc (ix2 e ⟨C + c.val, hk⟩) rfl rfl (ix2 e c)
    (fun b hb => by
      match b with
      | ⟨0, _⟩ => rfl
      | ⟨1, _⟩ => exact absurd rfl hb)
    (by show c.val + C = C + c.val; omega)]

end Wide

/-! ## The two programs

Both programs' index, weight and feature arrays are the same functions of the argument arrays, and their dimension
numbers are the row scatter's. -/

section Program

/-- Gathering rows commutes with the pointwise square: the operand index is computed from the indices alone. -/
theorem gather_mulf {s si t : Shape} {w : Nat} (d : GatherDims s si t) (x : FVec Ideal s .f32) (idx : IVec si w) :
    Host.gather d (mulf x x) idx = mulf (Host.gather d x idx) (Host.gather d x idx) := rfl

/-- The features are the same array in both programs. -/
theorem feat_eq (a0 : FVec Ideal Cert.KernelIdeal.S50000x64 .f32) (a1 : FVec Ideal Cert.KernelIdeal.S20000x64 .f32) :
    Cert.ReferenceIdeal.Hand.feat a0 a1 = Cert.KernelIdeal.Hand.feat a0 a1 := rfl

/-- The source-row indices are the same array in both programs. -/
theorem colIdx_eq (a3 : IVec Cert.KernelIdeal.S2000000 32) :
    Cert.ReferenceIdeal.Hand.colIdx a3 = Cert.KernelIdeal.Hand.colIdx a3 := rfl

/-- The destination-row indices are the same array in both programs. -/
theorem rowIdx_eq (a2 : IVec Cert.KernelIdeal.S2000000 32) :
    Cert.ReferenceIdeal.Hand.rowIdx a2 = Cert.KernelIdeal.Hand.rowIdx a2 := rfl

/-- The edge weights along the features are the same array in both programs. -/
theorem valB_eq (a4 : FVec Ideal Cert.KernelIdeal.S2000000 .f32) :
    Cert.ReferenceIdeal.Hand.valB a4 = Cert.KernelIdeal.Hand.valB a4 := rfl

/-- The reference gathers with the kernel program's dimension numbers. -/
theorem gatherDims_eq :
    Cert.ReferenceIdeal.gather_S70000x64_S2000000x1_S2000000x64_1_0_n_n_0_1_164
      = Cert.KernelIdeal.gather_S70000x64_S2000000x1_S2000000x64_1_0_n_n_0_1_164 := rfl

/-- The reference's gathered source rows are the kernel program's. -/
theorem xcol_eq (a0 : FVec Ideal Cert.KernelIdeal.S50000x64 .f32) (a1 : FVec Ideal Cert.KernelIdeal.S20000x64 .f32)
    (a3 : IVec Cert.KernelIdeal.S2000000 32) :
    Host.gather Cert.ReferenceIdeal.gather_S70000x64_S2000000x1_S2000000x64_1_0_n_n_0_1_164
        (Cert.ReferenceIdeal.Hand.feat a0 a1) (Cert.ReferenceIdeal.Hand.colIdx a3)
      = Cert.KernelIdeal.Hand.xcol a0 a1 a3 := by
  rw [feat_eq, colIdx_eq, gatherDims_eq]
  rfl

/-- The kernel program's accumulation of width 128 is the row scatter's. -/
theorem scatterAdd_wide (x : FVec Ideal Cert.KernelIdeal.S70000x128 .f32) (idx : IVec Cert.KernelIdeal.S2000000x1 32)
    (upd : FVec Ideal Cert.KernelIdeal.S2000000x128 .f32) :
    Host.scatterAdd Cert.KernelIdeal.scatter_S70000x128_S2000000x1_S2000000x128_1_0_0_1 x idx upd
      = Ideal.hostScatterAdd (rowScatter 70000 128 2000000
          Cert.KernelIdeal.Gen.scatter_S70000x128_S2000000x1_S2000000x128_1_0_0_1_wf) x idx upd := rfl

/-- The reference's accumulation of width 64 is the row scatter's. -/
theorem scatterAdd_narrow (x : FVec Ideal Cert.ReferenceIdeal.S70000x64 .f32) (idx : IVec Cert.ReferenceIdeal.S2000000x1 32)
    (upd : FVec Ideal Cert.ReferenceIdeal.S2000000x64 .f32) :
    Host.scatterAdd Cert.ReferenceIdeal.scatter_S70000x64_S2000000x1_S2000000x64_1_0_0_1 x idx upd
      = Ideal.hostScatterAdd (rowScatter 70000 64 2000000
          Cert.ReferenceIdeal.Gen.scatter_S70000x64_S2000000x1_S2000000x64_1_0_0_1_wf) x idx upd := rfl

/-- Over any index and update arrays: the left half of the wide accumulation from zero is the narrow accumulation
    from zero of the left update array. -/
theorem half_left (ri : IVec Cert.KernelIdeal.S2000000x1 32) (m₁ m₂ : FVec Ideal Cert.KernelIdeal.S2000000x64 .f32) :
    extractStridedSlice Cert.KernelIdeal.S70000x64 ![0, 0]
        (Host.scatterAdd Cert.KernelIdeal.scatter_S70000x128_S2000000x1_S2000000x128_1_0_0_1
          (broadcastInDim Cert.KernelIdeal.S70000x128 ![] Cert.KernelIdeal.Facts₀.bcast_S_S70000x128
            (constant Cert.KernelIdeal.S_ .f32 0x00000000#32)) ri
          (concatenate Cert.KernelIdeal.S2000000x128 1
            [⟨Cert.KernelIdeal.S2000000x64, m₁⟩, ⟨Cert.KernelIdeal.S2000000x64, m₂⟩]
            Cert.KernelIdeal.Facts₀.concatenates_S2000000x64_S2000000x64_S2000000x128_d1))
        Cert.KernelIdeal.Facts₀.slices_S70000x128_S70000x64_0_0
      = Host.scatterAdd Cert.ReferenceIdeal.scatter_S70000x64_S2000000x1_S2000000x64_1_0_0_1
          (broadcastInDim Cert.ReferenceIdeal.S70000x64 ![] Cert.ReferenceIdeal.Facts₀.bcast_S_S70000x64
            (constant Cert.ReferenceIdeal.S_ .f32 0x00000000#32)) ri m₁ := by
  rw [scatterAdd_wide, scatterAdd_narrow]
  exact wide_left (C := 64) rfl _ _ (Ideal.ofBits .f32 0x00000000#32) _ _ (fun _ => rfl) (fun _ => rfl) ri m₁ m₂ _ _

/-- The same for the right half and the right update array. -/
theorem half_right (ri : IVec Cert.KernelIdeal.S2000000x1 32) (m₁ m₂ : FVec Ideal Cert.KernelIdeal.S2000000x64 .f32) :
    extractStridedSlice Cert.KernelIdeal.S70000x64 ![0, 64]
        (Host.scatterAdd Cert.KernelIdeal.scatter_S70000x128_S2000000x1_S2000000x128_1_0_0_1
          (broadcastInDim Cert.KernelIdeal.S70000x128 ![] Cert.KernelIdeal.Facts₀.bcast_S_S70000x128
            (constant Cert.KernelIdeal.S_ .f32 0x00000000#32)) ri
          (concatenate Cert.KernelIdeal.S2000000x128 1
            [⟨Cert.KernelIdeal.S2000000x64, m₁⟩, ⟨Cert.KernelIdeal.S2000000x64, m₂⟩]
            Cert.KernelIdeal.Facts₀.concatenates_S2000000x64_S2000000x64_S2000000x128_d1))
        Cert.KernelIdeal.Facts₀.slices_S70000x128_S70000x64_0_64
      = Host.scatterAdd Cert.ReferenceIdeal.scatter_S70000x64_S2000000x1_S2000000x64_1_0_0_1
          (broadcastInDim Cert.ReferenceIdeal.S70000x64 ![] Cert.ReferenceIdeal.Facts₀.bcast_S_S70000x64
            (constant Cert.ReferenceIdeal.S_ .f32 0x00000000#32)) ri m₂ := by
  rw [scatterAdd_wide, scatterAdd_narrow]
  exact wide_right (C := 64) rfl _ _ (Ideal.ofBits .f32 0x00000000#32) _ _ (fun _ => rfl) (fun _ => rfl) ri m₁ m₂ _ _

end Program

/-- The left half of the wide accumulation is the adjacency applied to the features. -/
theorem lx_eq (a0 : FVec Ideal Cert.KernelIdeal.S50000x64 .f32) (a1 : FVec Ideal Cert.KernelIdeal.S20000x64 .f32) (a2 a3 : IVec Cert.KernelIdeal.S2000000 32) (a4 : FVec Ideal Cert.KernelIdeal.S2000000 .f32) :
    Cert.KernelIdeal.Hand.lx a0 a1 a2 a3 a4 = Cert.ReferenceIdeal.Hand.spmm (Cert.ReferenceIdeal.Hand.feat a0 a1) a2 a3 a4 := by
  unfold Cert.KernelIdeal.Hand.lx Cert.KernelIdeal.Hand.comb Cert.ReferenceIdeal.Hand.spmm
  rw [xcol_eq, rowIdx_eq, valB_eq]
  exact half_left _ _ _

/-- The right half is the adjacency applied to the squared features. -/
theorem lx2_eq (a0 : FVec Ideal Cert.KernelIdeal.S50000x64 .f32) (a1 : FVec Ideal Cert.KernelIdeal.S20000x64 .f32) (a2 a3 : IVec Cert.KernelIdeal.S2000000 32) (a4 : FVec Ideal Cert.KernelIdeal.S2000000 .f32) :
    Cert.KernelIdeal.Hand.lx2 a0 a1 a2 a3 a4
      = Cert.ReferenceIdeal.Hand.spmm (mulf (Cert.ReferenceIdeal.Hand.feat a0 a1) (Cert.ReferenceIdeal.Hand.feat a0 a1)) a2 a3 a4 := by
  unfold Cert.KernelIdeal.Hand.lx2 Cert.KernelIdeal.Hand.comb Cert.ReferenceIdeal.Hand.spmm
  rw [gather_mulf, xcol_eq, rowIdx_eq, valB_eq]
  exact half_right _ _ _

end Cert.Bridge

end
-- ==== Proof.BridgeGcn.lean ====
/-
  The reference's graph-convolution layer, read index by index, is `Spec.gcnArr`: the concatenation puts the
  features in columns 0..63 and the rectified combination in 64..127; a host dot_general row is the sum over the
  64 contracted columns; a bias [64] broadcast through [1, 64] reads its column.
-/
import proofs.«133197_j52785148068369_1_alg».proof.Proof.KSpec
import proofs.«133197_j52785148068369_1_alg».proof.Proof.RSpec
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx

section Contraction

open Cert.ReferenceIdeal

/-- The left operand's row coordinate is the output's row. -/
theorem lhs_0 (i : S70000x64.Idx) (q : dot_S70000x64_S64x64_S70000x64_1_0_0_1_n_n.contr.Idx) :
    (dot_S70000x64_S64x64_S70000x64_1_0_0_1_n_n.lhsIdx i q 0).val = (i 0).val := by
  unfold DotDims.lhsIdx
  rw [dif_neg (show ¬(0 : Fin S70000x64.rank) ∈ dot_S70000x64_S64x64_S70000x64_1_0_0_1_n_n.lhsBatch by decide),
    dif_pos (show (0 : Fin S70000x64.rank) ∈ dot_S70000x64_S64x64_S70000x64_1_0_0_1_n_n.lhsNonContracting by decide)]
  rfl

/-- The left operand's column coordinate is the contracted one. -/
theorem lhs_1 (i : S70000x64.Idx) (q : dot_S70000x64_S64x64_S70000x64_1_0_0_1_n_n.contr.Idx) :
    (dot_S70000x64_S64x64_S70000x64_1_0_0_1_n_n.lhsIdx i q 1).val = (q ⟨0, by decide⟩).val :=
  dot_S70000x64_S64x64_S70000x64_1_0_0_1_n_n.lhsIdx_val_of_single rfl i q

/-- The right operand's row coordinate is the contracted one. -/
theorem rhs_0 (i : S70000x64.Idx) (q : dot_S70000x64_S64x64_S70000x64_1_0_0_1_n_n.contr.Idx) :
    (dot_S70000x64_S64x64_S70000x64_1_0_0_1_n_n.rhsIdx i q 0).val = (q ⟨0, by decide⟩).val :=
  dot_S70000x64_S64x64_S70000x64_1_0_0_1_n_n.rhsIdx_val_of_single rfl i q

/-- The right operand's column coordinate is the output's column. -/
theorem rhs_1 (i : S70000x64.Idx) (q : dot_S70000x64_S64x64_S70000x64_1_0_0_1_n_n.contr.Idx) :
    (dot_S70000x64_S64x64_S70000x64_1_0_0_1_n_n.rhsIdx i q 1).val = (i 1).val := by
  unfold DotDims.rhsIdx
  rw [dif_neg (show ¬(1 : Fin S64x64.rank) ∈ dot_S70000x64_S64x64_S70000x64_1_0_0_1_n_n.rhsBatch by decide),
    dif_pos (show (1 : Fin S64x64.rank) ∈ dot_S70000x64_S64x64_S70000x64_1_0_0_1_n_n.rhsNonContracting by decide)]
  rfl

/-- Entry (p, q) of the product is the sum over the 64 contracted positions of row p times column q. -/
theorem dot_row (x : FVec Ideal S70000x64 .f32) (w : FVec Ideal S64x64 .f32) (p : Fin 70000) (q : Fin 64) :
    Host.dotGeneral dot_S70000x64_S64x64_S70000x64_1_0_0_1_n_n none x w (ix2 p q)
      = ∑ k : Fin 64, x (ix2 p k) * w (ix2 k q) := by
  simp only [Host.dotGeneral]
  rw [Ideal.dotGeneral_apply,
    ← Equiv.sum_comp (ValueIdx.contrEquiv1 dot_S70000x64_S64x64_S70000x64_1_0_0_1_n_n 64 rfl rfl).symm]
  refine Finset.sum_congr rfl fun k _ => ?_
  have hk := ValueIdx.contrEquiv1_symm_val dot_S70000x64_S64x64_S70000x64_1_0_0_1_n_n 64 rfl rfl k
  have el : dot_S70000x64_S64x64_S70000x64_1_0_0_1_n_n.lhsIdx (ix2 p q)
      ((ValueIdx.contrEquiv1 dot_S70000x64_S64x64_S70000x64_1_0_0_1_n_n 64 rfl rfl).symm k) = ix2 p k :=
    funext fun a => Fin.ext (by
      match a with
      | ⟨0, _⟩ => exact lhs_0 _ _
      | ⟨1, _⟩ => exact (lhs_1 _ _).trans hk)
  have er : dot_S70000x64_S64x64_S70000x64_1_0_0_1_n_n.rhsIdx (ix2 p q)
      ((ValueIdx.contrEquiv1 dot_S70000x64_S64x64_S70000x64_1_0_0_1_n_n 64 rfl rfl).symm k) = ix2 k q :=
    funext fun a => Fin.ext (by
      match a with
      | ⟨0, _⟩ => exact (rhs_0 _ _).trans hk
      | ⟨1, _⟩ => exact rhs_1 _ _)
  rw [el, er]

end Contraction

section Pieces

open Cert.ReferenceIdeal

/-- A [64] row carried through [1, 64] to all 70000 rows reads, at (p, q), its entry q. -/
theorem bias_apply (b : FVec Ideal S64 .f32) (p : Fin 70000) (q : Fin 64) :
    broadcastInDim S70000x64 ![0, 1] Facts₀.bcast_S1x64_S70000x64_0_1
      (broadcastInDim S1x64 ![1] Facts₀.bcast_S64_S1x64_1 b) (ix2 p q) = b (ix1 q) := by
  refine (broadcastInDim_apply _ _ _ (ix2 p q) (ix2 (0 : Fin 1) q) ?_).trans ?_
  · intro a
    match a with
    | ⟨0, _⟩ => rfl
    | ⟨1, _⟩ => rfl
  · refine broadcastInDim_apply _ _ _ (ix2 (0 : Fin 1) q) (ix1 q) ?_
    intro a
    match a with
    | ⟨0, _⟩ => rfl

/-- The rectifier on an array, read at an index, is the scalar rectifier of the entry there. -/
theorem leakyArr_apply (x : FVec Ideal S70000x64 .f32) (j : S70000x64.Idx) :
    Hand.leakyArr x j = Cert.Spec.leaky (x j) := by
  unfold Hand.leakyArr Cert.Spec.leaky
  rw [select_apply, cmpf_apply, mulf_apply,
    broadcastInDim_apply _ _ _ j ix0 (fun a => a.elim0),
    broadcastInDim_apply _ _ _ j ix0 (fun a => a.elim0), constant_apply]
  rfl

end Pieces

/-- In columns below 64 the result array holds the features. -/
theorem gcnArr_left (feat lx lx2 : Cert.Spec.Arr 70000 64) (Wg1 : Cert.Spec.Arr 64 64) (bg1 : Cert.Spec.Arr 1 64)
    (Wg2 : Cert.Spec.Arr 64 64) (bg2 : Cert.Spec.Arr 1 64) (p : Fin 70000) (q : Fin 128) (h : q.val < 64) :
    Cert.Spec.gcnArr feat lx lx2 Wg1 bg1 Wg2 bg2 (ix2 p q) = feat (ix2 p ⟨q.val, h⟩) := by
  unfold Cert.Spec.gcnArr
  exact dif_pos h

/-- In column 64 + j the result array holds the rectified combination's column j. -/
theorem gcnArr_right (feat lx lx2 : Cert.Spec.Arr 70000 64) (Wg1 : Cert.Spec.Arr 64 64) (bg1 : Cert.Spec.Arr 1 64)
    (Wg2 : Cert.Spec.Arr 64 64) (bg2 : Cert.Spec.Arr 1 64) (p : Fin 70000) (q : Fin 128) (h : ¬ q.val < 64) :
    Cert.Spec.gcnArr feat lx lx2 Wg1 bg1 Wg2 bg2 (ix2 p q)
      = Cert.Spec.gcnH feat lx lx2 Wg1 bg1 Wg2 bg2 p ⟨q.val - 64, by have := q.isLt; omega⟩ := by
  unfold Cert.Spec.gcnArr
  exact dif_neg h

theorem gcn_eq (ft lx lx2 : FVec Ideal Cert.ReferenceIdeal.S70000x64 .f32) (a5 : FVec Ideal Cert.ReferenceIdeal.S64x64 .f32) (a6 : FVec Ideal Cert.ReferenceIdeal.S64 .f32)
    (a7 : FVec Ideal Cert.ReferenceIdeal.S64x64 .f32) (a8 : FVec Ideal Cert.ReferenceIdeal.S64 .f32) :
    Cert.ReferenceIdeal.Hand.gcn ft lx lx2 a5 a6 a7 a8
      = Cert.Spec.gcnArr ft lx lx2 a5 (shapeCast Cert.KernelIdeal.S1x64 a6 Cert.KernelIdeal.Facts₀.shapeCasts_S64_S1x64) a7
          (shapeCast Cert.KernelIdeal.S1x64 a8 Cert.KernelIdeal.Facts₀.shapeCasts_S64_S1x64) := by
  funext i
  obtain ⟨p, q, rfl⟩ : ∃ (p : Fin 70000) (q : Fin 128), i = ix2 p q := ⟨i 0, i 1, eq_ix2 i⟩
  unfold Cert.ReferenceIdeal.Hand.gcn
  by_cases h : q.val < 64
  · -- a column of the first piece: the features
    rw [gcnArr_left _ _ _ _ _ _ _ p q h]
    refine concatenate_pair_apply_left (s₁ := Cert.ReferenceIdeal.S70000x64) (s₂ := Cert.ReferenceIdeal.S70000x64)
      _ _ _ _ (ix2 p q) rfl (ix2 p ⟨q.val, h⟩) ?_
    intro b
    match b with
    | ⟨0, _⟩ => rfl
    | ⟨1, _⟩ => rfl
  · -- a column of the second piece, 64 less: the rectified combination
    have hq : q.val - 64 < 64 := by have := q.isLt; omega
    rw [gcnArr_right _ _ _ _ _ _ _ p q h]
    refine (concatenate_pair_apply_right (s₁ := Cert.ReferenceIdeal.S70000x64) (s₂ := Cert.ReferenceIdeal.S70000x64)
      _ _ _ _ (ix2 p q) rfl rfl (ix2 p ⟨q.val - 64, hq⟩) ?_ ?_).trans ?_
    · intro b hb
      match b, hb with
      | ⟨0, _⟩, _ => rfl
      | ⟨1, _⟩, hb => exact absurd rfl hb
    · show q.val - 64 + 64 = q.val
      omega
    · unfold Cert.Spec.gcnH
      rw [leakyArr_apply, addf_apply, addf_apply, addf_apply, dot_row, dot_row, bias_apply, bias_apply,
        shapeCast_a_1a_apply, shapeCast_a_1a_apply]
      rfl

end Cert.Bridge

end
-- ==== Proof.BridgeMlp.lean ====
/-
  The reference's perceptron, read index by index, is `Spec.mlpArr` of the split weights: the contraction over the
  256 concatenated columns is the sum of the contractions over its two halves of 128 (a finite sum split in two,
  which holds in the extended reals as in any commutative monoid), the first 128 rows of W1 meeting u and the last
  128 meeting i.
-/
import proofs.«133197_j52785148068369_1_alg».proof.Proof.KSpec
import proofs.«133197_j52785148068369_1_alg».proof.Proof.RSpec
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx
open Cert.ReferenceIdeal Cert.ReferenceIdeal.Facts₀ Cert.ReferenceIdeal.Facts

/-! ## The first contraction, [16384, 256] × [256, 64], read at an index -/

theorem dot1_lhs_0 (i : S16384x64.Idx) (q : dot_S16384x256_S256x64_S16384x64_1_0_0_1_n_n.contr.Idx) :
    (dot_S16384x256_S256x64_S16384x64_1_0_0_1_n_n.lhsIdx i q 0).val = (i 0).val := by
  unfold DotDims.lhsIdx
  rw [dif_neg (show ¬(0 : Fin S16384x256.rank) ∈ dot_S16384x256_S256x64_S16384x64_1_0_0_1_n_n.lhsBatch by decide),
    dif_pos (show (0 : Fin S16384x256.rank) ∈ dot_S16384x256_S256x64_S16384x64_1_0_0_1_n_n.lhsNonContracting by decide)]
  rfl

theorem dot1_lhs_1 (i : S16384x64.Idx) (q : dot_S16384x256_S256x64_S16384x64_1_0_0_1_n_n.contr.Idx) :
    (dot_S16384x256_S256x64_S16384x64_1_0_0_1_n_n.lhsIdx i q 1).val = (q ⟨0, by decide⟩).val :=
  dot_S16384x256_S256x64_S16384x64_1_0_0_1_n_n.lhsIdx_val_of_single rfl i q

theorem dot1_rhs_0 (i : S16384x64.Idx) (q : dot_S16384x256_S256x64_S16384x64_1_0_0_1_n_n.contr.Idx) :
    (dot_S16384x256_S256x64_S16384x64_1_0_0_1_n_n.rhsIdx i q 0).val = (q ⟨0, by decide⟩).val :=
  dot_S16384x256_S256x64_S16384x64_1_0_0_1_n_n.rhsIdx_val_of_single rfl i q

theorem dot1_rhs_1 (i : S16384x64.Idx) (q : dot_S16384x256_S256x64_S16384x64_1_0_0_1_n_n.contr.Idx) :
    (dot_S16384x256_S256x64_S16384x64_1_0_0_1_n_n.rhsIdx i q 1).val = (i 1).val := by
  unfold DotDims.rhsIdx
  rw [dif_neg (show ¬(1 : Fin S256x64.rank) ∈ dot_S16384x256_S256x64_S16384x64_1_0_0_1_n_n.rhsBatch by decide),
    dif_pos (show (1 : Fin S256x64.rank) ∈ dot_S16384x256_S256x64_S16384x64_1_0_0_1_n_n.rhsNonContracting by decide)]
  rfl

/-- At (r, j) the contraction is the sum over the 256 shared positions of row r of the left operand times column j of the right. -/
theorem dot1_at (x : FVec Ideal S16384x256 .f32) (w : FVec Ideal S256x64 .f32) (r : Fin 16384) (j : Fin 64) :
    Host.dotGeneral dot_S16384x256_S256x64_S16384x64_1_0_0_1_n_n none x w (ix2 r j)
      = ∑ k : Fin 256, x (ix2 r k) * w (ix2 k j) := by
  simp only [Host.dotGeneral]
  rw [Ideal.dotGeneral_apply,
    ← Equiv.sum_comp (ValueIdx.contrEquiv1 dot_S16384x256_S256x64_S16384x64_1_0_0_1_n_n 256 rfl rfl).symm]
  refine Finset.sum_congr rfl fun k _ => ?_
  have hk := ValueIdx.contrEquiv1_symm_val dot_S16384x256_S256x64_S16384x64_1_0_0_1_n_n 256 rfl rfl k
  have el : dot_S16384x256_S256x64_S16384x64_1_0_0_1_n_n.lhsIdx (ix2 r j)
      ((ValueIdx.contrEquiv1 dot_S16384x256_S256x64_S16384x64_1_0_0_1_n_n 256 rfl rfl).symm k) = ix2 r k :=
    funext fun a => Fin.ext (by
      match a with
      | ⟨0, _⟩ => exact dot1_lhs_0 _ _
      | ⟨1, _⟩ => exact (dot1_lhs_1 _ _).trans hk)
  have er : dot_S16384x256_S256x64_S16384x64_1_0_0_1_n_n.rhsIdx (ix2 r j)
      ((ValueIdx.contrEquiv1 dot_S16384x256_S256x64_S16384x64_1_0_0_1_n_n 256 rfl rfl).symm k) = ix2 k j :=
    funext fun a => Fin.ext (by
      match a with
      | ⟨0, _⟩ => exact (dot1_rhs_0 _ _).trans hk
      | ⟨1, _⟩ => exact dot1_rhs_1 _ _)
  rw [el, er]

/-! ## The second contraction, [16384, 64] × [64, 32], read at an index -/

theorem dot2_lhs_0 (i : S16384x32.Idx) (q : dot_S16384x64_S64x32_S16384x32_1_0_0_1_n_n.contr.Idx) :
    (dot_S16384x64_S64x32_S16384x32_1_0_0_1_n_n.lhsIdx i q 0).val = (i 0).val := by
  unfold DotDims.lhsIdx
  rw [dif_neg (show ¬(0 : Fin S16384x64.rank) ∈ dot_S16384x64_S64x32_S16384x32_1_0_0_1_n_n.lhsBatch by decide),
    dif_pos (show (0 : Fin S16384x64.rank) ∈ dot_S16384x64_S64x32_S16384x32_1_0_0_1_n_n.lhsNonContracting by decide)]
  rfl

theorem dot2_lhs_1 (i : S16384x32.Idx) (q : dot_S16384x64_S64x32_S16384x32_1_0_0_1_n_n.contr.Idx) :
    (dot_S16384x64_S64x32_S16384x32_1_0_0_1_n_n.lhsIdx i q 1).val = (q ⟨0, by decide⟩).val :=
  dot_S16384x64_S64x32_S16384x32_1_0_0_1_n_n.lhsIdx_val_of_single rfl i q

theorem dot2_rhs_0 (i : S16384x32.Idx) (q : dot_S16384x64_S64x32_S16384x32_1_0_0_1_n_n.contr.Idx) :
    (dot_S16384x64_S64x32_S16384x32_1_0_0_1_n_n.rhsIdx i q 0).val = (q ⟨0, by decide⟩).val :=
  dot_S16384x64_S64x32_S16384x32_1_0_0_1_n_n.rhsIdx_val_of_single rfl i q

theorem dot2_rhs_1 (i : S16384x32.Idx) (q : dot_S16384x64_S64x32_S16384x32_1_0_0_1_n_n.contr.Idx) :
    (dot_S16384x64_S64x32_S16384x32_1_0_0_1_n_n.rhsIdx i q 1).val = (i 1).val := by
  unfold DotDims.rhsIdx
  rw [dif_neg (show ¬(1 : Fin S64x32.rank) ∈ dot_S16384x64_S64x32_S16384x32_1_0_0_1_n_n.rhsBatch by decide),
    dif_pos (show (1 : Fin S64x32.rank) ∈ dot_S16384x64_S64x32_S16384x32_1_0_0_1_n_n.rhsNonContracting by decide)]
  rfl

/-- At (r, j) the contraction is the sum over the 64 shared positions of row r of the left operand times column j of the right. -/
theorem dot2_at (x : FVec Ideal S16384x64 .f32) (w : FVec Ideal S64x32 .f32) (r : Fin 16384) (j : Fin 32) :
    Host.dotGeneral dot_S16384x64_S64x32_S16384x32_1_0_0_1_n_n none x w (ix2 r j)
      = ∑ k : Fin 64, x (ix2 r k) * w (ix2 k j) := by
  simp only [Host.dotGeneral]
  rw [Ideal.dotGeneral_apply,
    ← Equiv.sum_comp (ValueIdx.contrEquiv1 dot_S16384x64_S64x32_S16384x32_1_0_0_1_n_n 64 rfl rfl).symm]
  refine Finset.sum_congr rfl fun k _ => ?_
  have hk := ValueIdx.contrEquiv1_symm_val dot_S16384x64_S64x32_S16384x32_1_0_0_1_n_n 64 rfl rfl k
  have el : dot_S16384x64_S64x32_S16384x32_1_0_0_1_n_n.lhsIdx (ix2 r j)
      ((ValueIdx.contrEquiv1 dot_S16384x64_S64x32_S16384x32_1_0_0_1_n_n 64 rfl rfl).symm k) = ix2 r k :=
    funext fun a => Fin.ext (by
      match a with
      | ⟨0, _⟩ => exact dot2_lhs_0 _ _
      | ⟨1, _⟩ => exact (dot2_lhs_1 _ _).trans hk)
  have er : dot_S16384x64_S64x32_S16384x32_1_0_0_1_n_n.rhsIdx (ix2 r j)
      ((ValueIdx.contrEquiv1 dot_S16384x64_S64x32_S16384x32_1_0_0_1_n_n 64 rfl rfl).symm k) = ix2 k j :=
    funext fun a => Fin.ext (by
      match a with
      | ⟨0, _⟩ => exact (dot2_rhs_0 _ _).trans hk
      | ⟨1, _⟩ => exact dot2_rhs_1 _ _)
  rw [el, er]

/-! ## The third contraction, [16384, 32] × [32, 1], read at an index -/

theorem dot3_lhs_0 (i : S16384x1.Idx) (q : dot_S16384x32_S32x1_S16384x1_1_0_0_1_n_n.contr.Idx) :
    (dot_S16384x32_S32x1_S16384x1_1_0_0_1_n_n.lhsIdx i q 0).val = (i 0).val := by
  unfold DotDims.lhsIdx
  rw [dif_neg (show ¬(0 : Fin S16384x32.rank) ∈ dot_S16384x32_S32x1_S16384x1_1_0_0_1_n_n.lhsBatch by decide),
    dif_pos (show (0 : Fin S16384x32.rank) ∈ dot_S16384x32_S32x1_S16384x1_1_0_0_1_n_n.lhsNonContracting by decide)]
  rfl

theorem dot3_lhs_1 (i : S16384x1.Idx) (q : dot_S16384x32_S32x1_S16384x1_1_0_0_1_n_n.contr.Idx) :
    (dot_S16384x32_S32x1_S16384x1_1_0_0_1_n_n.lhsIdx i q 1).val = (q ⟨0, by decide⟩).val :=
  dot_S16384x32_S32x1_S16384x1_1_0_0_1_n_n.lhsIdx_val_of_single rfl i q

theorem dot3_rhs_0 (i : S16384x1.Idx) (q : dot_S16384x32_S32x1_S16384x1_1_0_0_1_n_n.contr.Idx) :
    (dot_S16384x32_S32x1_S16384x1_1_0_0_1_n_n.rhsIdx i q 0).val = (q ⟨0, by decide⟩).val :=
  dot_S16384x32_S32x1_S16384x1_1_0_0_1_n_n.rhsIdx_val_of_single rfl i q

theorem dot3_rhs_1 (i : S16384x1.Idx) (q : dot_S16384x32_S32x1_S16384x1_1_0_0_1_n_n.contr.Idx) :
    (dot_S16384x32_S32x1_S16384x1_1_0_0_1_n_n.rhsIdx i q 1).val = (i 1).val := by
  unfold DotDims.rhsIdx
  rw [dif_neg (show ¬(1 : Fin S32x1.rank) ∈ dot_S16384x32_S32x1_S16384x1_1_0_0_1_n_n.rhsBatch by decide),
    dif_pos (show (1 : Fin S32x1.rank) ∈ dot_S16384x32_S32x1_S16384x1_1_0_0_1_n_n.rhsNonContracting by decide)]
  rfl

/-- At (r, j) the contraction is the sum over the 32 shared positions of row r of the left operand times column j of the right. -/
theorem dot3_at (x : FVec Ideal S16384x32 .f32) (w : FVec Ideal S32x1 .f32) (r : Fin 16384) (j : Fin 1) :
    Host.dotGeneral dot_S16384x32_S32x1_S16384x1_1_0_0_1_n_n none x w (ix2 r j)
      = ∑ k : Fin 32, x (ix2 r k) * w (ix2 k j) := by
  simp only [Host.dotGeneral]
  rw [Ideal.dotGeneral_apply,
    ← Equiv.sum_comp (ValueIdx.contrEquiv1 dot_S16384x32_S32x1_S16384x1_1_0_0_1_n_n 32 rfl rfl).symm]
  refine Finset.sum_congr rfl fun k _ => ?_
  have hk := ValueIdx.contrEquiv1_symm_val dot_S16384x32_S32x1_S16384x1_1_0_0_1_n_n 32 rfl rfl k
  have el : dot_S16384x32_S32x1_S16384x1_1_0_0_1_n_n.lhsIdx (ix2 r j)
      ((ValueIdx.contrEquiv1 dot_S16384x32_S32x1_S16384x1_1_0_0_1_n_n 32 rfl rfl).symm k) = ix2 r k :=
    funext fun a => Fin.ext (by
      match a with
      | ⟨0, _⟩ => exact dot3_lhs_0 _ _
      | ⟨1, _⟩ => exact (dot3_lhs_1 _ _).trans hk)
  have er : dot_S16384x32_S32x1_S16384x1_1_0_0_1_n_n.rhsIdx (ix2 r j)
      ((ValueIdx.contrEquiv1 dot_S16384x32_S32x1_S16384x1_1_0_0_1_n_n 32 rfl rfl).symm k) = ix2 k j :=
    funext fun a => Fin.ext (by
      match a with
      | ⟨0, _⟩ => exact (dot3_rhs_0 _ _).trans hk
      | ⟨1, _⟩ => exact dot3_rhs_1 _ _)
  rw [el, er]

/-! ## The layout operations read at an index -/

/-- A bias vector [n] broadcast to [1, n] and then to [m, n] reads, at (r, j), its entry j. -/
theorem bias_at {α : Type} {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (j : Fin n) :
    broadcastInDim ⟨2, ![m, n]⟩ ![0, 1] h2 (broadcastInDim ⟨2, ![1, n]⟩ ![1] h1 b) (ix2 r j) = b (ix1 j) := by
  refine (broadcastInDim_apply _ h2 _ (ix2 r j) (ix2 (0 : Fin 1) j) fun a => ?_).trans
    (broadcastInDim_apply _ h1 b (ix2 (0 : Fin 1) j) (ix1 j) fun a => ?_)
  · match a with
    | ⟨0, _⟩ => exact (if_pos rfl).symm
    | ⟨1, _⟩ =>
      show j.val = if n = 1 then 0 else j.val
      split
      · omega
      · rfl
  · match a with
    | ⟨0, _⟩ =>
      show j.val = if n = 1 then 0 else j.val
      split
      · omega
      · rfl

/-- The splat of the word +0.0 reads that word everywhere. -/
theorem zero_at {s : Shape} (h : S_.BroadcastsInDim s ![]) (y : s.Idx) :
    broadcastInDim s ![] h (constant (F := Ideal) S_ .f32 0x00000000#32) y = Cert.Spec.zeroE := rfl

/-- Columns 0..127 of the concatenation are the first piece's. -/
theorem cat_left (u i : FVec Ideal S16384x128 .f32) (r : Fin 16384) (k : Fin 128) :
    concatenate S16384x256 1 [⟨S16384x128, u⟩, ⟨S16384x128, i⟩] concatenates_S16384x128_S16384x128_S16384x256_d1
      (ix2 r (Fin.castAdd 128 k)) = u (ix2 r k) :=
  concatenate_pair_apply_left (1 : Fin S16384x256.rank) u i _ (ix2 r (Fin.castAdd 128 k)) rfl (ix2 r k) (fun b => by
    match b with
    | ⟨0, _⟩ => rfl
    | ⟨1, _⟩ => rfl)

/-- Columns 128..255 of the concatenation are the second piece's, 128 less. -/
theorem cat_right (u i : FVec Ideal S16384x128 .f32) (r : Fin 16384) (k : Fin 128) :
    concatenate S16384x256 1 [⟨S16384x128, u⟩, ⟨S16384x128, i⟩] concatenates_S16384x128_S16384x128_S16384x256_d1
      (ix2 r (Fin.natAdd 128 k)) = i (ix2 r k) :=
  concatenate_pair_apply_right (1 : Fin S16384x256.rank) u i _ (ix2 r (Fin.natAdd 128 k)) rfl rfl (ix2 r k)
    (fun b hb => by
      match b, hb with
      | ⟨0, _⟩, _ => rfl
      | ⟨1, _⟩, hb => exact absurd rfl hb)
    (by show k.val + 128 = 128 + k.val; omega)

/-- Row k of the first 128 rows of W1 is row k of W1. -/
theorem w1a_at (a9 : FVec Ideal S256x64 .f32) (k : Fin 128) (j : Fin 64) :
    extractStridedSlice Cert.KernelIdeal.S128x64 ![0, 0] a9 Cert.KernelIdeal.Facts₀.slices_S256x64_S128x64_0_0 (ix2 k j)
      = a9 (ix2 (Fin.castAdd 128 k) j) :=
  slice2_axis0_apply 0 a9 _ k j (Fin.castAdd 128 k) (by show k.val = 0 + k.val; omega)

/-- Row k of the last 128 rows of W1 is row 128 + k of W1. -/
theorem w1b_at (a9 : FVec Ideal S256x64 .f32) (k : Fin 128) (j : Fin 64) :
    extractStridedSlice Cert.KernelIdeal.S128x64 ![128, 0] a9 Cert.KernelIdeal.Facts₀.slices_S256x64_S128x64_128_0 (ix2 k j)
      = a9 (ix2 (Fin.natAdd 128 k) j) :=
  slice2_axis0_apply 128 a9 _ k j (Fin.natAdd 128 k) rfl

/-- A sum over 256 positions is the sum over the first 128 plus the sum over the last 128. -/
theorem sum_256 (f : Fin 256 → EReal) :
    ∑ k : Fin 256, f k = (∑ k : Fin 128, f (Fin.castAdd 128 k)) + ∑ k : Fin 128, f (Fin.natAdd 128 k) :=
  Fin.sum_univ_add (M := EReal) (a := 128) (b := 128) f

/-! ## The reference's three layers, each read at an index -/

/-- The reference's first hidden layer as an array. -/
def refH1 (u i : FVec Ideal S16384x128 .f32) (a9 : FVec Ideal S256x64 .f32) (a10 : FVec Ideal S64 .f32) :
    FVec Ideal S16384x64 .f32 :=
  maximumf (addf (Host.dotGeneral dot_S16384x256_S256x64_S16384x64_1_0_0_1_n_n none
      (concatenate S16384x256 1 [⟨S16384x128, u⟩, ⟨S16384x128, i⟩] concatenates_S16384x128_S16384x128_S16384x256_d1) a9)
    (broadcastInDim S16384x64 ![0, 1] bcast_S1x64_S16384x64_0_1 (broadcastInDim S1x64 ![1] bcast_S64_S1x64_1 a10)))
    (broadcastInDim S16384x64 ![] bcast_S_S16384x64 (constant S_ .f32 0x00000000#32))

/-- The reference's second hidden layer, of any first layer `x`. -/
def refH2 (x : FVec Ideal S16384x64 .f32) (a11 : FVec Ideal S64x32 .f32) (a12 : FVec Ideal S32 .f32) :
    FVec Ideal S16384x32 .f32 :=
  maximumf (addf (Host.dotGeneral dot_S16384x64_S64x32_S16384x32_1_0_0_1_n_n none x a11)
    (broadcastInDim S16384x32 ![0, 1] bcast_S1x32_S16384x32_0_1 (broadcastInDim S1x32 ![1] bcast_S32_S1x32_1 a12)))
    (broadcastInDim S16384x32 ![] bcast_S_S16384x32 (constant S_ .f32 0x00000000#32))

/-- The reference's output layer, of any second layer `x`. -/
def refOut (x : FVec Ideal S16384x32 .f32) (a13 : FVec Ideal S32x1 .f32) (a14 : FVec Ideal S1 .f32) :
    FVec Ideal S16384x1 .f32 :=
  addf (Host.dotGeneral dot_S16384x32_S32x1_S16384x1_1_0_0_1_n_n none x a13)
    (broadcastInDim S16384x1 ![0, 1] bcast_S1x1_S16384x1_0_1 (broadcastInDim S1x1 ![1] bcast_S1_S1x1_1 a14))

/-- The reference's perceptron is the three layers composed. -/
theorem mlp_layers (u i : FVec Ideal S16384x128 .f32) (a9 : FVec Ideal S256x64 .f32) (a10 : FVec Ideal S64 .f32)
    (a11 : FVec Ideal S64x32 .f32) (a12 : FVec Ideal S32 .f32) (a13 : FVec Ideal S32x1 .f32) (a14 : FVec Ideal S1 .f32) :
    Hand.mlp u i a9 a10 a11 a12 a13 a14 = refOut (refH2 (refH1 u i a9 a10) a11 a12) a13 a14 := rfl

/-- The first layer at (r, j): the 256-term sum splits into the u-half against the first 128 rows of W1 and the
    i-half against the last 128. -/
theorem refH1_at (u i : FVec Ideal S16384x128 .f32) (a9 : FVec Ideal S256x64 .f32) (a10 : FVec Ideal S64 .f32)
    (r : Fin 16384) (j : Fin 64) :
    refH1 u i a9 a10 (ix2 r j)
      = Cert.Spec.mlpH1 u i
          (extractStridedSlice Cert.KernelIdeal.S128x64 ![0, 0] a9 Cert.KernelIdeal.Facts₀.slices_S256x64_S128x64_0_0)
          (extractStridedSlice Cert.KernelIdeal.S128x64 ![128, 0] a9 Cert.KernelIdeal.Facts₀.slices_S256x64_S128x64_128_0)
          (shapeCast Cert.KernelIdeal.S1x64 a10 Cert.KernelIdeal.Facts₀.shapeCasts_S64_S1x64) r j := by
  unfold refH1 Cert.Spec.mlpH1
  rw [maximumf_apply, addf_apply, dot1_at, bias_at, zero_at, sum_256]
  refine congrArg (max · Cert.Spec.zeroE) ?_
  refine congrArg₂ (· + ·) (congrArg₂ (· + ·) (Finset.sum_congr rfl fun k _ => ?_) (Finset.sum_congr rfl fun k _ => ?_)) ?_
  · rw [cat_left, w1a_at]
  · rw [cat_right, w1b_at]
  · exact (shapeCast_a_1a_apply a10 _ 0 j).symm

/-- The second layer at (r, j), of any first layer. -/
theorem refH2_at (x : FVec Ideal S16384x64 .f32) (a11 : FVec Ideal S64x32 .f32) (a12 : FVec Ideal S32 .f32)
    (r : Fin 16384) (j : Fin 32) :
    refH2 x a11 a12 (ix2 r j) = max ((∑ k : Fin 64, x (ix2 r k) * a11 (ix2 k j)) + a12 (ix1 j)) Cert.Spec.zeroE := by
  unfold refH2
  rw [maximumf_apply, addf_apply, dot2_at, bias_at, zero_at]

/-- The output layer at (r, 0), of any second layer. -/
theorem refOut_at (x : FVec Ideal S16384x32 .f32) (a13 : FVec Ideal S32x1 .f32) (a14 : FVec Ideal S1 .f32)
    (r : Fin 16384) (z : Fin 1) :
    refOut x a13 a14 (ix2 r z) = (∑ k : Fin 32, x (ix2 r k) * a13 (ix2 k z)) + a14 (ix1 z) := by
  unfold refOut
  rw [addf_apply, dot3_at, bias_at]

/-! ## The layers composed -/

/-- The reference's second layer over its first is the specification's second layer. -/
theorem h2_eq (u i : FVec Ideal S16384x128 .f32) (a9 : FVec Ideal S256x64 .f32) (a10 : FVec Ideal S64 .f32)
    (a11 : FVec Ideal S64x32 .f32) (a12 : FVec Ideal S32 .f32) (r : Fin 16384) (j : Fin 32) :
    refH2 (refH1 u i a9 a10) a11 a12 (ix2 r j)
      = Cert.Spec.mlpH2 u i
          (extractStridedSlice Cert.KernelIdeal.S128x64 ![0, 0] a9 Cert.KernelIdeal.Facts₀.slices_S256x64_S128x64_0_0)
          (extractStridedSlice Cert.KernelIdeal.S128x64 ![128, 0] a9 Cert.KernelIdeal.Facts₀.slices_S256x64_S128x64_128_0)
          (shapeCast Cert.KernelIdeal.S1x64 a10 Cert.KernelIdeal.Facts₀.shapeCasts_S64_S1x64) a11
          (shapeCast Cert.KernelIdeal.S1x32 a12 Cert.KernelIdeal.Facts₀.shapeCasts_S32_S1x32) r j := by
  rw [refH2_at]
  unfold Cert.Spec.mlpH2
  refine congrArg (max · Cert.Spec.zeroE) ?_
  refine congrArg₂ (· + ·) (Finset.sum_congr rfl fun k _ => ?_) ?_
  · rw [refH1_at]
  · exact (shapeCast_a_1a_apply a12 _ 0 j).symm

theorem mlp_eq (u i : FVec Ideal Cert.ReferenceIdeal.S16384x128 .f32) (a9 : FVec Ideal Cert.ReferenceIdeal.S256x64 .f32) (a10 : FVec Ideal Cert.ReferenceIdeal.S64 .f32)
    (a11 : FVec Ideal Cert.ReferenceIdeal.S64x32 .f32) (a12 : FVec Ideal Cert.ReferenceIdeal.S32 .f32) (a13 : FVec Ideal Cert.ReferenceIdeal.S32x1 .f32) (a14 : FVec Ideal Cert.ReferenceIdeal.S1 .f32) :
    Cert.ReferenceIdeal.Hand.mlp u i a9 a10 a11 a12 a13 a14
      = Cert.Spec.mlpArr u i
          (extractStridedSlice Cert.KernelIdeal.S128x64 ![0, 0] a9 Cert.KernelIdeal.Facts₀.slices_S256x64_S128x64_0_0)
          (extractStridedSlice Cert.KernelIdeal.S128x64 ![128, 0] a9 Cert.KernelIdeal.Facts₀.slices_S256x64_S128x64_128_0)
          (shapeCast Cert.KernelIdeal.S1x64 a10 Cert.KernelIdeal.Facts₀.shapeCasts_S64_S1x64) a11 (shapeCast Cert.KernelIdeal.S1x32 a12 Cert.KernelIdeal.Facts₀.shapeCasts_S32_S1x32) a13
          (shapeCast Cert.KernelIdeal.S1x1 a14 Cert.KernelIdeal.Facts₀.shapeCasts_S1_S1x1) := by
  funext y
  obtain ⟨r, z, rfl⟩ : ∃ (r : Fin 16384) (z : Fin 1), y = ix2 r z := ⟨y 0, y 1, eq_ix2 y⟩
  obtain rfl : z = 0 := Subsingleton.elim _ _
  rw [mlp_layers, refOut_at]
  show _ = Cert.Spec.mlpH u i _ _ _ a11 _ a13 _ r
  unfold Cert.Spec.mlpH
  refine congrArg₂ (· + ·) (Finset.sum_congr rfl fun k _ => ?_) ?_
  · rw [h2_eq]
  · exact (shapeCast_a_1a_apply a14 _ 0 0).symm

end Cert.Bridge

end
-- ==== Proof.Bridge.lean ====
/-
  The kernel program's result and the reference's are one function of the argument arrays over the extended
  reals: the halves of the wide accumulation are the two separate accumulations (BridgeSpmm), the convolution
  region's whole-array function is the reference's layer (BridgeGcn), the batch gathers are the same operations on
  both sides, and the perceptron region's function is the reference's perceptron with the first weight matrix split
  in two (BridgeMlp).
-/
import proofs.«133197_j52785148068369_1_alg».proof.Proof.BridgeSpmm
import proofs.«133197_j52785148068369_1_alg».proof.Proof.BridgeGcn
import proofs.«133197_j52785148068369_1_alg».proof.Proof.BridgeMlp

noncomputable section

namespace Cert.Bridge

open Idealize.ShloMosaic

/-- So are the wrapped batch rows. -/
theorem uIdx_eq (a : IVec Cert.ReferenceIdeal.S16384 32) : Cert.KernelIdeal.Hand.uIdx a = Cert.ReferenceIdeal.Hand.uIdx a := rfl
theorem iIdx_eq (a : IVec Cert.ReferenceIdeal.S16384 32) : Cert.KernelIdeal.Hand.iIdx a = Cert.ReferenceIdeal.Hand.iIdx a := rfl

/-- From one convolution result on: the batch gathers, the perceptron, the flattening. -/
theorem outOf_eq (fin : FVec Ideal Cert.ReferenceIdeal.S70000x128 .f32) (a9 : FVec Ideal Cert.ReferenceIdeal.S256x64 .f32) (a10 : FVec Ideal Cert.ReferenceIdeal.S64 .f32) (a11 : FVec Ideal Cert.ReferenceIdeal.S64x32 .f32)
    (a12 : FVec Ideal Cert.ReferenceIdeal.S32 .f32) (a13 : FVec Ideal Cert.ReferenceIdeal.S32x1 .f32) (a14 : FVec Ideal Cert.ReferenceIdeal.S1 .f32) (a15 a16 : IVec Cert.ReferenceIdeal.S16384 32) :
    Cert.KernelIdeal.Hand.outOf fin a9 a10 a11 a12 a13 a14 a15 a16 = Cert.ReferenceIdeal.Hand.outOf fin a9 a10 a11 a12 a13 a14 a15 a16 := by
  unfold Cert.KernelIdeal.Hand.outOf Cert.ReferenceIdeal.Hand.outOf
  rw [mlp_eq, uIdx_eq, iIdx_eq]
  rfl

/-- The two programs' results are one function of the seventeen argument arrays. -/
theorem out_eq (a0 : FVec Ideal Cert.ReferenceIdeal.S50000x64 .f32) (a1 : FVec Ideal Cert.ReferenceIdeal.S20000x64 .f32) (a2 a3 : IVec Cert.ReferenceIdeal.S2000000 32)
    (a4 : FVec Ideal Cert.ReferenceIdeal.S2000000 .f32) (a5 : FVec Ideal Cert.ReferenceIdeal.S64x64 .f32) (a6 : FVec Ideal Cert.ReferenceIdeal.S64 .f32)
    (a7 : FVec Ideal Cert.ReferenceIdeal.S64x64 .f32) (a8 : FVec Ideal Cert.ReferenceIdeal.S64 .f32)
    (a9 : FVec Ideal Cert.ReferenceIdeal.S256x64 .f32) (a10 : FVec Ideal Cert.ReferenceIdeal.S64 .f32) (a11 : FVec Ideal Cert.ReferenceIdeal.S64x32 .f32)
    (a12 : FVec Ideal Cert.ReferenceIdeal.S32 .f32) (a13 : FVec Ideal Cert.ReferenceIdeal.S32x1 .f32) (a14 : FVec Ideal Cert.ReferenceIdeal.S1 .f32) (a15 a16 : IVec Cert.ReferenceIdeal.S16384 32) :
    Cert.KernelIdeal.Hand.outOf (Cert.KernelIdeal.Hand.final a0 a1 a2 a3 a4 a5 a6 a7 a8) a9 a10 a11 a12 a13 a14 a15 a16
      = Cert.ReferenceIdeal.Hand.out a0 a1 a2 a3 a4 a5 a6 a7 a8 a9 a10 a11 a12 a13 a14 a15 a16 := by
  unfold Cert.ReferenceIdeal.Hand.out Cert.KernelIdeal.Hand.final
  rw [lx_eq, lx2_eq, ← feat_eq, ← gcn_eq]
  exact outOf_eq _ a9 a10 a11 a12 a13 a14 a15 a16

end Cert.Bridge

end
-- ==== Proof.lean ====
/-
  The certificate of the graph-convolution recommender kernel against its jnp reference.

  Both programs stack the two embedding tables into the [70000, 64] features, gather every edge's source row,
  weigh it and accumulate by destination row (the kernel program in one accumulation of width 128 for the
  features and their squares side by side; the reference in two of width 64), combine
  leaky((lx + feat)·Wg1 + bg1 + lx2·Wg2 + bg2) beside the features, gather the batch's user and item rows and run a
  three-layer perceptron on them. Over the extended reals the two results are one function of the arguments:
  a format change is the identity, a matrix product into a zero accumulator is the host's contraction, the wide
  accumulation's halves are the narrow accumulations, and the contraction over the 256 concatenated columns is the
  sum of the two contractions over 128. No finiteness of the inputs is used: only sums are regrouped.

  The three frames: the kernel's and the idealized kernel's are the generated whole-program frames; the reference's is
  its run with the result dropped. The idealization rewrote nothing, so its sanction is trivial.
-/
import proofs.«133197_j52785148068369_1_alg».proof.Defs
import proofs.«133197_j52785148068369_1_alg».proof.Proof.Gen.Kernel
import proofs.«133197_j52785148068369_1_alg».proof.Proof.Gen.Kernel.Skeleton
import proofs.«133197_j52785148068369_1_alg».proof.Proof.Gen.Kernel.Launch
import proofs.«133197_j52785148068369_1_alg».proof.Proof.Gen.Kernel.Points
import proofs.«133197_j52785148068369_1_alg».proof.Proof.Gen.Kernel.Frame
import proofs.«133197_j52785148068369_1_alg».proof.Proof.Gen.KernelIdeal
import proofs.«133197_j52785148068369_1_alg».proof.Proof.Gen.KernelIdeal.Skeleton
import proofs.«133197_j52785148068369_1_alg».proof.Proof.Gen.KernelIdeal.Launch
import proofs.«133197_j52785148068369_1_alg».proof.Proof.Gen.KernelIdeal.Points
import proofs.«133197_j52785148068369_1_alg».proof.Proof.Gen.KernelIdeal.Frame
import proofs.«133197_j52785148068369_1_alg».proof.Proof.Gen.ReferenceIdeal
import proofs.«133197_j52785148068369_1_alg».proof.Proof.Gen.Pre_finite_inputs
import proofs.«133197_j52785148068369_1_alg».proof.Proof.KernelIdealRun
import proofs.«133197_j52785148068369_1_alg».proof.Proof.KHost
import proofs.«133197_j52785148068369_1_alg».proof.Proof.RefRun
import proofs.«133197_j52785148068369_1_alg».proof.Proof.Bridge
import Idealize.ShloMosaic.Adequacy
import Idealize.ShloMosaic.Init

noncomputable section

namespace Cert.Proof

open Idealize.ShloMosaic Idealize.SL.Sem

/-- The kernel's frame: the generated whole-program frame. -/
theorem frame_k : Cert.frame_Kernel := fun m ρ _ => Cert.Kernel.Gen.frame m ρ

/-- The idealized kernel's frame: the generated whole-program frame. -/
theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Hand.run m ρ)

/-- Both runs end at the reference's function of the (agreeing) argument arrays. -/
theorem algebraic : Cert.algebraic_KernelIdeal_ReferenceIdeal := by
  intro m ρ m' ρ' _ hagree
  refine ⟨fun c => Cert.ReferenceIdeal.Hand.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun _ h c => ⟨(h c).1.trans ?_, (h c).2⟩) (Cert.KernelIdeal.Gen.run_result m ρ)
    exact (Cert.KernelIdeal.Hand.result_eq m ρ c).trans (Cert.Bridge.out_eq _ _ _ _ _ _ _ _ _ _ _ _ _ _ _ _ _)
  · refine (θ_run Cert.ReferenceIdeal.defs _ _).mono (fun _ h c => ⟨(h c).1.trans ?_, (h c).2⟩) (Cert.ReferenceIdeal.Hand.run m' ρ')
    obtain ⟨e0, e1, e2, e3, e4, e5, e6, e7, e8, e9, e10, e11, e12, e13, e14, e15, e16⟩ := hagree c
    rw [e0, e1, e2, e3, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
